-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S2x131072 : Shape := ⟨2, ![2, 131072]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S256x256 .f32) (main_arg2 : FVec F S256 .f32) (main_arg3 : FVec F S256 .f32) (main_arg4 : IVec S2x131072 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S256 : Shape := ⟨1, ![256]⟩
abbrev S2x131072 : Shape := ⟨2, ![2, 131072]⟩
abbrev S_ : Shape := ⟨0, ![]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S8192x2 : Shape := ⟨2, ![8192, 2]⟩
abbrev S1024x1024 : Shape := ⟨2, ![1024, 1024]⟩
abbrev S1024x1 : Shape := ⟨2, ![1024, 1]⟩
abbrev S1024 : Shape := ⟨1, ![1024]⟩
abbrev S1x256 : Shape := ⟨2, ![1, 256]⟩
abbrev S1024x256 : Shape := ⟨2, ![1024, 256]⟩

abbrev nBuf : Space → Nat
  | .hbm => 69
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S2x131072, .i32⟩
  | .hbm, ⟨5, _⟩ => ⟨S_, .f32⟩
  | .hbm, ⟨6, _⟩ => ⟨S8192x8192, .f32⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S_, .f32⟩
  | .hbm, ⟨29, _⟩ => ⟨S131072, .f32⟩
  | .hbm, ⟨30, _⟩ => ⟨S8192x8192, .f32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x1, .i32⟩
  | .hbm, ⟨48, _⟩ => ⟨S8192x2, .i32⟩
  | .hbm, ⟨49, _⟩ => ⟨S_, .f32⟩
  | .hbm, ⟨50, _⟩ => ⟨S8192, .f32⟩
  | .hbm, ⟨51, _⟩ => ⟨S8192x8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .i1⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x256, .f32⟩
  | .hbm, ⟨65, _⟩ => ⟨S8192x256, .f32⟩
  | .hbm, ⟨66, _⟩ => ⟨S1x256, .f32⟩
  | .hbm, ⟨67, _⟩ => ⟨S1x256, .f32⟩
  | .hbm, ⟨68, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S1024x256, .f32⟩
  | .local _ .vmem, ⟨8, _⟩ => ⟨S1024x256, .f32⟩
  | .local _ .vmem, ⟨9, _⟩ => ⟨S1024x1, .f32⟩
  | .local _ .vmem, ⟨10, _⟩ => ⟨S1024x1, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_call0_v0 : Ref sig .tc := ⟨.hbm, 61, rfl⟩
abbrev main_call0_v1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  scatter_S8192x8192_S131072x2_S131072_n_01_01_1_wf : ScatterDims.WF S8192x8192 S131072x2 S131072 [] [0, 1] [0, 1] 1
  scatter_S8192x8192_S8192x2_S8192_n_01_01_1_wf : ScatterDims.WF S8192x8192 S8192x2 S8192 [] [0, 1] [0, 1] 1
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_v35) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v35) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S2x131072 : Shape := ⟨2, ![2, 131072]⟩
abbrev S_ : Shape := ⟨0, ![]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S1x256 : Shape := ⟨2, ![1, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S2x131072, .i32⟩
  | .hbm, ⟨5, _⟩ => ⟨S_, .f32⟩
  | .hbm, ⟨6, _⟩ => ⟨S8192x8192, .f32⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S_, .f32⟩
  | .hbm, ⟨29, _⟩ => ⟨S131072, .f32⟩
  | .hbm, ⟨30, _⟩ => ⟨S8192x8192, .f32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x1, .i32⟩
  | .hbm, ⟨48, _⟩ => ⟨S8192x2, .i32⟩
  | .hbm, ⟨49, _⟩ => ⟨S_, .f32⟩
  | .hbm, ⟨50, _⟩ => ⟨S8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .i1⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S1x8192, .f32⟩
  | .hbm, ⟨69, _⟩ => ⟨S8192x8192, .f32⟩
  | .hbm, ⟨70, _⟩ => ⟨S8192x8192, .f32⟩
  | .hbm, ⟨71, _⟩ => ⟨S8192x256, .f32⟩
  | .hbm, ⟨72, _⟩ => ⟨S256x256, .f32⟩
  | .hbm, ⟨73, _⟩ => ⟨S8192x256, .f32⟩
  | .hbm, ⟨74, _⟩ => ⟨S1x256, .f32⟩
  | .hbm, ⟨75, _⟩ => ⟨S8192x256, .f32⟩
  | .hbm, ⟨76, _⟩ => ⟨S8192x256, .f32⟩
  | .hbm, ⟨77, _⟩ => ⟨S1x256, .f32⟩
  | .hbm, ⟨78, _⟩ => ⟨S8192x256, .f32⟩
  | .hbm, ⟨79, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_call0_v0 : Ref sig .tc := ⟨.hbm, 62, rfl⟩
abbrev main_call0_v1 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  scatter_S8192x8192_S131072x2_S131072_n_01_01_1_wf : ScatterDims.WF S8192x8192 S131072x2 S131072 [] [0, 1] [0, 1] 1
  scatter_S8192x8192_S8192x2_S8192_n_01_01_1_wf : ScatterDims.WF S8192x8192 S8192x2 S8192 [] [0, 1] [0, 1] 1
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KB.DegBody.lean ====
/-
  The degree kernel (the first pallas_call): one grid point's body, case by case.

  The grid is 8 row blocks by 8 column blocks, point t = 8·(row block) + (column block). The body keeps a running
  column vector in its scratch: at column block 0 it first clears the scratch; at every point it adds the lane sums of
  the point's 1024×1024 block of the adjacency matrix to the scratch; at column block 7 it copies the scratch to the
  output block. So there are three control cases — first column block (clear, add), middle (add), last (add, copy out) —
  and in each the scratch ends at "previous contents (or zero) plus this block's row sums", stated here through the
  skeleton's payload `k0_pay2`.
-/
import proofs.«181802_j26431228739923_1_alg».proof.Proof.Gen.Kernel.Launch
import proofs.«181802_j26431228739923_1_alg».proof.Proof.Gen.Kernel.Skeleton
import proofs.«181802_j26431228739923_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "this is column block 0": the condition of the clearing branch, as the body computes it from the coordinates. -/
abbrev degFirst (i : grid0.Coords) : Prop := (Scalar.cmpi .ne (Scalar.extui (Scalar.cmpi .eq (BitVec.ofNat 32 (i 1).val) 0#32)) 0#32) = 1#1
theorem degFirst_iff : ∀ t : Fin cfg0.N, degFirst (grid0.coords t) ↔ t.val % 8 = 0 :=
  (by decide +kernel : ∀ t : Fin grid0.N, degFirst (grid0.coords t) ↔ t.val % 8 = 0)

/-- "this is column block 7": the condition of the copy-out branch. -/
abbrev degLast (i : grid0.Coords) : Prop := k0_cond2 i = 1#1
theorem degLast_iff : ∀ t : Fin cfg0.N, degLast (grid0.coords t) ↔ t.val % 8 = 7 :=
  (by decide +kernel : ∀ t : Fin grid0.N, degLast (grid0.coords t) ↔ t.val % 8 = 7)

/-! ## Where the output window is idle: everywhere but column block 7, and there it is neither stored nor written back -/

theorem deg_in_live : ∀ t : Fin cfg0.N, cfg0.idle 0 (grid0.coords t) = false := by decide +kernel
theorem deg_out_idle : ∀ t : Fin cfg0.N, ¬degLast (grid0.coords t) → cfg0.idle 1 (grid0.coords t) = true := by decide +kernel
theorem deg_out_noFlush : ∀ t : Fin cfg0.N, ¬degLast (grid0.coords t) → (cfg0.win 1).flush t = false := by decide +kernel
theorem deg_out_live : ∀ t : Fin cfg0.N, degLast (grid0.coords t) → cfg0.idle 1 (grid0.coords t) = false := by decide +kernel

/-! ## The memrefs the body is called with -/

abbrev degIn (t : Fin cfg0.N) : Memref sig .tc .vmem S1024x1024 .f32 := win0_0.stage (cfg0.slots t 0)
abbrev degIn_whole (t : Fin cfg0.N) : (degIn t).IsWhole := hstage0_0 ((cfg0.slots t 0).cast nbuf0_0)
abbrev degOut (t : Fin cfg0.N) : Memref sig .tc .vmem S1024x1 .f32 := win0_1.stage (cfg0.slots t 1)
abbrev degOut_whole (t : Fin cfg0.N) : (degOut t).IsWhole := hstage0_1 ((cfg0.slots t 1).cast nbuf0_1)
/-- The running column vector's scratch buffer. -/
abbrev degAcc : Memref sig .tc .vmem S1024x1 .f32 := Memref.whole cc0_scratch0

/-- The scoped buffers of the core that are neither this call's staging buffers nor its scratch (the second call's staging
    buffers and scratch), each at some contents: they ride along untouched. -/
def degOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The region's rest invariant with the scratch spelt as a memref owned at some contents. -/
theorem degRest_eq (c : Dev nD) :
    (Pipeline.ΦA spec0 c : sProp 𝕄)
      = iprop(iprop((∃ d, owns (c : Thread nD τ) degAcc fullShare d) ∗ degOthers c) ∗ (∃ r, prngReg c r)) := by
  unfold Pipeline.ΦA degOthers; rw [scopedRest0_eq]; simp only [degAcc, owns_whole]; try rfl

theorem zero2 : (![0, 0] : Fin 2 → Nat) = fun _ => 0 := funext fun a => by fin_cases a <;> rfl

/-! ## The body, case by case -/

set_option maxHeartbeats 1000000 in
/-- Column block 0: the scratch is cleared, then receives the block's row sums; the output block is left as found. -/
theorem deg_body_first (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : degFirst i) (hc1 : ¬degLast i)
    (x0 : Vec F S1024x1024 .f32) (xi1 : Vec F S1024x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 x0 (k0_pay1 (F := F)))) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (View.cover_of_tiledL _ S1024x1.size (by sl_kernel_rfl))]
  sl_unfold_words
  rw [View.canon_cons_unit_zero zero2]
  simp only [View.readAt_eq_ld, harg2.read_unread, View.ld_unit_zero (S := S1024x1024) zero2, View.readCov_unit_zero (S := S1024x1) _ zero2]

set_option maxHeartbeats 1000000 in
/-- A middle column block: the scratch, found at `s`, receives the block's row sums on top; the output block is left as found. -/
theorem deg_body_mid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬degFirst i) (hc1 : ¬degLast i)
    (x0 : Vec F S1024x1024 .f32) (xi1 : Vec F S1024x1 .f32) (s : Vec F S1024x1 .f32) (E : Set ℕ) (K : PUnit → sProp 𝕄) :
    iprop(owns (c : Thread nD τ) arg2 fullShare x0 ∗ owns (c : Thread nD τ) arg3 fullShare xi1 ∗ owns (c : Thread nD τ) arg4 fullShare s
        ∗ (iprop(owns (c : Thread nD τ) arg2 fullShare x0 ∗ owns (c : Thread nD τ) arg3 fullShare xi1 ∗ owns (c : Thread nD τ) arg4 fullShare (k0_pay2 x0 s)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (View.cover_of_tiledL _ S1024x1.size (by sl_kernel_rfl))]
  sl_unfold_words
  rw [View.canon_unit_zero zero2]
  simp only [View.readAt_eq_ld, harg2.read_unread, harg4.read_unread, View.ld_unit_zero (S := S1024x1024) zero2, View.ld_unit_zero (S := S1024x1) zero2]

set_option maxHeartbeats 1000000 in
/-- Column block 7: the scratch, found at `s`, receives the block's row sums on top, and the output block is overwritten with the result. -/
theorem deg_body_last (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬degFirst i) (hc1 : degLast i)
    (x0 : Vec F S1024x1024 .f32) (s : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare s
        ∗ (iprop(owns (c : Thread nD τ) arg2 fullShare x0 ∗ owns (c : Thread nD τ) arg3 fullShare (k0_pay2 x0 s) ∗ owns (c : Thread nD τ) arg4 fullShare (k0_pay2 x0 s)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [View.read_writes_eq_canon _ _ _ (View.cover_of_tiledL _ S1024x1.size (by sl_kernel_rfl))]
    sl_unfold_words
    rw [View.canon_unit_zero zero2]
    simp only [View.readAt_eq_ld, harg2.read_unread, harg4.read_unread, View.ld_unit_zero (S := S1024x1024) zero2, View.ld_unit_zero (S := S1024x1) zero2, View.readCov_unit_zero (S := S1024x1) _ zero2]
  iexists _; isplitr
  swap; · iexact HS0
  ipureintro
  rw [View.read_writes_eq_canon _ _ _ (View.cover_of_tiledL _ S1024x1.size (by sl_kernel_rfl))]
  sl_unfold_words
  rw [View.canon_unit_zero zero2]
  simp only [View.readAt_eq_ld, harg2.read_unread, harg4.read_unread, View.ld_unit_zero (S := S1024x1024) zero2, View.ld_unit_zero (S := S1024x1) zero2]

end Cert.Kernel.Hand
end
-- ==== Proof.KB.DegFrame.lean ====
/-
  The degree kernel over its whole grid: what the running column vector holds after each point, the region's
  invariant that carries it from point to point, the proof data, and the body's obligation at every point.

  After the point at column block k of a row block, the scratch holds the sums of the row block's rows over the columns
  of blocks 0 … k: the recursion `degAccAt` below (cleared at k = 0, otherwise on top of the point before). The output
  block is stored at k = 7 only, where it takes the scratch's contents.
-/
import proofs.«181802_j26431228739923_1_alg».proof.Proof.KB.DegBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def degBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block is in its staging buffer at every point (it is fetched at every point), for any proof data
    over `V`'s arrays that leaves it in place. -/
theorem deg_in_before_of {c : Dev nD} (dat : Dat τ (Elt F) Unit ℕ (UR sig nD τ) ℕ cfg0 c) (hA : dat.A 0 = V c (Pipeline.arrRef spec0 0))
    (hafter : ∀ t, dat.after 0 t = degBlk V c 0 t) (t : Fin cfg0.N) (d) : dat.before 0 t d = degBlk V c 0 t :=
  (dat.before_in_eq_fetched 0 rfl (fun _ => rfl) (fun _ _ _ => rfl) (fun t => by rw [hafter]; unfold Dat.blockOf degBlk; rw [hA]; try rfl) t d).trans
    (by unfold Dat.fetched Dat.blockOf degBlk; rw [hA]; try rfl)

/-- THE RUNNING SUM. What the scratch holds after the body at position `n`: the point's block's row sums on top of zero
    at column block 0, on top of what the point before left otherwise. -/
def degAccAt (c : Dev nD) : (n : ℕ) → n < cfg0.N → Vec F S1024x1 .f32
  | 0, hn => k0_pay2 (degBlk V c 0 ⟨0, hn⟩) (k0_pay1 (F := F))
  | n + 1, hn =>
    if (n + 1) % 8 = 0 then k0_pay2 (degBlk V c 0 ⟨n + 1, hn⟩) (k0_pay1 (F := F))
    else k0_pay2 (degBlk V c 0 ⟨n + 1, hn⟩) (degAccAt c n (Nat.lt_of_succ_lt hn))

theorem degAccAt_first (c : Dev nD) (t : Fin cfg0.N) (h : t.val % 8 = 0) :
    degAccAt V c t.val t.isLt = k0_pay2 (degBlk V c 0 t) (k0_pay1 (F := F)) := by
  obtain ⟨n, hn⟩ := t
  cases n with
  | zero => rfl
  | succ n => exact (if_pos h).trans rfl

theorem degAccAt_next (c : Dev nD) (t : Fin cfg0.N) (h : ¬t.val % 8 = 0) :
    degAccAt V c t.val t.isLt = k0_pay2 (degBlk V c 0 t) (degAccAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point the launch's (every scoped buffer at
    anything); afterwards the scratch at what the point before left, the other scoped buffers at anything, the
    generator register at some state. -/
def degInv (c : Dev nD) : (n : ℕ) → n ≤ cfg0.N → sProp 𝕄
  | 0, _ => Pipeline.ΦA spec0 c
  | n + 1, hn => iprop(iprop(owns (c : Thread nD τ) degAcc fullShare (degAccAt V c n hn) ∗ degOthers c) ∗ (∃ r, prngReg c r))

theorem degInv_zero (c : Dev nD) (n : ℕ) (h : n ≤ cfg0.N) (hz : n = 0) : degInv V c n h = Pipeline.ΦA spec0 c := by
  subst hz; rfl

theorem degInv_succ (c : Dev nD) (n : ℕ) (hn : n < cfg0.N) :
    degInv V c (n + 1) hn = iprop(iprop(owns (c : Thread nD τ) degAcc fullShare (degAccAt V c n hn) ∗ degOthers c) ∗ (∃ r, prngReg c r)) := rfl

theorem degInv_pos (c : Dev nD) (n : ℕ) (h : n ≤ cfg0.N) (hz : n ≠ 0) :
    degInv V c n h = iprop(iprop(owns (c : Thread nD τ) degAcc fullShare (degAccAt V c (n - 1) (by omega)) ∗ degOthers c) ∗ (∃ r, prngReg c r)) := by
  cases n with
  | zero => exact absurd rfl hz
  | succ n => rfl

/-- The proof data of the degree kernel's pipeline on core `c`: the arrays as the region finds them; after the body the
    adjacency block in place and the output's staging buffer at the running sum (stored at column block 7 only, where
    alone it is read); the invariant above; nothing owed; full shares. -/
def degDat (c : Dev nD) : Dat τ (Elt F) Unit ℕ (UR sig nD τ) ℕ cfg0 c where
  A w := V c (Pipeline.arrRef spec0 w)
  after w t := match w with
    | ⟨0, _⟩ => degBlk V c 0 t
    | ⟨1, _⟩ => degAccAt V c t.val t.isLt
  Φ t := degInv V c t.val (Nat.le_of_lt_succ t.isLt)
  q _ := fullShare
  owed _ := 0

theorem degDat_A (c : Dev nD) (w : Fin cfg0.W) : (degDat V c).A w = V c (Pipeline.arrRef spec0 w) := by
  dsimp only [degDat]

theorem degInv_castSucc (c : Dev nD) (t : Fin cfg0.N) :
    (degDat V c).Φ t.castSucc = degInv V c t.val (Nat.le_of_lt t.isLt) := by
  dsimp only [degDat]; simp only [Fin.coe_castSucc]

theorem degDat_after_in (c : Dev nD) (t : Fin cfg0.N) : (degDat V c).after 0 t = degBlk V c 0 t := by dsimp only [degDat]
theorem degDat_after_out (c : Dev nD) (t : Fin cfg0.N) : (degDat V c).after 1 t = degAccAt V c t.val t.isLt := by dsimp only [degDat]

theorem deg_in_before (c : Dev nD) (t : Fin cfg0.N) (d) : (degDat V c).before 0 t d = degBlk V c 0 t :=
  deg_in_before_of V (degDat V c) (degDat_A V c 0) (degDat_after_in V c) t d

/-! ## The body's obligation -/

def degPre (c : Dev nD) (t : Fin cfg0.N) : sProp 𝕄 :=
  iprop((degDat V c).Φ t.castSucc ∗ (degDat V c).owesAt () t.castSucc
    ∗ (∃ d, owns (c : Thread nD τ) (degIn t) fullShare ((degDat V c).before 0 t d))
    ∗ (∃ d, owns (c : Thread nD τ) (degOut t) fullShare ((degDat V c).before 1 t d)))

def degPost (c : Dev nD) (t : Fin cfg0.N) : sProp 𝕄 :=
  iprop((degDat V c).Φ t.succ ∗ (degDat V c).owesAt () t.succ
    ∗ (degDat V c).leavesExact 0 t
    ∗ (degDat V c).leavesExact 1 t)

set_option maxHeartbeats 4800000 in
/-- The body at any point: the column block decides the case; the invariant hands the body the scratch at what the
    point before left (at anything at the very first point, and at column block 0 it is cleared anyway) and takes it
    back at this point's running sum. -/
theorem deg_sound_body (c : Dev nD) (t : Fin cfg0.N) :
    degPre V c t ⊢ wp frame (wpE (defs₀ (F := F)) Variants.none c none) Set.univ (bodyAt0 t) (fun _ => degPost V c t) := by
  unfold degPre degPost bodyAt0
  simp only [deg_in_before]
  rw [show (degDat V c).owesAt () t.succ = (degDat V c).owesAt () t.castSucc from rfl]
  rw [show (degDat V c).Φ t.succ = degInv V c (t.val + 1) t.isLt from rfl, degInv_succ]
  rw [show (degDat V c).leavesExact 0 t = owns (c : Thread nD τ) (degIn t) fullShare ((degDat V c).after 0 t) from by
    unfold Dat.leavesExact; rw [deg_in_live t], degDat_after_in]
  have hN : t.val < 64 := lt_of_lt_of_eq t.isLt (show cfg0.N = 64 from N_0)
  by_cases h1 : t.val % 8 = 7
  · have h0 : ¬t.val % 8 = 0 := by omega
    have hz : t.val ≠ 0 := by omega
    rw [show (degDat V c).leavesExact 1 t = owns (c : Thread nD τ) (degOut t) fullShare ((degDat V c).after 1 t) from by
      unfold Dat.leavesExact; rw [deg_out_live t ((degLast_iff t).mpr h1)], degDat_after_out]
    rw [degAccAt_next V c t h0]
    rw [degInv_castSucc V c t, degInv_pos V c _ _ hz]
    iintro ⟨⟨⟨HS0, Hoth⟩, Hg⟩, Ho, ⟨%d0, H0⟩, ⟨%d1, H1⟩⟩
    iapply (deg_body_last c (grid0.coords t) _ _ _ _ _ _ (fun h => h0 ((degFirst_iff t).mp h)) ((degLast_iff t).mpr h1) (degBlk V c 0 t) _ Set.univ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · have hl : ¬degLast (grid0.coords t) := fun h => h1 ((degLast_iff t).mp h)
    rw [Dat.leavesExact_idle (degDat V c) 1 t (deg_out_idle t hl) (deg_out_noFlush t hl)]
    by_cases h0 : t.val % 8 = 0
    · rw [degAccAt_first V c t h0]
      by_cases hz : t.val = 0
      · rw [degInv_castSucc V c t, degInv_zero V c _ _ hz, degRest_eq]
        iintro ⟨⟨⟨HS0, Hoth⟩, Hg⟩, Ho, ⟨%d0, H0⟩, ⟨%d1, H1⟩⟩
        iapply (deg_body_first c (grid0.coords t) _ _ _ _ _ _ ((degFirst_iff t).mpr h0) hl (degBlk V c 0 t) _ Set.univ _)
        isplitl [H0]; · iexact H0
        isplitl [H1]; · iexact H1
        isplitl [HS0]; · iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
      · rw [degInv_castSucc V c t, degInv_pos V c _ _ hz]
        iintro ⟨⟨⟨HS0, Hoth⟩, Hg⟩, Ho, ⟨%d0, H0⟩, ⟨%d1, H1⟩⟩
        iapply (deg_body_first c (grid0.coords t) _ _ _ _ _ _ ((degFirst_iff t).mpr h0) hl (degBlk V c 0 t) _ Set.univ _)
        isplitl [H0]; · iexact H0
        isplitl [H1]; · iexact H1
        isplitl [HS0]; · iexists _; iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
    · have hz : t.val ≠ 0 := by omega
      rw [degAccAt_next V c t h0]
      rw [degInv_castSucc V c t, degInv_pos V c _ _ hz]
      iintro ⟨⟨⟨HS0, Hoth⟩, Hg⟩, Ho, ⟨%d0, H0⟩, ⟨%d1, H1⟩⟩
      iapply (deg_body_mid c (grid0.coords t) _ _ _ _ _ _ (fun h => h0 ((degFirst_iff t).mp h)) hl (degBlk V c 0 t) _ _ Set.univ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The library's body obligation, at every point. -/
theorem deg_body_obligation (c : Dev nD) : BodyObligation (degDat (F := F) V c) (defs₀ (F := F)) Variants.none () Set.univ := fun t => by
  rw [bigSep_W0, bigSep_W0]
  exact deg_sound_body V c t

/-- What the launch hands the region is the invariant before the first point. -/
theorem deg_inv_in (c : Dev nD) : Pipeline.ΦA spec0 c ⊢ (degDat V c).Φ 0 := by
  rw [show (degDat V c).Φ 0 = degInv V c 0 (Nat.zero_le _) from rfl, degInv_zero V c 0 _ rfl]
  try exact Idealize.SL.BI.Entails.refl _

/-- After the last point the invariant gives the launch's back: the scratch's contents are forgotten. -/
theorem deg_inv_out (c : Dev nD) : (degDat V c).Φ (Fin.last cfg0.N) ⊢ Pipeline.ΦA spec0 c := by
  have ht : (Fin.last cfg0.N).val ≠ 0 := by rw [Fin.val_last]; have : cfg0.N = 64 := N_0; omega
  rw [show (degDat V c).Φ (Fin.last cfg0.N) = degInv V c (Fin.last cfg0.N).val (Nat.le_of_lt_succ (Fin.last cfg0.N).isLt) from rfl,
    degInv_pos V c _ _ ht, degRest_eq]
  iintro ⟨⟨HS0, Hoth⟩, Hg⟩
  isplitl [HS0 Hoth]
  · isplitl [HS0]; · iexists _; iexact HS0
    iexact Hoth
  iexact Hg

end

end Cert.Kernel.Hand
end
-- ==== Proof.KB.GcnBody.lean ====
/-
  The message-passing kernel (the second pallas_call): one grid point's body, case by case.

  Same grid as the degree kernel: 8 row blocks by 8 column blocks, point t = 8·(row block) + (column block). The scratch is
  a 1024×256 accumulator: cleared at column block 0; at every point it receives the product of the point's 1024×1024
  adjacency block with the matching 1024×256 block of the row-scaled features; at column block 7 the accumulator's rows
  are scaled by the row factors, multiplied into the transposed weight, the two bias rows added, and the result stored
  into the output block. Three control cases as before, the scratch stated through the skeleton's payload `k1_pay2`, the
  output through `k1_pay3`.
-/
import proofs.«181802_j26431228739923_1_alg».proof.Proof.Gen.Kernel.Launch
import proofs.«181802_j26431228739923_1_alg».proof.Proof.Gen.Kernel.Skeleton
import proofs.«181802_j26431228739923_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

abbrev gcnFirst (i : grid1.Coords) : Prop := (Scalar.cmpi .ne (Scalar.extui (Scalar.cmpi .eq (BitVec.ofNat 32 (i 1).val) 0#32)) 0#32) = 1#1
theorem gcnFirst_iff : ∀ t : Fin cfg1.N, gcnFirst (grid1.coords t) ↔ t.val % 8 = 0 :=
  (by decide +kernel : ∀ t : Fin grid1.N, gcnFirst (grid1.coords t) ↔ t.val % 8 = 0)

abbrev gcnLast (i : grid1.Coords) : Prop := k1_cond2 i = 1#1
theorem gcnLast_iff : ∀ t : Fin cfg1.N, gcnLast (grid1.coords t) ↔ t.val % 8 = 7 :=
  (by decide +kernel : ∀ t : Fin grid1.N, gcnLast (grid1.coords t) ↔ t.val % 8 = 7)

/-! ## Where the windows are idle: the six inputs never, the output everywhere but column block 7 -/

theorem gcn_in_live : ∀ (w : Fin 6) (t : Fin cfg1.N), cfg1.idle (w.castSucc) (grid1.coords t) = false := by decide +kernel
theorem gcn_out_idle : ∀ t : Fin cfg1.N, ¬gcnLast (grid1.coords t) → cfg1.idle 6 (grid1.coords t) = true := by decide +kernel
theorem gcn_out_noFlush : ∀ t : Fin cfg1.N, ¬gcnLast (grid1.coords t) → (cfg1.win 6).flush t = false := by decide +kernel
theorem gcn_out_live : ∀ t : Fin cfg1.N, gcnLast (grid1.coords t) → cfg1.idle 6 (grid1.coords t) = false := by decide +kernel

/-! ## The memrefs the body is called with -/

abbrev gcnM0 (t : Fin cfg1.N) : Memref sig .tc .vmem S1024x1024 .f32 := win1_0.stage (cfg1.slots t 0)
abbrev gcnM0_whole (t : Fin cfg1.N) : (gcnM0 t).IsWhole := hstage1_0 ((cfg1.slots t 0).cast nbuf1_0)
abbrev gcnM1 (t : Fin cfg1.N) : Memref sig .tc .vmem S1024x256 .f32 := win1_1.stage (cfg1.slots t 1)
abbrev gcnM1_whole (t : Fin cfg1.N) : (gcnM1 t).IsWhole := hstage1_1 ((cfg1.slots t 1).cast nbuf1_1)
abbrev gcnM2 (t : Fin cfg1.N) : Memref sig .tc .vmem S1024x1 .f32 := win1_2.stage (cfg1.slots t 2)
abbrev gcnM2_whole (t : Fin cfg1.N) : (gcnM2 t).IsWhole := hstage1_2 ((cfg1.slots t 2).cast nbuf1_2)
abbrev gcnM3 (t : Fin cfg1.N) : Memref sig .tc .vmem S256x256 .f32 := win1_3.stage (cfg1.slots t 3)
abbrev gcnM3_whole (t : Fin cfg1.N) : (gcnM3 t).IsWhole := hstage1_3 ((cfg1.slots t 3).cast nbuf1_3)
abbrev gcnM4 (t : Fin cfg1.N) : Memref sig .tc .vmem S1x256 .f32 := win1_4.stage (cfg1.slots t 4)
abbrev gcnM4_whole (t : Fin cfg1.N) : (gcnM4 t).IsWhole := hstage1_4 ((cfg1.slots t 4).cast nbuf1_4)
abbrev gcnM5 (t : Fin cfg1.N) : Memref sig .tc .vmem S1x256 .f32 := win1_5.stage (cfg1.slots t 5)
abbrev gcnM5_whole (t : Fin cfg1.N) : (gcnM5 t).IsWhole := hstage1_5 ((cfg1.slots t 5).cast nbuf1_5)
abbrev gcnM6 (t : Fin cfg1.N) : Memref sig .tc .vmem S1024x256 .f32 := win1_6.stage (cfg1.slots t 6)
abbrev gcnM6_whole (t : Fin cfg1.N) : (gcnM6 t).IsWhole := hstage1_6 ((cfg1.slots t 6).cast nbuf1_6)
/-- The accumulator's scratch buffer. -/
abbrev gcnAcc : Memref sig .tc .vmem S1024x256 .f32 := Memref.whole cc1_scratch0

/-- The scoped buffers of the core that are neither this call's staging buffers nor its scratch (the first call's staging
    buffers and scratch), each at some contents, around what is said of the scratch (`P`): they ride along untouched. -/
def gcnOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ P)

/-- The region's rest invariant with the scratch spelt as a memref owned at some contents. -/
theorem gcnRest_eq (c : Dev nD) :
    (Pipeline.ΦA spec1 c : sProp 𝕄)
      = iprop(gcnOthers c iprop(∃ d, owns (c : Thread nD τ) gcnAcc fullShare d) ∗ (∃ r, prngReg c r)) := by
  unfold Pipeline.ΦA gcnOthers; rw [scopedRest1_eq]; simp only [gcnAcc, owns_whole]; try rfl

theorem zero2' : (![0, 0] : Fin 2 → Nat) = fun _ => 0 := funext fun a => by fin_cases a <;> rfl

/-! ## The body, case by case -/

set_option maxHeartbeats 1000000 in
/-- Column block 0: the accumulator is cleared, then receives the block product; the output block is left as found. -/
theorem gcn_body_first (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : gcnFirst i) (hc1 : ¬gcnLast i)
    (x0 : Vec F S1024x1024 .f32) (x1 : Vec F S1024x256 .f32) (x2 : Vec F S1024x1 .f32) (x3 : Vec F S256x256 .f32) (x4 : Vec F S1x256 .f32) (x5 : Vec F S1x256 .f32) (xi : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare (k1_pay2 x0 x1 (k1_pay1 (F := F)))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS0
  ipureintro
  rw [View.read_writes_eq_canon _ _ _ (View.cover_of_tiledL _ S1024x256.size (by sl_kernel_rfl))]
  sl_unfold_words
  rw [View.canon_cons_unit_zero zero2']
  simp only [View.readAt_eq_ld, harg2.read_unread, harg3.read_unread, View.ld_unit_zero (S := S1024x1024) zero2', View.ld_unit_zero (S := S1024x256) zero2', View.readCov_unit_zero (S := S1024x256) _ zero2']

set_option maxHeartbeats 1000000 in
/-- A middle column block: the accumulator, found at `s`, receives the block product on top; the output block is left as found. -/
theorem gcn_body_mid (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬gcnFirst i) (hc1 : ¬gcnLast i)
    (x0 : Vec F S1024x1024 .f32) (x1 : Vec F S1024x256 .f32) (x2 : Vec F S1024x1 .f32) (x3 : Vec F S256x256 .f32) (x4 : Vec F S1x256 .f32) (x5 : Vec F S1x256 .f32) (xi : Vec F S1024x256 .f32) (s : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare (k1_pay2 x0 x1 s)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS0
  ipureintro
  rw [View.read_writes_eq_canon _ _ _ (View.cover_of_tiledL _ S1024x256.size (by sl_kernel_rfl))]
  sl_unfold_words
  rw [View.canon_unit_zero zero2']
  simp only [View.readAt_eq_ld, harg2.read_unread, harg3.read_unread, harg9.read_unread, View.ld_unit_zero (S := S1024x1024) zero2', View.ld_unit_zero (S := S1024x256) zero2']

set_option maxHeartbeats 1000000 in
/-- Column block 7: the accumulator, found at `s`, receives the block product on top, and the output block is overwritten
    with the scaled, projected and biased accumulator. -/
theorem gcn_body_last (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬gcnFirst i) (hc1 : gcnLast i)
    (x0 : Vec F S1024x1024 .f32) (x1 : Vec F S1024x256 .f32) (x2 : Vec F S1024x1 .f32) (x3 : Vec F S256x256 .f32) (x4 : Vec F S1x256 .f32) (x5 : Vec F S1x256 .f32) (s : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay3 (k1_pay2 x0 x1 s) x2 x3 x4 x5) ∗ owns (c : Thread nD τ) arg9 fullShare (k1_pay2 x0 x1 s)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (View.cover_of_tiledL _ S1024x256.size (by sl_kernel_rfl))]
    sl_unfold_words
    rw [View.canon_unit_zero zero2']
    simp only [View.readAt_eq_ld, harg2.read_unread, harg3.read_unread, harg4.read_unread, harg5.read_unread, harg6.read_unread, harg7.read_unread, harg9.read_unread, View.ld_unit_zero (S := S1024x1024) zero2', View.ld_unit_zero (S := S1024x256) zero2', View.ld_unit_zero (S := S1024x1) zero2', View.ld_unit_zero (S := S256x256) zero2', View.ld_unit_zero (S := S1x256) zero2', View.readCov_unit_zero (S := S1024x256) _ zero2']
  iexists _; isplitr
  swap; · iexact HS0
  ipureintro
  rw [View.read_writes_eq_canon _ _ _ (View.cover_of_tiledL _ S1024x256.size (by sl_kernel_rfl))]
  sl_unfold_words
  rw [View.canon_unit_zero zero2']
  simp only [View.readAt_eq_ld, harg2.read_unread, harg3.read_unread, harg9.read_unread, View.ld_unit_zero (S := S1024x1024) zero2', View.ld_unit_zero (S := S1024x256) zero2']

end Cert.Kernel.Hand
end
-- ==== Proof.KB.GcnFrame.lean ====
/-
  The message-passing kernel over its whole grid: what the accumulator holds after each point, what the output block is
  stored with, the region's invariant, the proof data, and the body's obligation at every point.

  After the point at column block k of a row block, the accumulator holds the product of the row block's rows of the
  adjacency matrix, restricted to the columns of blocks 0 … k, with the matching rows of the scaled features: the
  recursion `gcnAccAt`. At k = 7 the output block is stored with `k1_pay3` of the accumulator and the small operands.
-/
import proofs.«181802_j26431228739923_1_alg».proof.Proof.KB.GcnBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def gcnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR. What the scratch holds after the body at position `n`: the point's block product on top of zero at
    column block 0, on top of what the point before left otherwise. -/
def gcnAccAt (c : Dev nD) : (n : ℕ) → n < cfg1.N → Vec F S1024x256 .f32
  | 0, hn => k1_pay2 (gcnBlk V c 0 ⟨0, hn⟩) (gcnBlk V c 1 ⟨0, hn⟩) (k1_pay1 (F := F))
  | n + 1, hn =>
    if (n + 1) % 8 = 0 then k1_pay2 (gcnBlk V c 0 ⟨n + 1, hn⟩) (gcnBlk V c 1 ⟨n + 1, hn⟩) (k1_pay1 (F := F))
    else k1_pay2 (gcnBlk V c 0 ⟨n + 1, hn⟩) (gcnBlk V c 1 ⟨n + 1, hn⟩) (gcnAccAt c n (Nat.lt_of_succ_lt hn))

theorem gcnAccAt_first (c : Dev nD) (t : Fin cfg1.N) (h : t.val % 8 = 0) :
    gcnAccAt V c t.val t.isLt = k1_pay2 (gcnBlk V c 0 t) (gcnBlk V c 1 t) (k1_pay1 (F := F)) := by
  obtain ⟨n, hn⟩ := t
  cases n with
  | zero => rfl
  | succ n => exact (if_pos h).trans rfl

theorem gcnAccAt_next (c : Dev nD) (t : Fin cfg1.N) (h : ¬t.val % 8 = 0) :
    gcnAccAt V c t.val t.isLt = k1_pay2 (gcnBlk V c 0 t) (gcnBlk V c 1 t) (gcnAccAt V c (t.val - 1) (Nat.lt_of_le_of_lt (Nat.sub_le _ _) t.isLt)) := by
  obtain ⟨n, hn⟩ := t
  cases n with
  | zero => exact absurd (Nat.zero_mod _) h
  | succ n => exact (if_neg h).trans rfl

/-- What the output block is stored with at point `t` (consulted at column block 7 only, where it is stored). -/
def gcnOutAt (c : Dev nD) (t : Fin cfg1.N) : Vec F S1024x256 .f32 :=
  k1_pay3 (gcnAccAt V c t.val t.isLt) (gcnBlk V c 2 t) (gcnBlk V c 3 t) (gcnBlk V c 4 t) (gcnBlk V c 5 t)

/-- The region's invariant before position `n`: before the first point the launch's (every scoped buffer at anything);
    afterwards the accumulator at what the point before left, the other scoped buffers at anything, the generator
    register at some state. -/
def gcnInv (c : Dev nD) : (n : ℕ) → n ≤ cfg1.N → sProp 𝕄
  | 0, _ => Pipeline.ΦA spec1 c
  | n + 1, hn => iprop(gcnOthers c (owns (c : Thread nD τ) gcnAcc fullShare (gcnAccAt V c n hn)) ∗ (∃ r, prngReg c r))

theorem gcnInv_zero (c : Dev nD) (n : ℕ) (h : n ≤ cfg1.N) (hz : n = 0) : gcnInv V c n h = Pipeline.ΦA spec1 c := by
  subst hz; rfl

theorem gcnInv_succ (c : Dev nD) (n : ℕ) (hn : n < cfg1.N) :
    gcnInv V c (n + 1) hn = iprop(gcnOthers c (owns (c : Thread nD τ) gcnAcc fullShare (gcnAccAt V c n hn)) ∗ (∃ r, prngReg c r)) := rfl

theorem gcnInv_pos (c : Dev nD) (n : ℕ) (h : n ≤ cfg1.N) (hz : n ≠ 0) :
    gcnInv V c n h = iprop(gcnOthers c (owns (c : Thread nD τ) gcnAcc fullShare (gcnAccAt V c (n - 1) (by omega))) ∗ (∃ r, prngReg c r)) := by
  cases n with
  | zero => exact absurd rfl hz
  | succ n => rfl

/-- The proof data of the second kernel's pipeline on core `c`: the arrays as the region finds them; after the body the
    six input blocks in place and the output's staging buffer at `gcnOutAt`; the invariant above; nothing owed; full shares. -/
def gcnDat (c : Dev nD) : Dat τ (Elt F) Unit ℕ (UR sig nD τ) ℕ cfg1 c where
  A w := V c (Pipeline.arrRef spec1 w)
  after w t := match w with
    | ⟨0, _⟩ => gcnBlk V c 0 t
    | ⟨1, _⟩ => gcnBlk V c 1 t
    | ⟨2, _⟩ => gcnBlk V c 2 t
    | ⟨3, _⟩ => gcnBlk V c 3 t
    | ⟨4, _⟩ => gcnBlk V c 4 t
    | ⟨5, _⟩ => gcnBlk V c 5 t
    | ⟨6, _⟩ => gcnOutAt V c t
  Φ t := gcnInv V c t.val (Nat.le_of_lt_succ t.isLt)
  q _ := fullShare
  owed _ := 0

theorem gcnDat_A (c : Dev nD) (w : Fin cfg1.W) : (gcnDat V c).A w = V c (Pipeline.arrRef spec1 w) := by
  dsimp only [gcnDat]

theorem gcnDat_after_out (c : Dev nD) (t : Fin cfg1.N) : (gcnDat V c).after 6 t = gcnOutAt V c t := by dsimp only [gcnDat]

/-! ## The six input blocks are in their staging buffers at every point -/

/-- Input window 0's block is in its staging buffer at every point, fetched there or not (unfetched, the block index
    has not moved since the point that fetched it), for any proof data over `V`'s arrays that leaves it in place. -/
theorem gcn_in_before_of0 {c : Dev nD} (dat : Dat τ (Elt F) Unit ℕ (UR sig nD τ) ℕ cfg1 c) (hA : dat.A 0 = V c (Pipeline.arrRef spec1 0))
    (hafter : ∀ t, dat.after 0 t = gcnBlk V c 0 t) (t : Fin cfg1.N) (d) : dat.before 0 t d = gcnBlk V c 0 t :=
  (dat.before_in_eq_fetched 0 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 1's block is in its staging buffer at every point, fetched there or not (unfetched, the block index
    has not moved since the point that fetched it), for any proof data over `V`'s arrays that leaves it in place. -/
theorem gcn_in_before_of1 {c : Dev nD} (dat : Dat τ (Elt F) Unit ℕ (UR sig nD τ) ℕ cfg1 c) (hA : dat.A 1 = V c (Pipeline.arrRef spec1 1))
    (hafter : ∀ t, dat.after 1 t = gcnBlk V c 1 t) (t : Fin cfg1.N) (d) : dat.before 1 t d = gcnBlk V c 1 t :=
  (dat.before_in_eq_fetched 1 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 2's block is in its staging buffer at every point, fetched there or not (unfetched, the block index
    has not moved since the point that fetched it), for any proof data over `V`'s arrays that leaves it in place. -/
theorem gcn_in_before_of2 {c : Dev nD} (dat : Dat τ (Elt F) Unit ℕ (UR sig nD τ) ℕ cfg1 c) (hA : dat.A 2 = V c (Pipeline.arrRef spec1 2))
    (hafter : ∀ t, dat.after 2 t = gcnBlk V c 2 t) (t : Fin cfg1.N) (d) : dat.before 2 t d = gcnBlk V c 2 t :=
  (dat.before_in_eq_fetched 2 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 3's block is in its staging buffer at every point, fetched there or not (unfetched, the block index
    has not moved since the point that fetched it), for any proof data over `V`'s arrays that leaves it in place. -/
theorem gcn_in_before_of3 {c : Dev nD} (dat : Dat τ (Elt F) Unit ℕ (UR sig nD τ) ℕ cfg1 c) (hA : dat.A 3 = V c (Pipeline.arrRef spec1 3))
    (hafter : ∀ t, dat.after 3 t = gcnBlk V c 3 t) (t : Fin cfg1.N) (d) : dat.before 3 t d = gcnBlk V c 3 t :=
  (dat.before_in_eq_fetched 3 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 4's block is in its staging buffer at every point, fetched there or not (unfetched, the block index
    has not moved since the point that fetched it), for any proof data over `V`'s arrays that leaves it in place. -/
theorem gcn_in_before_of4 {c : Dev nD} (dat : Dat τ (Elt F) Unit ℕ (UR sig nD τ) ℕ cfg1 c) (hA : dat.A 4 = V c (Pipeline.arrRef spec1 4))
    (hafter : ∀ t, dat.after 4 t = gcnBlk V c 4 t) (t : Fin cfg1.N) (d) : dat.before 4 t d = gcnBlk V c 4 t :=
  (dat.before_in_eq_fetched 4 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 5's block is in its staging buffer at every point, fetched there or not (unfetched, the block index
    has not moved since the point that fetched it), for any proof data over `V`'s arrays that leaves it in place. -/
theorem gcn_in_before_of5 {c : Dev nD} (dat : Dat τ (Elt F) Unit ℕ (UR sig nD τ) ℕ cfg1 c) (hA : dat.A 5 = V c (Pipeline.arrRef spec1 5))
    (hafter : ∀ t, dat.after 5 t = gcnBlk V c 5 t) (t : Fin cfg1.N) (d) : dat.before 5 t d = gcnBlk V c 5 t :=
  (dat.before_in_eq_fetched 5 rfl (fun _ => rfl) (fun _ _ _ => rfl) (fun t => by rw [hafter]; unfold Dat.blockOf gcnBlk; rw [hA]; try rfl) t d).trans
    (by unfold Dat.fetched Dat.blockOf gcnBlk; rw [hA]; try rfl)

theorem gcnInv_castSucc (c : Dev nD) (t : Fin cfg1.N) :
    (gcnDat V c).Φ t.castSucc = gcnInv V c t.val (Nat.le_of_lt t.isLt) := by
  dsimp only [gcnDat]; simp only [Fin.coe_castSucc]

theorem gcnDat_after_in0 (c : Dev nD) (t : Fin cfg1.N) : (gcnDat V c).after 0 t = gcnBlk V c 0 t := by dsimp only [gcnDat]
theorem gcnDat_after_in1 (c : Dev nD) (t : Fin cfg1.N) : (gcnDat V c).after 1 t = gcnBlk V c 1 t := by dsimp only [gcnDat]
theorem gcnDat_after_in2 (c : Dev nD) (t : Fin cfg1.N) : (gcnDat V c).after 2 t = gcnBlk V c 2 t := by dsimp only [gcnDat]
theorem gcnDat_after_in3 (c : Dev nD) (t : Fin cfg1.N) : (gcnDat V c).after 3 t = gcnBlk V c 3 t := by dsimp only [gcnDat]
theorem gcnDat_after_in4 (c : Dev nD) (t : Fin cfg1.N) : (gcnDat V c).after 4 t = gcnBlk V c 4 t := by dsimp only [gcnDat]
theorem gcnDat_after_in5 (c : Dev nD) (t : Fin cfg1.N) : (gcnDat V c).after 5 t = gcnBlk V c 5 t := by dsimp only [gcnDat]

theorem gcn_in_before0 (c : Dev nD) (t : Fin cfg1.N) (d) : (gcnDat V c).before 0 t d = gcnBlk V c 0 t :=
  gcn_in_before_of0 V (gcnDat V c) (gcnDat_A V c 0) (gcnDat_after_in0 V c) t d
theorem gcn_in_before1 (c : Dev nD) (t : Fin cfg1.N) (d) : (gcnDat V c).before 1 t d = gcnBlk V c 1 t :=
  gcn_in_before_of1 V (gcnDat V c) (gcnDat_A V c 1) (gcnDat_after_in1 V c) t d
theorem gcn_in_before2 (c : Dev nD) (t : Fin cfg1.N) (d) : (gcnDat V c).before 2 t d = gcnBlk V c 2 t :=
  gcn_in_before_of2 V (gcnDat V c) (gcnDat_A V c 2) (gcnDat_after_in2 V c) t d
theorem gcn_in_before3 (c : Dev nD) (t : Fin cfg1.N) (d) : (gcnDat V c).before 3 t d = gcnBlk V c 3 t :=
  gcn_in_before_of3 V (gcnDat V c) (gcnDat_A V c 3) (gcnDat_after_in3 V c) t d
theorem gcn_in_before4 (c : Dev nD) (t : Fin cfg1.N) (d) : (gcnDat V c).before 4 t d = gcnBlk V c 4 t :=
  gcn_in_before_of4 V (gcnDat V c) (gcnDat_A V c 4) (gcnDat_after_in4 V c) t d
theorem gcn_in_before5 (c : Dev nD) (t : Fin cfg1.N) (d) : (gcnDat V c).before 5 t d = gcnBlk V c 5 t :=
  gcn_in_before_of5 V (gcnDat V c) (gcnDat_A V c 5) (gcnDat_after_in5 V c) t d

theorem gcn_in_live0 (t : Fin cfg1.N) : cfg1.idle 0 (grid1.coords t) = false := gcn_in_live 0 t
theorem gcn_in_live1 (t : Fin cfg1.N) : cfg1.idle 1 (grid1.coords t) = false := gcn_in_live 1 t
theorem gcn_in_live2 (t : Fin cfg1.N) : cfg1.idle 2 (grid1.coords t) = false := gcn_in_live 2 t
theorem gcn_in_live3 (t : Fin cfg1.N) : cfg1.idle 3 (grid1.coords t) = false := gcn_in_live 3 t
theorem gcn_in_live4 (t : Fin cfg1.N) : cfg1.idle 4 (grid1.coords t) = false := gcn_in_live 4 t
theorem gcn_in_live5 (t : Fin cfg1.N) : cfg1.idle 5 (grid1.coords t) = false := gcn_in_live 5 t

theorem gcn_leaves_in0 (c : Dev nD) (t : Fin cfg1.N) :
    (gcnDat V c).leavesExact 0 t = owns (c : Thread nD τ) (gcnM0 t) fullShare (gcnBlk V c 0 t) := by
  unfold Dat.leavesExact; rw [gcn_in_live0 t, gcnDat_after_in0]
theorem gcn_leaves_in1 (c : Dev nD) (t : Fin cfg1.N) :
    (gcnDat V c).leavesExact 1 t = owns (c : Thread nD τ) (gcnM1 t) fullShare (gcnBlk V c 1 t) := by
  unfold Dat.leavesExact; rw [gcn_in_live1 t, gcnDat_after_in1]
theorem gcn_leaves_in2 (c : Dev nD) (t : Fin cfg1.N) :
    (gcnDat V c).leavesExact 2 t = owns (c : Thread nD τ) (gcnM2 t) fullShare (gcnBlk V c 2 t) := by
  unfold Dat.leavesExact; rw [gcn_in_live2 t, gcnDat_after_in2]
theorem gcn_leaves_in3 (c : Dev nD) (t : Fin cfg1.N) :
    (gcnDat V c).leavesExact 3 t = owns (c : Thread nD τ) (gcnM3 t) fullShare (gcnBlk V c 3 t) := by
  unfold Dat.leavesExact; rw [gcn_in_live3 t, gcnDat_after_in3]
theorem gcn_leaves_in4 (c : Dev nD) (t : Fin cfg1.N) :
    (gcnDat V c).leavesExact 4 t = owns (c : Thread nD τ) (gcnM4 t) fullShare (gcnBlk V c 4 t) := by
  unfold Dat.leavesExact; rw [gcn_in_live4 t, gcnDat_after_in4]
theorem gcn_leaves_in5 (c : Dev nD) (t : Fin cfg1.N) :
    (gcnDat V c).leavesExact 5 t = owns (c : Thread nD τ) (gcnM5 t) fullShare (gcnBlk V c 5 t) := by
  unfold Dat.leavesExact; rw [gcn_in_live5 t, gcnDat_after_in5]

/-! ## The body's obligation -/

def gcnPre (c : Dev nD) (t : Fin cfg1.N) : sProp 𝕄 :=
  iprop((gcnDat V c).Φ t.castSucc ∗ (gcnDat V c).owesAt () t.castSucc
    ∗ (∃ d, owns (c : Thread nD τ) (gcnM0 t) fullShare ((gcnDat V c).before 0 t d))
    ∗ (∃ d, owns (c : Thread nD τ) (gcnM1 t) fullShare ((gcnDat V c).before 1 t d))
    ∗ (∃ d, owns (c : Thread nD τ) (gcnM2 t) fullShare ((gcnDat V c).before 2 t d))
    ∗ (∃ d, owns (c : Thread nD τ) (gcnM3 t) fullShare ((gcnDat V c).before 3 t d))
    ∗ (∃ d, owns (c : Thread nD τ) (gcnM4 t) fullShare ((gcnDat V c).before 4 t d))
    ∗ (∃ d, owns (c : Thread nD τ) (gcnM5 t) fullShare ((gcnDat V c).before 5 t d))
    ∗ (∃ d, owns (c : Thread nD τ) (gcnM6 t) fullShare ((gcnDat V c).before 6 t d)))

def gcnPost (c : Dev nD) (t : Fin cfg1.N) : sProp 𝕄 :=
  iprop((gcnDat V c).Φ t.succ ∗ (gcnDat V c).owesAt () t.succ
    ∗ (gcnDat V c).leavesExact 0 t
    ∗ (gcnDat V c).leavesExact 1 t
    ∗ (gcnDat V c).leavesExact 2 t
    ∗ (gcnDat V c).leavesExact 3 t
    ∗ (gcnDat V c).leavesExact 4 t
    ∗ (gcnDat V c).leavesExact 5 t
    ∗ (gcnDat V c).leavesExact 6 t)

set_option maxHeartbeats 4800000 in
/-- The body at any point: the column block decides the case; the invariant hands the body the accumulator at what the
    point before left (at anything at the very first point, and at column block 0 it is cleared anyway) and takes it
    back at this point's accumulated product; the six input blocks are handed over and taken back in place. -/
theorem gcn_sound_body (c : Dev nD) (t : Fin cfg1.N) :
    gcnPre V c t ⊢ wp frame (wpE (defs₀ (F := F)) Variants.none c none) Set.univ (bodyAt1 t) (fun _ => gcnPost V c t) := by
  unfold gcnPre gcnPost bodyAt1
  simp only [gcn_in_before0, gcn_in_before1, gcn_in_before2, gcn_in_before3, gcn_in_before4, gcn_in_before5]
  rw [show (gcnDat V c).owesAt () t.succ = (gcnDat V c).owesAt () t.castSucc from rfl]
  rw [show (gcnDat V c).Φ t.succ = gcnInv V c (t.val + 1) t.isLt from rfl, gcnInv_succ]
  rw [gcn_leaves_in0, gcn_leaves_in1, gcn_leaves_in2, gcn_leaves_in3, gcn_leaves_in4, gcn_leaves_in5]
  have hN : t.val < 64 := lt_of_lt_of_eq t.isLt (show cfg1.N = 64 from N_1)
  by_cases h1 : t.val % 8 = 7
  · have h0 : ¬t.val % 8 = 0 := by omega
    have hz : t.val ≠ 0 := by omega
    rw [show (gcnDat V c).leavesExact 6 t = owns (c : Thread nD τ) (gcnM6 t) fullShare ((gcnDat V c).after 6 t) from by
      unfold Dat.leavesExact; rw [gcn_out_live t ((gcnLast_iff t).mpr h1)], gcnDat_after_out]
    unfold gcnOutAt
    rw [gcnAccAt_next V c t h0]
    rw [gcnInv_castSucc V c t, gcnInv_pos V c _ _ hz]
    unfold gcnOthers
    iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (gcn_body_last c (grid1.coords t) _ _ _ _ _ _ _ _ _ _ _ _ _ _ _ _ (fun h => h0 ((gcnFirst_iff t).mp h)) ((gcnLast_iff t).mpr h1) (gcnBlk V c 0 t) (gcnBlk V c 1 t) (gcnBlk V c 2 t) (gcnBlk V c 3 t) (gcnBlk V c 4 t) (gcnBlk V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [Ha0 Ha1 Ha2 Ha3 Ha4 HS0 Hg]
    · isplitl [Ha0 Ha1 Ha2 Ha3 Ha4 HS0]
      · isplitl [Ha0]; · iexact Ha0
        isplitl [Ha1]; · iexact Ha1
        isplitl [Ha2]; · iexact Ha2
        isplitl [Ha3]; · iexact Ha3
        isplitl [Ha4]; · iexact Ha4
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hl : ¬gcnLast (grid1.coords t) := fun h => h1 ((gcnLast_iff t).mp h)
    rw [Dat.leavesExact_idle (gcnDat V c) 6 t (gcn_out_idle t hl) (gcn_out_noFlush t hl)]
    by_cases h0 : t.val % 8 = 0
    · rw [gcnAccAt_first V c t h0]
      by_cases hz : t.val = 0
      · rw [gcnInv_castSucc V c t, gcnInv_zero V c _ _ hz, gcnRest_eq]
        unfold gcnOthers
        iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
        iapply (gcn_body_first c (grid1.coords t) _ _ _ _ _ _ _ _ _ _ _ _ _ _ _ _ ((gcnFirst_iff t).mpr h0) hl (gcnBlk V c 0 t) (gcnBlk V c 1 t) (gcnBlk V c 2 t) (gcnBlk V c 3 t) (gcnBlk V c 4 t) (gcnBlk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [gcnInv_castSucc V c t, gcnInv_pos V c _ _ hz]
        unfold gcnOthers
        iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
        iapply (gcn_body_first c (grid1.coords t) _ _ _ _ _ _ _ _ _ _ _ _ _ _ _ _ ((gcnFirst_iff t).mpr h0) hl (gcnBlk V c 0 t) (gcnBlk V c 1 t) (gcnBlk V c 2 t) (gcnBlk V c 3 t) (gcnBlk V c 4 t) (gcnBlk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, HS0⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := by omega
      rw [gcnAccAt_next V c t h0]
      rw [gcnInv_castSucc V c t, gcnInv_pos V c _ _ hz]
      unfold gcnOthers
      iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (gcn_body_mid c (grid1.coords t) _ _ _ _ _ _ _ _ _ _ _ _ _ _ _ _ (fun h => h0 ((gcnFirst_iff t).mp h)) hl (gcnBlk V c 0 t) (gcnBlk V c 1 t) (gcnBlk V c 2 t) (gcnBlk V c 3 t) (gcnBlk V c 4 t) (gcnBlk V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [Ha0 Ha1 Ha2 Ha3 Ha4 HS0 Hg]
      · isplitl [Ha0 Ha1 Ha2 Ha3 Ha4 HS0]
        · isplitl [Ha0]; · iexact Ha0
          isplitl [Ha1]; · iexact Ha1
          isplitl [Ha2]; · iexact Ha2
          isplitl [Ha3]; · iexact Ha3
          isplitl [Ha4]; · iexact Ha4
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem gcn_body_obligation (c : Dev nD) : BodyObligation (gcnDat (F := F) V c) (defs₀ (F := F)) Variants.none () Set.univ := fun t => by
  rw [bigSep_W1, bigSep_W1]
  exact gcn_sound_body V c t

/-- What the launch hands the region is the invariant before the first point. -/
theorem gcn_inv_in (c : Dev nD) : Pipeline.ΦA spec1 c ⊢ (gcnDat V c).Φ 0 := by
  rw [show (gcnDat V c).Φ 0 = gcnInv V c 0 (Nat.zero_le _) from rfl, gcnInv_zero V c 0 _ rfl]
  try exact Idealize.SL.BI.Entails.refl _

/-- After the last point the invariant gives the launch's back: the accumulator's contents are forgotten. -/
theorem gcn_inv_out (c : Dev nD) : (gcnDat V c).Φ (Fin.last cfg1.N) ⊢ Pipeline.ΦA spec1 c := by
  have ht : (Fin.last cfg1.N).val ≠ 0 := by rw [Fin.val_last]; have : cfg1.N = 64 := N_1; omega
  rw [show (gcnDat V c).Φ (Fin.last cfg1.N) = gcnInv V c (Fin.last cfg1.N).val (Nat.le_of_lt_succ (Fin.last cfg1.N).isLt) from rfl,
    gcnInv_pos V c _ _ ht, gcnRest_eq]
  unfold gcnOthers
  iintro ⟨⟨Ha0, Ha1, Ha2, Ha3, Ha4, HS0⟩, Hg⟩
  isplitl [Ha0 Ha1 Ha2 Ha3 Ha4 HS0]
  · isplitl [Ha0]; · iexact Ha0
    isplitl [Ha1]; · iexact Ha1
    isplitl [Ha2]; · iexact Ha2
    isplitl [Ha3]; · iexact Ha3
    isplitl [Ha4]; · iexact Ha4
    iexists _; iexact HS0
  iexact Hg

end

end Cert.Kernel.Hand
end
-- ==== Proof.KB.Fold.lean ====
/-
  The TensorCore's buffer contents at each boundary between the items of the program: the launch memory; after the host
  operations that build the dense adjacency matrix; after the degree kernel (its output array holding what its
  write-backs leave); after the host operations that turn the row sums into row factors and scale the features; after
  the message-passing kernel (its output array holding what its write-backs leave). Each kernel's proof data is taken at
  the contents its region is entered with.
-/
import proofs.«181802_j26431228739923_1_alg».proof.Proof.KB.DegFrame
import proofs.«181802_j26431228739923_1_alg».proof.Proof.KB.GcnFrame
import proofs.«181802_j26431228739923_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations that build the adjacency matrix (the degree kernel's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the degree kernel's exit: its arrays at what the pipeline leaves, every other buffer as entered. -/
def W2 (c : Dev nD) : Valuation τ sig (Elt F) :=
  Pipeline.withArrays spec0 c (W1 m ρ c) fun w => (degDat (V1 m ρ) c).arrAt w cfg0.N
theorem W2_arr (c : Dev nD) (w : Fin cfg0.W) :
    W2 m ρ c (Proc.devRef .tc (Pipeline.arrRef spec0 w)) = (degDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the comparison, the square root and the quotient. -/
abbrev W3 : Dev nD → Valuation τ sig (Elt F) := fun c => StableHlo.after hostOps1 (W2 m ρ c)
/-- After the selection of the row factors. -/
abbrev W4 : Dev nD → Valuation τ sig (Elt F) := fun c => StableHlo.after hostOps1_1 (W3 m ρ c)
/-- After the features are scaled and the two bias vectors laid out as rows (the second kernel's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second kernel's exit: its arrays at what the pipeline leaves, every other buffer as entered. -/
def W6 (c : Dev nD) : Valuation τ sig (Elt F) :=
  Pipeline.withArrays spec1 c (W5 m ρ c) fun w => (gcnDat (V5 m ρ) c).arrAt w cfg1.N
theorem W6_arr (c : Dev nD) (w : Fin cfg1.W) :
    W6 m ρ c (Proc.devRef .tc (Pipeline.arrRef spec1 w)) = (gcnDat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b

/-- A buffer no operation of a host stretch writes is left as it was (the lists of written references are the
    generated `hostOps…_W`). -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h

end Cert.Kernel.Hand
end
-- ==== Proof.KB.Launch.lean ====
/-
  The whole program's run: the launch, the host stretches and the two kernel regions in order, each region entered from
  the buffer contents the item before it left (`W0 … W6`), and what every weakly fair execution ends with: every
  unscoped buffer of the TensorCore at the last boundary's contents.
-/
import proofs.«181802_j26431228739923_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The exit contents of each kernel, as the two facts the rejoining of its arrays with the other buffers takes -/

/-- At the degree kernel's exit each of its arrays holds what the pipeline leaves, -/
theorem exitArr0 (c : Dev nD) (w : Fin cfg0.W) : (degDat (V1 m ρ) c).arrAt w cfg0.N = V2 m ρ c (Pipeline.arrRef spec0 w) :=
  (W2_arr m ρ c w).symm
/-- and every other buffer what it held at entry. -/
theorem exitRest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the message-passing kernel's exit each of its arrays holds what the pipeline leaves, -/
theorem exitArr1 (c : Dev nD) (w : Fin cfg1.W) : (gcnDat (V5 m ρ) c).arrAt w cfg1.N = V6 m ρ c (Pipeline.arrRef spec1 w) :=
  (W6_arr m ρ c w).symm
/-- and every other buffer what it held at entry. -/
theorem exitRest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and the thread state -/

/-- Every pipeline's proof data, each at the contents its region is entered with. -/
def pdats : (p : Fin 2) → (c : Dev nD) → Dat τ (Elt F) Unit ℕ (UR sig nD τ) ℕ (Pipeline.pin (pcfgs (F := F)) adm p) c
  | ⟨0, _⟩ => fun c => degDat (V1 m ρ) c
  | ⟨1, _⟩ => fun c => gcnDat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as an item of the run: over the unscoped references from the contents `W`, `R` riding along; it
    leaves those references at the stretch's result on `W c`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The regions as items of the run -/

set_option backward.isDefEq.respectTransparency.types false in
/-- THE DEGREE KERNEL'S REGION over the thread state: entered from every unscoped buffer at `W1`, left at `W2`. Its
    arrays are split out of the unscoped buffers and put back at the exit contents; the generator register and the
    scoped buffers no window stages go into the kernel's invariant before the first point and come back out of the one
    after the last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (deg_body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from deg_inv_in (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ (Pipeline.ΦA spec0 c : sProp 𝕄) from deg_inv_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MESSAGE-PASSING KERNEL'S REGION over the thread state: entered from every unscoped buffer at `W5`, left at
    `W6` (what the final memory is read against). The same four steps as the degree kernel's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (gcn_body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from gcn_inv_in (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from gcn_inv_out (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's six items in order: a host item per stretch from its boundary's contents, a region per kernel. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- The program IS the run of its items. -/
theorem main_run (c : Dev nD) : main (F := F) c = Pipeline.Seg.run (runSegs m ρ) := by
  rewrite [main_chain c, Pipeline.Seg.run_eq_chain,
    show (runSegs m ρ).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()) ] from rfl]
  rfl

set_option backward.isDefEq.respectTransparency.types false in
/-- THE RUN. At the compiled mesh, for any float family, from any memory with zero counters: every weakly fair execution
    of @main on the TensorCores terminates, nothing faulting, and the final memory holds every unscoped buffer of every
    core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand
end
-- ==== Proof.KB.Args.lean ====
/-
  The arguments end as launched: no host stretch writes an argument, the first kernel stages none, and the second kernel
  stages only the weight, as an input; so the last boundary's contents at an argument walk back to the launch memory.
-/
import proofs.«181802_j26431228739923_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first kernel leaves the adjacency matrix as it found it (an input window's array). -/
theorem W2_adj (c : Dev nD) : W2 m ρ c (Proc.devRef .tc main_v35) = W1 m ρ c (Proc.devRef .tc main_v35) :=
  (W2_arr m ρ c 0).trans (((degDat (V1 m ρ) c).arrAt_in 0 rfl _).trans (degDat_A (V1 m ρ) c 0))

/-- An argument reaches the degree kernel's exit as launched. -/
theorem W2_arg (c : Dev nD) (r : Ref sig .tc) (h1 : r ∉ hostOps0_W) (h2 : ∀ w, Pipeline.arrRef spec0 w ≠ r) :
    W2 m ρ c (Proc.devRef .tc r) = m ((c : Thread nD τ).loc r) :=
  (W2_of_ne m ρ c r h2).trans ((W1_of m ρ c r h1).trans rfl)

/-- A buffer the three host stretches between the kernels do not write is left as the first kernel's exit has it. -/
theorem W5_keep (c : Dev nD) (r : Ref sig .tc) (h1 : r ∉ hostOps1_W) (h2 : r ∉ hostOps1_1_W) (h3 : r ∉ hostOps1_2_W) :
    W5 m ρ c (Proc.devRef .tc r) = W2 m ρ c (Proc.devRef .tc r) :=
  (W5_of m ρ c r h3).trans ((W4_of m ρ c r h2).trans (W3_of m ρ c r h1))

theorem W6_arg0 (c : Dev nD) : W6 m ρ c (Proc.devRef .tc main_arg0) = m ((c : Thread nD τ).loc main_arg0) :=
  (W6_of_ne m ρ c main_arg0 (by decide)).trans ((W5_keep m ρ c main_arg0 (by decide) (by decide) (by decide)).trans (W2_arg m ρ c main_arg0 (by decide) (by decide)))
/-- The weight is the second kernel's fourth input window's array: left as found. -/
theorem W6_arg1 (c : Dev nD) : W6 m ρ c (Proc.devRef .tc main_arg1) = m ((c : Thread nD τ).loc main_arg1) :=
  (W6_arr m ρ c 3).trans (((gcnDat (V5 m ρ) c).arrAt_in 3 rfl _).trans ((gcnDat_A (V5 m ρ) c 3).trans
    ((W5_keep m ρ c main_arg1 (by decide) (by decide) (by decide)).trans (W2_arg m ρ c main_arg1 (by decide) (by decide)))))
theorem W6_arg2 (c : Dev nD) : W6 m ρ c (Proc.devRef .tc main_arg2) = m ((c : Thread nD τ).loc main_arg2) :=
  (W6_of_ne m ρ c main_arg2 (by decide)).trans ((W5_keep m ρ c main_arg2 (by decide) (by decide) (by decide)).trans (W2_arg m ρ c main_arg2 (by decide) (by decide)))
theorem W6_arg3 (c : Dev nD) : W6 m ρ c (Proc.devRef .tc main_arg3) = m ((c : Thread nD τ).loc main_arg3) :=
  (W6_of_ne m ρ c main_arg3 (by decide)).trans ((W5_keep m ρ c main_arg3 (by decide) (by decide) (by decide)).trans (W2_arg m ρ c main_arg3 (by decide) (by decide)))
theorem W6_arg4 (c : Dev nD) : W6 m ρ c (Proc.devRef .tc main_arg4) = m ((c : Thread nD τ).loc main_arg4) :=
  (W6_of_ne m ρ c main_arg4 (by decide)).trans ((W5_keep m ρ c main_arg4 (by decide) (by decide) (by decide)).trans (W2_arg m ρ c main_arg4 (by decide) (by decide)))

end Cert.Kernel.Hand
end
-- ==== Proof.KI.DegBody.lean ====
/-
  The degree kernel (the first pallas_call): one grid point's body, case by case.

  The grid is 8 row blocks by 8 column blocks, point t = 8·(row block) + (column block). The body keeps a running
  column vector in its scratch: at column block 0 it first clears the scratch; at every point it adds the lane sums of
  the point's 1024×1024 block of the adjacency matrix to the scratch; at column block 7 it copies the scratch to the
  output block. So there are three control cases — first column block (clear, add), middle (add), last (add, copy out) —
  and in each the scratch ends at "previous contents (or zero) plus this block's row sums", stated here through the
  skeleton's payload `k0_pay2`.
-/
import proofs.«181802_j26431228739923_1_alg».proof.Proof.Gen.KernelIdeal.Launch
import proofs.«181802_j26431228739923_1_alg».proof.Proof.Gen.KernelIdeal.Skeleton
import proofs.«181802_j26431228739923_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "this is column block 0": the condition of the clearing branch, as the body computes it from the coordinates. -/
abbrev degFirst (i : grid0.Coords) : Prop := (Scalar.cmpi .ne (Scalar.extui (Scalar.cmpi .eq (BitVec.ofNat 32 (i 1).val) 0#32)) 0#32) = 1#1
theorem degFirst_iff : ∀ t : Fin cfg0.N, degFirst (grid0.coords t) ↔ t.val % 8 = 0 :=
  (by decide +kernel : ∀ t : Fin grid0.N, degFirst (grid0.coords t) ↔ t.val % 8 = 0)

/-- "this is column block 7": the condition of the copy-out branch. -/
abbrev degLast (i : grid0.Coords) : Prop := k0_cond2 i = 1#1
theorem degLast_iff : ∀ t : Fin cfg0.N, degLast (grid0.coords t) ↔ t.val % 8 = 7 :=
  (by decide +kernel : ∀ t : Fin grid0.N, degLast (grid0.coords t) ↔ t.val % 8 = 7)

/-! ## Where the output window is idle: everywhere but column block 7, and there it is neither stored nor written back -/

theorem deg_in_live : ∀ t : Fin cfg0.N, cfg0.idle 0 (grid0.coords t) = false := by decide +kernel
theorem deg_out_idle : ∀ t : Fin cfg0.N, ¬degLast (grid0.coords t) → cfg0.idle 1 (grid0.coords t) = true := by decide +kernel
theorem deg_out_noFlush : ∀ t : Fin cfg0.N, ¬degLast (grid0.coords t) → (cfg0.win 1).flush t = false := by decide +kernel
theorem deg_out_live : ∀ t : Fin cfg0.N, degLast (grid0.coords t) → cfg0.idle 1 (grid0.coords t) = false := by decide +kernel

/-! ## The memrefs the body is called with -/

abbrev degIn (t : Fin cfg0.N) : Memref sig .tc .vmem S1024x1024 .f32 := win0_0.stage (cfg0.slots t 0)
abbrev degIn_whole (t : Fin cfg0.N) : (degIn t).IsWhole := hstage0_0 ((cfg0.slots t 0).cast nbuf0_0)
abbrev degOut (t : Fin cfg0.N) : Memref sig .tc .vmem S1024x1 .f32 := win0_1.stage (cfg0.slots t 1)
abbrev degOut_whole (t : Fin cfg0.N) : (degOut t).IsWhole := hstage0_1 ((cfg0.slots t 1).cast nbuf0_1)
/-- The running column vector's scratch buffer. -/
abbrev degAcc : Memref sig .tc .vmem S1024x1 .f32 := Memref.whole cc0_scratch0

/-- The scoped buffers of the core that are neither this call's staging buffers nor its scratch (the second call's staging
    buffers and scratch), each at some contents: they ride along untouched. -/
def degOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The region's rest invariant with the scratch spelt as a memref owned at some contents. -/
theorem degRest_eq (c : Dev nD) :
    (Pipeline.ΦA spec0 c : sProp 𝕄)
      = iprop(iprop((∃ d, owns (c : Thread nD τ) degAcc fullShare d) ∗ degOthers c) ∗ (∃ r, prngReg c r)) := by
  unfold Pipeline.ΦA degOthers; rw [scopedRest0_eq]; simp only [degAcc, owns_whole]; try rfl

theorem zero2 : (![0, 0] : Fin 2 → Nat) = fun _ => 0 := funext fun a => by fin_cases a <;> rfl

/-! ## The body, case by case -/

set_option maxHeartbeats 1000000 in
/-- Column block 0: the scratch is cleared, then receives the block's row sums; the output block is left as found. -/
theorem deg_body_first (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : degFirst i) (hc1 : ¬degLast i)
    (x0 : Vec F S1024x1024 .f32) (xi1 : Vec F S1024x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 x0 (k0_pay1 (F := F)))) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (View.cover_of_tiledL _ S1024x1.size (by sl_kernel_rfl))]
  sl_unfold_words
  rw [View.canon_cons_unit_zero zero2]
  simp only [View.readAt_eq_ld, harg2.read_unread, View.ld_unit_zero (S := S1024x1024) zero2, View.readCov_unit_zero (S := S1024x1) _ zero2]

set_option maxHeartbeats 1000000 in
/-- A middle column block: the scratch, found at `s`, receives the block's row sums on top; the output block is left as found. -/
theorem deg_body_mid (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬degFirst i) (hc1 : ¬degLast i)
    (x0 : Vec F S1024x1024 .f32) (xi1 : Vec F S1024x1 .f32) (s : Vec F S1024x1 .f32) (E : Set ℕ) (K : PUnit → sProp 𝕄) :
    iprop(owns (c : Thread nD τ) arg2 fullShare x0 ∗ owns (c : Thread nD τ) arg3 fullShare xi1 ∗ owns (c : Thread nD τ) arg4 fullShare s
        ∗ (iprop(owns (c : Thread nD τ) arg2 fullShare x0 ∗ owns (c : Thread nD τ) arg3 fullShare xi1 ∗ owns (c : Thread nD τ) arg4 fullShare (k0_pay2 x0 s)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (View.cover_of_tiledL _ S1024x1.size (by sl_kernel_rfl))]
  sl_unfold_words
  rw [View.canon_unit_zero zero2]
  simp only [View.readAt_eq_ld, harg2.read_unread, harg4.read_unread, View.ld_unit_zero (S := S1024x1024) zero2, View.ld_unit_zero (S := S1024x1) zero2]

set_option maxHeartbeats 1000000 in
/-- Column block 7: the scratch, found at `s`, receives the block's row sums on top, and the output block is overwritten with the result. -/
theorem deg_body_last (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬degFirst i) (hc1 : degLast i)
    (x0 : Vec F S1024x1024 .f32) (s : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare s
        ∗ (iprop(owns (c : Thread nD τ) arg2 fullShare x0 ∗ owns (c : Thread nD τ) arg3 fullShare (k0_pay2 x0 s) ∗ owns (c : Thread nD τ) arg4 fullShare (k0_pay2 x0 s)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [View.read_writes_eq_canon _ _ _ (View.cover_of_tiledL _ S1024x1.size (by sl_kernel_rfl))]
    sl_unfold_words
    rw [View.canon_unit_zero zero2]
    simp only [View.readAt_eq_ld, harg2.read_unread, harg4.read_unread, View.ld_unit_zero (S := S1024x1024) zero2, View.ld_unit_zero (S := S1024x1) zero2, View.readCov_unit_zero (S := S1024x1) _ zero2]
  iexists _; isplitr
  swap; · iexact HS0
  ipureintro
  rw [View.read_writes_eq_canon _ _ _ (View.cover_of_tiledL _ S1024x1.size (by sl_kernel_rfl))]
  sl_unfold_words
  rw [View.canon_unit_zero zero2]
  simp only [View.readAt_eq_ld, harg2.read_unread, harg4.read_unread, View.ld_unit_zero (S := S1024x1024) zero2, View.ld_unit_zero (S := S1024x1) zero2]

end Cert.KernelIdeal.Hand
end
-- ==== Proof.KI.DegFrame.lean ====
/-
  The degree kernel over its whole grid: what the running column vector holds after each point, the region's
  invariant that carries it from point to point, the proof data, and the body's obligation at every point.

  After the point at column block k of a row block, the scratch holds the sums of the row block's rows over the columns
  of blocks 0 … k: the recursion `degAccAt` below (cleared at k = 0, otherwise on top of the point before). The output
  block is stored at k = 7 only, where it takes the scratch's contents.
-/
import proofs.«181802_j26431228739923_1_alg».proof.Proof.KI.DegBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def degBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block is in its staging buffer at every point (it is fetched at every point), for any proof data
    over `V`'s arrays that leaves it in place. -/
theorem deg_in_before_of {c : Dev nD} (dat : Dat τ (Elt F) Unit ℕ (UR sig nD τ) ℕ cfg0 c) (hA : dat.A 0 = V c (Pipeline.arrRef spec0 0))
    (hafter : ∀ t, dat.after 0 t = degBlk V c 0 t) (t : Fin cfg0.N) (d) : dat.before 0 t d = degBlk V c 0 t :=
  (dat.before_in_eq_fetched 0 rfl (fun _ => rfl) (fun _ _ _ => rfl) (fun t => by rw [hafter]; unfold Dat.blockOf degBlk; rw [hA]; try rfl) t d).trans
    (by unfold Dat.fetched Dat.blockOf degBlk; rw [hA]; try rfl)

/-- THE RUNNING SUM. What the scratch holds after the body at position `n`: the point's block's row sums on top of zero
    at column block 0, on top of what the point before left otherwise. -/
def degAccAt (c : Dev nD) : (n : ℕ) → n < cfg0.N → Vec F S1024x1 .f32
  | 0, hn => k0_pay2 (degBlk V c 0 ⟨0, hn⟩) (k0_pay1 (F := F))
  | n + 1, hn =>
    if (n + 1) % 8 = 0 then k0_pay2 (degBlk V c 0 ⟨n + 1, hn⟩) (k0_pay1 (F := F))
    else k0_pay2 (degBlk V c 0 ⟨n + 1, hn⟩) (degAccAt c n (Nat.lt_of_succ_lt hn))

theorem degAccAt_first (c : Dev nD) (t : Fin cfg0.N) (h : t.val % 8 = 0) :
    degAccAt V c t.val t.isLt = k0_pay2 (degBlk V c 0 t) (k0_pay1 (F := F)) := by
  obtain ⟨n, hn⟩ := t
  cases n with
  | zero => rfl
  | succ n => exact (if_pos h).trans rfl

theorem degAccAt_next (c : Dev nD) (t : Fin cfg0.N) (h : ¬t.val % 8 = 0) :
    degAccAt V c t.val t.isLt = k0_pay2 (degBlk V c 0 t) (degAccAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point the launch's (every scoped buffer at
    anything); afterwards the scratch at what the point before left, the other scoped buffers at anything, the
    generator register at some state. -/
def degInv (c : Dev nD) : (n : ℕ) → n ≤ cfg0.N → sProp 𝕄
  | 0, _ => Pipeline.ΦA spec0 c
  | n + 1, hn => iprop(iprop(owns (c : Thread nD τ) degAcc fullShare (degAccAt V c n hn) ∗ degOthers c) ∗ (∃ r, prngReg c r))

theorem degInv_zero (c : Dev nD) (n : ℕ) (h : n ≤ cfg0.N) (hz : n = 0) : degInv V c n h = Pipeline.ΦA spec0 c := by
  subst hz; rfl

theorem degInv_succ (c : Dev nD) (n : ℕ) (hn : n < cfg0.N) :
    degInv V c (n + 1) hn = iprop(iprop(owns (c : Thread nD τ) degAcc fullShare (degAccAt V c n hn) ∗ degOthers c) ∗ (∃ r, prngReg c r)) := rfl

theorem degInv_pos (c : Dev nD) (n : ℕ) (h : n ≤ cfg0.N) (hz : n ≠ 0) :
    degInv V c n h = iprop(iprop(owns (c : Thread nD τ) degAcc fullShare (degAccAt V c (n - 1) (by omega)) ∗ degOthers c) ∗ (∃ r, prngReg c r)) := by
  cases n with
  | zero => exact absurd rfl hz
  | succ n => rfl

/-- The proof data of the degree kernel's pipeline on core `c`: the arrays as the region finds them; after the body the
    adjacency block in place and the output's staging buffer at the running sum (stored at column block 7 only, where
    alone it is read); the invariant above; nothing owed; full shares. -/
def degDat (c : Dev nD) : Dat τ (Elt F) Unit ℕ (UR sig nD τ) ℕ cfg0 c where
  A w := V c (Pipeline.arrRef spec0 w)
  after w t := match w with
    | ⟨0, _⟩ => degBlk V c 0 t
    | ⟨1, _⟩ => degAccAt V c t.val t.isLt
  Φ t := degInv V c t.val (Nat.le_of_lt_succ t.isLt)
  q _ := fullShare
  owed _ := 0

theorem degDat_A (c : Dev nD) (w : Fin cfg0.W) : (degDat V c).A w = V c (Pipeline.arrRef spec0 w) := by
  dsimp only [degDat]

theorem degInv_castSucc (c : Dev nD) (t : Fin cfg0.N) :
    (degDat V c).Φ t.castSucc = degInv V c t.val (Nat.le_of_lt t.isLt) := by
  dsimp only [degDat]; simp only [Fin.coe_castSucc]

theorem degDat_after_in (c : Dev nD) (t : Fin cfg0.N) : (degDat V c).after 0 t = degBlk V c 0 t := by dsimp only [degDat]
theorem degDat_after_out (c : Dev nD) (t : Fin cfg0.N) : (degDat V c).after 1 t = degAccAt V c t.val t.isLt := by dsimp only [degDat]

theorem deg_in_before (c : Dev nD) (t : Fin cfg0.N) (d) : (degDat V c).before 0 t d = degBlk V c 0 t :=
  deg_in_before_of V (degDat V c) (degDat_A V c 0) (degDat_after_in V c) t d

/-! ## The body's obligation -/

def degPre (c : Dev nD) (t : Fin cfg0.N) : sProp 𝕄 :=
  iprop((degDat V c).Φ t.castSucc ∗ (degDat V c).owesAt () t.castSucc
    ∗ (∃ d, owns (c : Thread nD τ) (degIn t) fullShare ((degDat V c).before 0 t d))
    ∗ (∃ d, owns (c : Thread nD τ) (degOut t) fullShare ((degDat V c).before 1 t d)))

def degPost (c : Dev nD) (t : Fin cfg0.N) : sProp 𝕄 :=
  iprop((degDat V c).Φ t.succ ∗ (degDat V c).owesAt () t.succ
    ∗ (degDat V c).leavesExact 0 t
    ∗ (degDat V c).leavesExact 1 t)

set_option maxHeartbeats 4800000 in
/-- The body at any point: the column block decides the case; the invariant hands the body the scratch at what the
    point before left (at anything at the very first point, and at column block 0 it is cleared anyway) and takes it
    back at this point's running sum. -/
theorem deg_sound_body (c : Dev nD) (t : Fin cfg0.N) :
    degPre V c t ⊢ wp frame (wpE (defs₀ (F := F)) Variants.none c none) Set.univ (bodyAt0 t) (fun _ => degPost V c t) := by
  unfold degPre degPost bodyAt0
  simp only [deg_in_before]
  rw [show (degDat V c).owesAt () t.succ = (degDat V c).owesAt () t.castSucc from rfl]
  rw [show (degDat V c).Φ t.succ = degInv V c (t.val + 1) t.isLt from rfl, degInv_succ]
  rw [show (degDat V c).leavesExact 0 t = owns (c : Thread nD τ) (degIn t) fullShare ((degDat V c).after 0 t) from by
    unfold Dat.leavesExact; rw [deg_in_live t], degDat_after_in]
  have hN : t.val < 64 := lt_of_lt_of_eq t.isLt (show cfg0.N = 64 from N_0)
  by_cases h1 : t.val % 8 = 7
  · have h0 : ¬t.val % 8 = 0 := by omega
    have hz : t.val ≠ 0 := by omega
    rw [show (degDat V c).leavesExact 1 t = owns (c : Thread nD τ) (degOut t) fullShare ((degDat V c).after 1 t) from by
      unfold Dat.leavesExact; rw [deg_out_live t ((degLast_iff t).mpr h1)], degDat_after_out]
    rw [degAccAt_next V c t h0]
    rw [degInv_castSucc V c t, degInv_pos V c _ _ hz]
    iintro ⟨⟨⟨HS0, Hoth⟩, Hg⟩, Ho, ⟨%d0, H0⟩, ⟨%d1, H1⟩⟩
    iapply (deg_body_last c (grid0.coords t) _ _ _ _ _ _ (fun h => h0 ((degFirst_iff t).mp h)) ((degLast_iff t).mpr h1) (degBlk V c 0 t) _ Set.univ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · have hl : ¬degLast (grid0.coords t) := fun h => h1 ((degLast_iff t).mp h)
    rw [Dat.leavesExact_idle (degDat V c) 1 t (deg_out_idle t hl) (deg_out_noFlush t hl)]
    by_cases h0 : t.val % 8 = 0
    · rw [degAccAt_first V c t h0]
      by_cases hz : t.val = 0
      · rw [degInv_castSucc V c t, degInv_zero V c _ _ hz, degRest_eq]
        iintro ⟨⟨⟨HS0, Hoth⟩, Hg⟩, Ho, ⟨%d0, H0⟩, ⟨%d1, H1⟩⟩
        iapply (deg_body_first c (grid0.coords t) _ _ _ _ _ _ ((degFirst_iff t).mpr h0) hl (degBlk V c 0 t) _ Set.univ _)
        isplitl [H0]; · iexact H0
        isplitl [H1]; · iexact H1
        isplitl [HS0]; · iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
      · rw [degInv_castSucc V c t, degInv_pos V c _ _ hz]
        iintro ⟨⟨⟨HS0, Hoth⟩, Hg⟩, Ho, ⟨%d0, H0⟩, ⟨%d1, H1⟩⟩
        iapply (deg_body_first c (grid0.coords t) _ _ _ _ _ _ ((degFirst_iff t).mpr h0) hl (degBlk V c 0 t) _ Set.univ _)
        isplitl [H0]; · iexact H0
        isplitl [H1]; · iexact H1
        isplitl [HS0]; · iexists _; iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
    · have hz : t.val ≠ 0 := by omega
      rw [degAccAt_next V c t h0]
      rw [degInv_castSucc V c t, degInv_pos V c _ _ hz]
      iintro ⟨⟨⟨HS0, Hoth⟩, Hg⟩, Ho, ⟨%d0, H0⟩, ⟨%d1, H1⟩⟩
      iapply (deg_body_mid c (grid0.coords t) _ _ _ _ _ _ (fun h => h0 ((degFirst_iff t).mp h)) hl (degBlk V c 0 t) _ _ Set.univ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The library's body obligation, at every point. -/
theorem deg_body_obligation (c : Dev nD) : BodyObligation (degDat (F := F) V c) (defs₀ (F := F)) Variants.none () Set.univ := fun t => by
  rw [bigSep_W0, bigSep_W0]
  exact deg_sound_body V c t

/-- What the launch hands the region is the invariant before the first point. -/
theorem deg_inv_in (c : Dev nD) : Pipeline.ΦA spec0 c ⊢ (degDat V c).Φ 0 := by
  rw [show (degDat V c).Φ 0 = degInv V c 0 (Nat.zero_le _) from rfl, degInv_zero V c 0 _ rfl]
  try exact Idealize.SL.BI.Entails.refl _

/-- After the last point the invariant gives the launch's back: the scratch's contents are forgotten. -/
theorem deg_inv_out (c : Dev nD) : (degDat V c).Φ (Fin.last cfg0.N) ⊢ Pipeline.ΦA spec0 c := by
  have ht : (Fin.last cfg0.N).val ≠ 0 := by rw [Fin.val_last]; have : cfg0.N = 64 := N_0; omega
  rw [show (degDat V c).Φ (Fin.last cfg0.N) = degInv V c (Fin.last cfg0.N).val (Nat.le_of_lt_succ (Fin.last cfg0.N).isLt) from rfl,
    degInv_pos V c _ _ ht, degRest_eq]
  iintro ⟨⟨HS0, Hoth⟩, Hg⟩
  isplitl [HS0 Hoth]
  · isplitl [HS0]; · iexists _; iexact HS0
    iexact Hoth
  iexact Hg

end

end Cert.KernelIdeal.Hand
end
-- ==== Proof.KI.GcnBody.lean ====
/-
  The message-passing kernel (the second pallas_call): one grid point's body, case by case.

  Same grid as the degree kernel: 8 row blocks by 8 column blocks, point t = 8·(row block) + (column block). The scratch is
  a 1024×256 accumulator: cleared at column block 0; at every point it receives the product of the point's 1024×1024
  adjacency block with the matching 1024×256 block of the row-scaled features; at column block 7 the accumulator's rows
  are scaled by the row factors, multiplied into the transposed weight, the two bias rows added, and the result stored
  into the output block. Three control cases as before, the scratch stated through the skeleton's payload `k1_pay2`, the
  output through `k1_pay3`.
-/
import proofs.«181802_j26431228739923_1_alg».proof.Proof.Gen.KernelIdeal.Launch
import proofs.«181802_j26431228739923_1_alg».proof.Proof.Gen.KernelIdeal.Skeleton
import proofs.«181802_j26431228739923_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

abbrev gcnFirst (i : grid1.Coords) : Prop := (Scalar.cmpi .ne (Scalar.extui (Scalar.cmpi .eq (BitVec.ofNat 32 (i 1).val) 0#32)) 0#32) = 1#1
theorem gcnFirst_iff : ∀ t : Fin cfg1.N, gcnFirst (grid1.coords t) ↔ t.val % 8 = 0 :=
  (by decide +kernel : ∀ t : Fin grid1.N, gcnFirst (grid1.coords t) ↔ t.val % 8 = 0)

abbrev gcnLast (i : grid1.Coords) : Prop := k1_cond2 i = 1#1
theorem gcnLast_iff : ∀ t : Fin cfg1.N, gcnLast (grid1.coords t) ↔ t.val % 8 = 7 :=
  (by decide +kernel : ∀ t : Fin grid1.N, gcnLast (grid1.coords t) ↔ t.val % 8 = 7)

/-! ## Where the windows are idle: the six inputs never, the output everywhere but column block 7 -/

theorem gcn_in_live : ∀ (w : Fin 6) (t : Fin cfg1.N), cfg1.idle (w.castSucc) (grid1.coords t) = false := by decide +kernel
theorem gcn_out_idle : ∀ t : Fin cfg1.N, ¬gcnLast (grid1.coords t) → cfg1.idle 6 (grid1.coords t) = true := by decide +kernel
theorem gcn_out_noFlush : ∀ t : Fin cfg1.N, ¬gcnLast (grid1.coords t) → (cfg1.win 6).flush t = false := by decide +kernel
theorem gcn_out_live : ∀ t : Fin cfg1.N, gcnLast (grid1.coords t) → cfg1.idle 6 (grid1.coords t) = false := by decide +kernel

/-! ## The memrefs the body is called with -/

abbrev gcnM0 (t : Fin cfg1.N) : Memref sig .tc .vmem S1024x1024 .f32 := win1_0.stage (cfg1.slots t 0)
abbrev gcnM0_whole (t : Fin cfg1.N) : (gcnM0 t).IsWhole := hstage1_0 ((cfg1.slots t 0).cast nbuf1_0)
abbrev gcnM1 (t : Fin cfg1.N) : Memref sig .tc .vmem S1024x256 .f32 := win1_1.stage (cfg1.slots t 1)
abbrev gcnM1_whole (t : Fin cfg1.N) : (gcnM1 t).IsWhole := hstage1_1 ((cfg1.slots t 1).cast nbuf1_1)
abbrev gcnM2 (t : Fin cfg1.N) : Memref sig .tc .vmem S1024x1 .f32 := win1_2.stage (cfg1.slots t 2)
abbrev gcnM2_whole (t : Fin cfg1.N) : (gcnM2 t).IsWhole := hstage1_2 ((cfg1.slots t 2).cast nbuf1_2)
abbrev gcnM3 (t : Fin cfg1.N) : Memref sig .tc .vmem S256x256 .f32 := win1_3.stage (cfg1.slots t 3)
abbrev gcnM3_whole (t : Fin cfg1.N) : (gcnM3 t).IsWhole := hstage1_3 ((cfg1.slots t 3).cast nbuf1_3)
abbrev gcnM4 (t : Fin cfg1.N) : Memref sig .tc .vmem S1x256 .f32 := win1_4.stage (cfg1.slots t 4)
abbrev gcnM4_whole (t : Fin cfg1.N) : (gcnM4 t).IsWhole := hstage1_4 ((cfg1.slots t 4).cast nbuf1_4)
abbrev gcnM5 (t : Fin cfg1.N) : Memref sig .tc .vmem S1x256 .f32 := win1_5.stage (cfg1.slots t 5)
abbrev gcnM5_whole (t : Fin cfg1.N) : (gcnM5 t).IsWhole := hstage1_5 ((cfg1.slots t 5).cast nbuf1_5)
abbrev gcnM6 (t : Fin cfg1.N) : Memref sig .tc .vmem S1024x256 .f32 := win1_6.stage (cfg1.slots t 6)
abbrev gcnM6_whole (t : Fin cfg1.N) : (gcnM6 t).IsWhole := hstage1_6 ((cfg1.slots t 6).cast nbuf1_6)
/-- The accumulator's scratch buffer. -/
abbrev gcnAcc : Memref sig .tc .vmem S1024x256 .f32 := Memref.whole cc1_scratch0

/-- The scoped buffers of the core that are neither this call's staging buffers nor its scratch (the first call's staging
    buffers and scratch), each at some contents, around what is said of the scratch (`P`): they ride along untouched. -/
def gcnOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ P)

/-- The region's rest invariant with the scratch spelt as a memref owned at some contents. -/
theorem gcnRest_eq (c : Dev nD) :
    (Pipeline.ΦA spec1 c : sProp 𝕄)
      = iprop(gcnOthers c iprop(∃ d, owns (c : Thread nD τ) gcnAcc fullShare d) ∗ (∃ r, prngReg c r)) := by
  unfold Pipeline.ΦA gcnOthers; rw [scopedRest1_eq]; simp only [gcnAcc, owns_whole]; try rfl

theorem zero2' : (![0, 0] : Fin 2 → Nat) = fun _ => 0 := funext fun a => by fin_cases a <;> rfl

/-! ## The body, case by case -/

set_option maxHeartbeats 1000000 in
/-- Column block 0: the accumulator is cleared, then receives the block product; the output block is left as found. -/
theorem gcn_body_first (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : gcnFirst i) (hc1 : ¬gcnLast i)
    (x0 : Vec F S1024x1024 .f32) (x1 : Vec F S1024x256 .f32) (x2 : Vec F S1024x1 .f32) (x3 : Vec F S256x256 .f32) (x4 : Vec F S1x256 .f32) (x5 : Vec F S1x256 .f32) (xi : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare (k1_pay2 x0 x1 (k1_pay1 (F := F)))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS0
  ipureintro
  rw [View.read_writes_eq_canon _ _ _ (View.cover_of_tiledL _ S1024x256.size (by sl_kernel_rfl))]
  sl_unfold_words
  rw [View.canon_cons_unit_zero zero2']
  simp only [View.readAt_eq_ld, harg2.read_unread, harg3.read_unread, View.ld_unit_zero (S := S1024x1024) zero2', View.ld_unit_zero (S := S1024x256) zero2', View.readCov_unit_zero (S := S1024x256) _ zero2']

set_option maxHeartbeats 1000000 in
/-- A middle column block: the accumulator, found at `s`, receives the block product on top; the output block is left as found. -/
theorem gcn_body_mid (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬gcnFirst i) (hc1 : ¬gcnLast i)
    (x0 : Vec F S1024x1024 .f32) (x1 : Vec F S1024x256 .f32) (x2 : Vec F S1024x1 .f32) (x3 : Vec F S256x256 .f32) (x4 : Vec F S1x256 .f32) (x5 : Vec F S1x256 .f32) (xi : Vec F S1024x256 .f32) (s : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare (k1_pay2 x0 x1 s)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS0
  ipureintro
  rw [View.read_writes_eq_canon _ _ _ (View.cover_of_tiledL _ S1024x256.size (by sl_kernel_rfl))]
  sl_unfold_words
  rw [View.canon_unit_zero zero2']
  simp only [View.readAt_eq_ld, harg2.read_unread, harg3.read_unread, harg9.read_unread, View.ld_unit_zero (S := S1024x1024) zero2', View.ld_unit_zero (S := S1024x256) zero2']

set_option maxHeartbeats 1000000 in
/-- Column block 7: the accumulator, found at `s`, receives the block product on top, and the output block is overwritten
    with the scaled, projected and biased accumulator. -/
theorem gcn_body_last (c : Dev nD) (i : grid1.Coords) (arg2 : Memref sig .tc .vmem S1024x1024 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (hc0 : ¬gcnFirst i) (hc1 : gcnLast i)
    (x0 : Vec F S1024x1024 .f32) (x1 : Vec F S1024x256 .f32) (x2 : Vec F S1024x1 .f32) (x3 : Vec F S256x256 .f32) (x4 : Vec F S1x256 .f32) (x5 : Vec F S1x256 .f32) (s : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay3 (k1_pay2 x0 x1 s) x2 x3 x4 x5) ∗ owns (c : Thread nD τ) arg9 fullShare (k1_pay2 x0 x1 s)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (View.cover_of_tiledL _ S1024x256.size (by sl_kernel_rfl))]
    sl_unfold_words
    rw [View.canon_unit_zero zero2']
    simp only [View.readAt_eq_ld, harg2.read_unread, harg3.read_unread, harg4.read_unread, harg5.read_unread, harg6.read_unread, harg7.read_unread, harg9.read_unread, View.ld_unit_zero (S := S1024x1024) zero2', View.ld_unit_zero (S := S1024x256) zero2', View.ld_unit_zero (S := S1024x1) zero2', View.ld_unit_zero (S := S256x256) zero2', View.ld_unit_zero (S := S1x256) zero2', View.readCov_unit_zero (S := S1024x256) _ zero2']
  iexists _; isplitr
  swap; · iexact HS0
  ipureintro
  rw [View.read_writes_eq_canon _ _ _ (View.cover_of_tiledL _ S1024x256.size (by sl_kernel_rfl))]
  sl_unfold_words
  rw [View.canon_unit_zero zero2']
  simp only [View.readAt_eq_ld, harg2.read_unread, harg3.read_unread, harg9.read_unread, View.ld_unit_zero (S := S1024x1024) zero2', View.ld_unit_zero (S := S1024x256) zero2']

end Cert.KernelIdeal.Hand
end
-- ==== Proof.KI.GcnFrame.lean ====
/-
  The message-passing kernel over its whole grid: what the accumulator holds after each point, what the output block is
  stored with, the region's invariant, the proof data, and the body's obligation at every point.

  After the point at column block k of a row block, the accumulator holds the product of the row block's rows of the
  adjacency matrix, restricted to the columns of blocks 0 … k, with the matching rows of the scaled features: the
  recursion `gcnAccAt`. At k = 7 the output block is stored with `k1_pay3` of the accumulator and the small operands.
-/
import proofs.«181802_j26431228739923_1_alg».proof.Proof.KI.GcnBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def gcnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR. What the scratch holds after the body at position `n`: the point's block product on top of zero at
    column block 0, on top of what the point before left otherwise. -/
def gcnAccAt (c : Dev nD) : (n : ℕ) → n < cfg1.N → Vec F S1024x256 .f32
  | 0, hn => k1_pay2 (gcnBlk V c 0 ⟨0, hn⟩) (gcnBlk V c 1 ⟨0, hn⟩) (k1_pay1 (F := F))
  | n + 1, hn =>
    if (n + 1) % 8 = 0 then k1_pay2 (gcnBlk V c 0 ⟨n + 1, hn⟩) (gcnBlk V c 1 ⟨n + 1, hn⟩) (k1_pay1 (F := F))
    else k1_pay2 (gcnBlk V c 0 ⟨n + 1, hn⟩) (gcnBlk V c 1 ⟨n + 1, hn⟩) (gcnAccAt c n (Nat.lt_of_succ_lt hn))

theorem gcnAccAt_first (c : Dev nD) (t : Fin cfg1.N) (h : t.val % 8 = 0) :
    gcnAccAt V c t.val t.isLt = k1_pay2 (gcnBlk V c 0 t) (gcnBlk V c 1 t) (k1_pay1 (F := F)) := by
  obtain ⟨n, hn⟩ := t
  cases n with
  | zero => rfl
  | succ n => exact (if_pos h).trans rfl

theorem gcnAccAt_next (c : Dev nD) (t : Fin cfg1.N) (h : ¬t.val % 8 = 0) :
    gcnAccAt V c t.val t.isLt = k1_pay2 (gcnBlk V c 0 t) (gcnBlk V c 1 t) (gcnAccAt V c (t.val - 1) (Nat.lt_of_le_of_lt (Nat.sub_le _ _) t.isLt)) := by
  obtain ⟨n, hn⟩ := t
  cases n with
  | zero => exact absurd (Nat.zero_mod _) h
  | succ n => exact (if_neg h).trans rfl

/-- What the output block is stored with at point `t` (consulted at column block 7 only, where it is stored). -/
def gcnOutAt (c : Dev nD) (t : Fin cfg1.N) : Vec F S1024x256 .f32 :=
  k1_pay3 (gcnAccAt V c t.val t.isLt) (gcnBlk V c 2 t) (gcnBlk V c 3 t) (gcnBlk V c 4 t) (gcnBlk V c 5 t)

/-- The region's invariant before position `n`: before the first point the launch's (every scoped buffer at anything);
    afterwards the accumulator at what the point before left, the other scoped buffers at anything, the generator
    register at some state. -/
def gcnInv (c : Dev nD) : (n : ℕ) → n ≤ cfg1.N → sProp 𝕄
  | 0, _ => Pipeline.ΦA spec1 c
  | n + 1, hn => iprop(gcnOthers c (owns (c : Thread nD τ) gcnAcc fullShare (gcnAccAt V c n hn)) ∗ (∃ r, prngReg c r))

theorem gcnInv_zero (c : Dev nD) (n : ℕ) (h : n ≤ cfg1.N) (hz : n = 0) : gcnInv V c n h = Pipeline.ΦA spec1 c := by
  subst hz; rfl

theorem gcnInv_succ (c : Dev nD) (n : ℕ) (hn : n < cfg1.N) :
    gcnInv V c (n + 1) hn = iprop(gcnOthers c (owns (c : Thread nD τ) gcnAcc fullShare (gcnAccAt V c n hn)) ∗ (∃ r, prngReg c r)) := rfl

theorem gcnInv_pos (c : Dev nD) (n : ℕ) (h : n ≤ cfg1.N) (hz : n ≠ 0) :
    gcnInv V c n h = iprop(gcnOthers c (owns (c : Thread nD τ) gcnAcc fullShare (gcnAccAt V c (n - 1) (by omega))) ∗ (∃ r, prngReg c r)) := by
  cases n with
  | zero => exact absurd rfl hz
  | succ n => rfl

/-- The proof data of the second kernel's pipeline on core `c`: the arrays as the region finds them; after the body the
    six input blocks in place and the output's staging buffer at `gcnOutAt`; the invariant above; nothing owed; full shares. -/
def gcnDat (c : Dev nD) : Dat τ (Elt F) Unit ℕ (UR sig nD τ) ℕ cfg1 c where
  A w := V c (Pipeline.arrRef spec1 w)
  after w t := match w with
    | ⟨0, _⟩ => gcnBlk V c 0 t
    | ⟨1, _⟩ => gcnBlk V c 1 t
    | ⟨2, _⟩ => gcnBlk V c 2 t
    | ⟨3, _⟩ => gcnBlk V c 3 t
    | ⟨4, _⟩ => gcnBlk V c 4 t
    | ⟨5, _⟩ => gcnBlk V c 5 t
    | ⟨6, _⟩ => gcnOutAt V c t
  Φ t := gcnInv V c t.val (Nat.le_of_lt_succ t.isLt)
  q _ := fullShare
  owed _ := 0

theorem gcnDat_A (c : Dev nD) (w : Fin cfg1.W) : (gcnDat V c).A w = V c (Pipeline.arrRef spec1 w) := by
  dsimp only [gcnDat]

theorem gcnDat_after_out (c : Dev nD) (t : Fin cfg1.N) : (gcnDat V c).after 6 t = gcnOutAt V c t := by dsimp only [gcnDat]

/-! ## The six input blocks are in their staging buffers at every point -/

/-- Input window 0's block is in its staging buffer at every point, fetched there or not (unfetched, the block index
    has not moved since the point that fetched it), for any proof data over `V`'s arrays that leaves it in place. -/
theorem gcn_in_before_of0 {c : Dev nD} (dat : Dat τ (Elt F) Unit ℕ (UR sig nD τ) ℕ cfg1 c) (hA : dat.A 0 = V c (Pipeline.arrRef spec1 0))
    (hafter : ∀ t, dat.after 0 t = gcnBlk V c 0 t) (t : Fin cfg1.N) (d) : dat.before 0 t d = gcnBlk V c 0 t :=
  (dat.before_in_eq_fetched 0 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 1's block is in its staging buffer at every point, fetched there or not (unfetched, the block index
    has not moved since the point that fetched it), for any proof data over `V`'s arrays that leaves it in place. -/
theorem gcn_in_before_of1 {c : Dev nD} (dat : Dat τ (Elt F) Unit ℕ (UR sig nD τ) ℕ cfg1 c) (hA : dat.A 1 = V c (Pipeline.arrRef spec1 1))
    (hafter : ∀ t, dat.after 1 t = gcnBlk V c 1 t) (t : Fin cfg1.N) (d) : dat.before 1 t d = gcnBlk V c 1 t :=
  (dat.before_in_eq_fetched 1 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 2's block is in its staging buffer at every point, fetched there or not (unfetched, the block index
    has not moved since the point that fetched it), for any proof data over `V`'s arrays that leaves it in place. -/
theorem gcn_in_before_of2 {c : Dev nD} (dat : Dat τ (Elt F) Unit ℕ (UR sig nD τ) ℕ cfg1 c) (hA : dat.A 2 = V c (Pipeline.arrRef spec1 2))
    (hafter : ∀ t, dat.after 2 t = gcnBlk V c 2 t) (t : Fin cfg1.N) (d) : dat.before 2 t d = gcnBlk V c 2 t :=
  (dat.before_in_eq_fetched 2 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 3's block is in its staging buffer at every point, fetched there or not (unfetched, the block index
    has not moved since the point that fetched it), for any proof data over `V`'s arrays that leaves it in place. -/
theorem gcn_in_before_of3 {c : Dev nD} (dat : Dat τ (Elt F) Unit ℕ (UR sig nD τ) ℕ cfg1 c) (hA : dat.A 3 = V c (Pipeline.arrRef spec1 3))
    (hafter : ∀ t, dat.after 3 t = gcnBlk V c 3 t) (t : Fin cfg1.N) (d) : dat.before 3 t d = gcnBlk V c 3 t :=
  (dat.before_in_eq_fetched 3 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 4's block is in its staging buffer at every point, fetched there or not (unfetched, the block index
    has not moved since the point that fetched it), for any proof data over `V`'s arrays that leaves it in place. -/
theorem gcn_in_before_of4 {c : Dev nD} (dat : Dat τ (Elt F) Unit ℕ (UR sig nD τ) ℕ cfg1 c) (hA : dat.A 4 = V c (Pipeline.arrRef spec1 4))
    (hafter : ∀ t, dat.after 4 t = gcnBlk V c 4 t) (t : Fin cfg1.N) (d) : dat.before 4 t d = gcnBlk V c 4 t :=
  (dat.before_in_eq_fetched 4 rfl (fun _ => rfl) (fun _ _ _ => rfl) (fun t => by rw [hafter]; unfold Dat.blockOf gcnBlk; rw [hA]; try rfl) t d).trans
    (by unfold Dat.fetched Dat.blockOf gcnBlk; rw [hA]; try rfl)

/-- Input window 5's block is in its staging buffer at every point, fetched there or not (unfetched, the block index
    has not moved since the point that fetched it), for any proof data over `V`'s arrays that leaves it in place. -/
theorem gcn_in_before_of5 {c : Dev nD} (dat : Dat τ (Elt F) Unit ℕ (UR sig nD τ) ℕ cfg1 c) (hA : dat.A 5 = V c (Pipeline.arrRef spec1 5))
    (hafter : ∀ t, dat.after 5 t = gcnBlk V c 5 t) (t : Fin cfg1.N) (d) : dat.before 5 t d = gcnBlk V c 5 t :=
  (dat.before_in_eq_fetched 5 rfl (fun _ => rfl) (fun _ _ _ => rfl) (fun t => by rw [hafter]; unfold Dat.blockOf gcnBlk; rw [hA]; try rfl) t d).trans
    (by unfold Dat.fetched Dat.blockOf gcnBlk; rw [hA]; try rfl)

theorem gcnInv_castSucc (c : Dev nD) (t : Fin cfg1.N) :
    (gcnDat V c).Φ t.castSucc = gcnInv V c t.val (Nat.le_of_lt t.isLt) := by
  dsimp only [gcnDat]; simp only [Fin.coe_castSucc]

theorem gcnDat_after_in0 (c : Dev nD) (t : Fin cfg1.N) : (gcnDat V c).after 0 t = gcnBlk V c 0 t := by dsimp only [gcnDat]
theorem gcnDat_after_in1 (c : Dev nD) (t : Fin cfg1.N) : (gcnDat V c).after 1 t = gcnBlk V c 1 t := by dsimp only [gcnDat]
theorem gcnDat_after_in2 (c : Dev nD) (t : Fin cfg1.N) : (gcnDat V c).after 2 t = gcnBlk V c 2 t := by dsimp only [gcnDat]
theorem gcnDat_after_in3 (c : Dev nD) (t : Fin cfg1.N) : (gcnDat V c).after 3 t = gcnBlk V c 3 t := by dsimp only [gcnDat]
theorem gcnDat_after_in4 (c : Dev nD) (t : Fin cfg1.N) : (gcnDat V c).after 4 t = gcnBlk V c 4 t := by dsimp only [gcnDat]
theorem gcnDat_after_in5 (c : Dev nD) (t : Fin cfg1.N) : (gcnDat V c).after 5 t = gcnBlk V c 5 t := by dsimp only [gcnDat]

theorem gcn_in_before0 (c : Dev nD) (t : Fin cfg1.N) (d) : (gcnDat V c).before 0 t d = gcnBlk V c 0 t :=
  gcn_in_before_of0 V (gcnDat V c) (gcnDat_A V c 0) (gcnDat_after_in0 V c) t d
theorem gcn_in_before1 (c : Dev nD) (t : Fin cfg1.N) (d) : (gcnDat V c).before 1 t d = gcnBlk V c 1 t :=
  gcn_in_before_of1 V (gcnDat V c) (gcnDat_A V c 1) (gcnDat_after_in1 V c) t d
theorem gcn_in_before2 (c : Dev nD) (t : Fin cfg1.N) (d) : (gcnDat V c).before 2 t d = gcnBlk V c 2 t :=
  gcn_in_before_of2 V (gcnDat V c) (gcnDat_A V c 2) (gcnDat_after_in2 V c) t d
theorem gcn_in_before3 (c : Dev nD) (t : Fin cfg1.N) (d) : (gcnDat V c).before 3 t d = gcnBlk V c 3 t :=
  gcn_in_before_of3 V (gcnDat V c) (gcnDat_A V c 3) (gcnDat_after_in3 V c) t d
theorem gcn_in_before4 (c : Dev nD) (t : Fin cfg1.N) (d) : (gcnDat V c).before 4 t d = gcnBlk V c 4 t :=
  gcn_in_before_of4 V (gcnDat V c) (gcnDat_A V c 4) (gcnDat_after_in4 V c) t d
theorem gcn_in_before5 (c : Dev nD) (t : Fin cfg1.N) (d) : (gcnDat V c).before 5 t d = gcnBlk V c 5 t :=
  gcn_in_before_of5 V (gcnDat V c) (gcnDat_A V c 5) (gcnDat_after_in5 V c) t d

theorem gcn_in_live0 (t : Fin cfg1.N) : cfg1.idle 0 (grid1.coords t) = false := gcn_in_live 0 t
theorem gcn_in_live1 (t : Fin cfg1.N) : cfg1.idle 1 (grid1.coords t) = false := gcn_in_live 1 t
theorem gcn_in_live2 (t : Fin cfg1.N) : cfg1.idle 2 (grid1.coords t) = false := gcn_in_live 2 t
theorem gcn_in_live3 (t : Fin cfg1.N) : cfg1.idle 3 (grid1.coords t) = false := gcn_in_live 3 t
theorem gcn_in_live4 (t : Fin cfg1.N) : cfg1.idle 4 (grid1.coords t) = false := gcn_in_live 4 t
theorem gcn_in_live5 (t : Fin cfg1.N) : cfg1.idle 5 (grid1.coords t) = false := gcn_in_live 5 t

theorem gcn_leaves_in0 (c : Dev nD) (t : Fin cfg1.N) :
    (gcnDat V c).leavesExact 0 t = owns (c : Thread nD τ) (gcnM0 t) fullShare (gcnBlk V c 0 t) := by
  unfold Dat.leavesExact; rw [gcn_in_live0 t, gcnDat_after_in0]
theorem gcn_leaves_in1 (c : Dev nD) (t : Fin cfg1.N) :
    (gcnDat V c).leavesExact 1 t = owns (c : Thread nD τ) (gcnM1 t) fullShare (gcnBlk V c 1 t) := by
  unfold Dat.leavesExact; rw [gcn_in_live1 t, gcnDat_after_in1]
theorem gcn_leaves_in2 (c : Dev nD) (t : Fin cfg1.N) :
    (gcnDat V c).leavesExact 2 t = owns (c : Thread nD τ) (gcnM2 t) fullShare (gcnBlk V c 2 t) := by
  unfold Dat.leavesExact; rw [gcn_in_live2 t, gcnDat_after_in2]
theorem gcn_leaves_in3 (c : Dev nD) (t : Fin cfg1.N) :
    (gcnDat V c).leavesExact 3 t = owns (c : Thread nD τ) (gcnM3 t) fullShare (gcnBlk V c 3 t) := by
  unfold Dat.leavesExact; rw [gcn_in_live3 t, gcnDat_after_in3]
theorem gcn_leaves_in4 (c : Dev nD) (t : Fin cfg1.N) :
    (gcnDat V c).leavesExact 4 t = owns (c : Thread nD τ) (gcnM4 t) fullShare (gcnBlk V c 4 t) := by
  unfold Dat.leavesExact; rw [gcn_in_live4 t, gcnDat_after_in4]
theorem gcn_leaves_in5 (c : Dev nD) (t : Fin cfg1.N) :
    (gcnDat V c).leavesExact 5 t = owns (c : Thread nD τ) (gcnM5 t) fullShare (gcnBlk V c 5 t) := by
  unfold Dat.leavesExact; rw [gcn_in_live5 t, gcnDat_after_in5]

/-! ## The body's obligation -/

def gcnPre (c : Dev nD) (t : Fin cfg1.N) : sProp 𝕄 :=
  iprop((gcnDat V c).Φ t.castSucc ∗ (gcnDat V c).owesAt () t.castSucc
    ∗ (∃ d, owns (c : Thread nD τ) (gcnM0 t) fullShare ((gcnDat V c).before 0 t d))
    ∗ (∃ d, owns (c : Thread nD τ) (gcnM1 t) fullShare ((gcnDat V c).before 1 t d))
    ∗ (∃ d, owns (c : Thread nD τ) (gcnM2 t) fullShare ((gcnDat V c).before 2 t d))
    ∗ (∃ d, owns (c : Thread nD τ) (gcnM3 t) fullShare ((gcnDat V c).before 3 t d))
    ∗ (∃ d, owns (c : Thread nD τ) (gcnM4 t) fullShare ((gcnDat V c).before 4 t d))
    ∗ (∃ d, owns (c : Thread nD τ) (gcnM5 t) fullShare ((gcnDat V c).before 5 t d))
    ∗ (∃ d, owns (c : Thread nD τ) (gcnM6 t) fullShare ((gcnDat V c).before 6 t d)))

def gcnPost (c : Dev nD) (t : Fin cfg1.N) : sProp 𝕄 :=
  iprop((gcnDat V c).Φ t.succ ∗ (gcnDat V c).owesAt () t.succ
    ∗ (gcnDat V c).leavesExact 0 t
    ∗ (gcnDat V c).leavesExact 1 t
    ∗ (gcnDat V c).leavesExact 2 t
    ∗ (gcnDat V c).leavesExact 3 t
    ∗ (gcnDat V c).leavesExact 4 t
    ∗ (gcnDat V c).leavesExact 5 t
    ∗ (gcnDat V c).leavesExact 6 t)

set_option maxHeartbeats 4800000 in
/-- The body at any point: the column block decides the case; the invariant hands the body the accumulator at what the
    point before left (at anything at the very first point, and at column block 0 it is cleared anyway) and takes it
    back at this point's accumulated product; the six input blocks are handed over and taken back in place. -/
theorem gcn_sound_body (c : Dev nD) (t : Fin cfg1.N) :
    gcnPre V c t ⊢ wp frame (wpE (defs₀ (F := F)) Variants.none c none) Set.univ (bodyAt1 t) (fun _ => gcnPost V c t) := by
  unfold gcnPre gcnPost bodyAt1
  simp only [gcn_in_before0, gcn_in_before1, gcn_in_before2, gcn_in_before3, gcn_in_before4, gcn_in_before5]
  rw [show (gcnDat V c).owesAt () t.succ = (gcnDat V c).owesAt () t.castSucc from rfl]
  rw [show (gcnDat V c).Φ t.succ = gcnInv V c (t.val + 1) t.isLt from rfl, gcnInv_succ]
  rw [gcn_leaves_in0, gcn_leaves_in1, gcn_leaves_in2, gcn_leaves_in3, gcn_leaves_in4, gcn_leaves_in5]
  have hN : t.val < 64 := lt_of_lt_of_eq t.isLt (show cfg1.N = 64 from N_1)
  by_cases h1 : t.val % 8 = 7
  · have h0 : ¬t.val % 8 = 0 := by omega
    have hz : t.val ≠ 0 := by omega
    rw [show (gcnDat V c).leavesExact 6 t = owns (c : Thread nD τ) (gcnM6 t) fullShare ((gcnDat V c).after 6 t) from by
      unfold Dat.leavesExact; rw [gcn_out_live t ((gcnLast_iff t).mpr h1)], gcnDat_after_out]
    unfold gcnOutAt
    rw [gcnAccAt_next V c t h0]
    rw [gcnInv_castSucc V c t, gcnInv_pos V c _ _ hz]
    unfold gcnOthers
    iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (gcn_body_last c (grid1.coords t) _ _ _ _ _ _ _ _ _ _ _ _ _ _ _ _ (fun h => h0 ((gcnFirst_iff t).mp h)) ((gcnLast_iff t).mpr h1) (gcnBlk V c 0 t) (gcnBlk V c 1 t) (gcnBlk V c 2 t) (gcnBlk V c 3 t) (gcnBlk V c 4 t) (gcnBlk V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [Ha0 Ha1 Ha2 Ha3 Ha4 HS0 Hg]
    · isplitl [Ha0 Ha1 Ha2 Ha3 Ha4 HS0]
      · isplitl [Ha0]; · iexact Ha0
        isplitl [Ha1]; · iexact Ha1
        isplitl [Ha2]; · iexact Ha2
        isplitl [Ha3]; · iexact Ha3
        isplitl [Ha4]; · iexact Ha4
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hl : ¬gcnLast (grid1.coords t) := fun h => h1 ((gcnLast_iff t).mp h)
    rw [Dat.leavesExact_idle (gcnDat V c) 6 t (gcn_out_idle t hl) (gcn_out_noFlush t hl)]
    by_cases h0 : t.val % 8 = 0
    · rw [gcnAccAt_first V c t h0]
      by_cases hz : t.val = 0
      · rw [gcnInv_castSucc V c t, gcnInv_zero V c _ _ hz, gcnRest_eq]
        unfold gcnOthers
        iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
        iapply (gcn_body_first c (grid1.coords t) _ _ _ _ _ _ _ _ _ _ _ _ _ _ _ _ ((gcnFirst_iff t).mpr h0) hl (gcnBlk V c 0 t) (gcnBlk V c 1 t) (gcnBlk V c 2 t) (gcnBlk V c 3 t) (gcnBlk V c 4 t) (gcnBlk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [gcnInv_castSucc V c t, gcnInv_pos V c _ _ hz]
        unfold gcnOthers
        iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
        iapply (gcn_body_first c (grid1.coords t) _ _ _ _ _ _ _ _ _ _ _ _ _ _ _ _ ((gcnFirst_iff t).mpr h0) hl (gcnBlk V c 0 t) (gcnBlk V c 1 t) (gcnBlk V c 2 t) (gcnBlk V c 3 t) (gcnBlk V c 4 t) (gcnBlk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, HS0⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := by omega
      rw [gcnAccAt_next V c t h0]
      rw [gcnInv_castSucc V c t, gcnInv_pos V c _ _ hz]
      unfold gcnOthers
      iintro ⟨⟨⟨Ha0, Ha1, Ha2, Ha3, Ha4, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (gcn_body_mid c (grid1.coords t) _ _ _ _ _ _ _ _ _ _ _ _ _ _ _ _ (fun h => h0 ((gcnFirst_iff t).mp h)) hl (gcnBlk V c 0 t) (gcnBlk V c 1 t) (gcnBlk V c 2 t) (gcnBlk V c 3 t) (gcnBlk V c 4 t) (gcnBlk V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [Ha0 Ha1 Ha2 Ha3 Ha4 HS0 Hg]
      · isplitl [Ha0 Ha1 Ha2 Ha3 Ha4 HS0]
        · isplitl [Ha0]; · iexact Ha0
          isplitl [Ha1]; · iexact Ha1
          isplitl [Ha2]; · iexact Ha2
          isplitl [Ha3]; · iexact Ha3
          isplitl [Ha4]; · iexact Ha4
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem gcn_body_obligation (c : Dev nD) : BodyObligation (gcnDat (F := F) V c) (defs₀ (F := F)) Variants.none () Set.univ := fun t => by
  rw [bigSep_W1, bigSep_W1]
  exact gcn_sound_body V c t

/-- What the launch hands the region is the invariant before the first point. -/
theorem gcn_inv_in (c : Dev nD) : Pipeline.ΦA spec1 c ⊢ (gcnDat V c).Φ 0 := by
  rw [show (gcnDat V c).Φ 0 = gcnInv V c 0 (Nat.zero_le _) from rfl, gcnInv_zero V c 0 _ rfl]
  try exact Idealize.SL.BI.Entails.refl _

/-- After the last point the invariant gives the launch's back: the accumulator's contents are forgotten. -/
theorem gcn_inv_out (c : Dev nD) : (gcnDat V c).Φ (Fin.last cfg1.N) ⊢ Pipeline.ΦA spec1 c := by
  have ht : (Fin.last cfg1.N).val ≠ 0 := by rw [Fin.val_last]; have : cfg1.N = 64 := N_1; omega
  rw [show (gcnDat V c).Φ (Fin.last cfg1.N) = gcnInv V c (Fin.last cfg1.N).val (Nat.le_of_lt_succ (Fin.last cfg1.N).isLt) from rfl,
    gcnInv_pos V c _ _ ht, gcnRest_eq]
  unfold gcnOthers
  iintro ⟨⟨Ha0, Ha1, Ha2, Ha3, Ha4, HS0⟩, Hg⟩
  isplitl [Ha0 Ha1 Ha2 Ha3 Ha4 HS0]
  · isplitl [Ha0]; · iexact Ha0
    isplitl [Ha1]; · iexact Ha1
    isplitl [Ha2]; · iexact Ha2
    isplitl [Ha3]; · iexact Ha3
    isplitl [Ha4]; · iexact Ha4
    iexists _; iexact HS0
  iexact Hg

end

end Cert.KernelIdeal.Hand
end
-- ==== Proof.KI.Fold.lean ====
/-
  The TensorCore's buffer contents at each boundary between the items of the program: the launch memory; after the host
  operations that build the dense adjacency matrix; after the degree kernel (its output array holding what its
  write-backs leave); after the host operations that turn the row sums into row factors and scale the features; after
  the message-passing kernel (its output array holding what its write-backs leave). Each kernel's proof data is taken at
  the contents its region is entered with.
-/
import proofs.«181802_j26431228739923_1_alg».proof.Proof.KI.DegFrame
import proofs.«181802_j26431228739923_1_alg».proof.Proof.KI.GcnFrame
import proofs.«181802_j26431228739923_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations that build the adjacency matrix (the degree kernel's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the degree kernel's exit: its arrays at what the pipeline leaves, every other buffer as entered. -/
def W2 (c : Dev nD) : Valuation τ sig (Elt F) :=
  Pipeline.withArrays spec0 c (W1 m ρ c) fun w => (degDat (V1 m ρ) c).arrAt w cfg0.N
theorem W2_arr (c : Dev nD) (w : Fin cfg0.W) :
    W2 m ρ c (Proc.devRef .tc (Pipeline.arrRef spec0 w)) = (degDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the comparison, the square root and the quotient. -/
abbrev W3 : Dev nD → Valuation τ sig (Elt F) := fun c => StableHlo.after hostOps1 (W2 m ρ c)
/-- After the selection of the row factors. -/
abbrev W4 : Dev nD → Valuation τ sig (Elt F) := fun c => StableHlo.after hostOps1_1 (W3 m ρ c)
/-- After the features are scaled and the two bias vectors laid out as rows (the second kernel's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second kernel's exit: its arrays at what the pipeline leaves, every other buffer as entered. -/
def W6 (c : Dev nD) : Valuation τ sig (Elt F) :=
  Pipeline.withArrays spec1 c (W5 m ρ c) fun w => (gcnDat (V5 m ρ) c).arrAt w cfg1.N
theorem W6_arr (c : Dev nD) (w : Fin cfg1.W) :
    W6 m ρ c (Proc.devRef .tc (Pipeline.arrRef spec1 w)) = (gcnDat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b

/-- A buffer no operation of a host stretch writes is left as it was (the lists of written references are the
    generated `hostOps…_W`). -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h

end Cert.KernelIdeal.Hand
end
-- ==== Proof.KI.Launch.lean ====
/-
  The whole program's run: the launch, the host stretches and the two kernel regions in order, each region entered from
  the buffer contents the item before it left (`W0 … W6`), and what every weakly fair execution ends with: every
  unscoped buffer of the TensorCore at the last boundary's contents.
-/
import proofs.«181802_j26431228739923_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The exit contents of each kernel, as the two facts the rejoining of its arrays with the other buffers takes -/

/-- At the degree kernel's exit each of its arrays holds what the pipeline leaves, -/
theorem exitArr0 (c : Dev nD) (w : Fin cfg0.W) : (degDat (V1 m ρ) c).arrAt w cfg0.N = V2 m ρ c (Pipeline.arrRef spec0 w) :=
  (W2_arr m ρ c w).symm
/-- and every other buffer what it held at entry. -/
theorem exitRest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the message-passing kernel's exit each of its arrays holds what the pipeline leaves, -/
theorem exitArr1 (c : Dev nD) (w : Fin cfg1.W) : (gcnDat (V5 m ρ) c).arrAt w cfg1.N = V6 m ρ c (Pipeline.arrRef spec1 w) :=
  (W6_arr m ρ c w).symm
/-- and every other buffer what it held at entry. -/
theorem exitRest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and the thread state -/

/-- Every pipeline's proof data, each at the contents its region is entered with. -/
def pdats : (p : Fin 2) → (c : Dev nD) → Dat τ (Elt F) Unit ℕ (UR sig nD τ) ℕ (Pipeline.pin (pcfgs (F := F)) adm p) c
  | ⟨0, _⟩ => fun c => degDat (V1 m ρ) c
  | ⟨1, _⟩ => fun c => gcnDat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as an item of the run: over the unscoped references from the contents `W`, `R` riding along; it
    leaves those references at the stretch's result on `W c`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The regions as items of the run -/

set_option backward.isDefEq.respectTransparency.types false in
/-- THE DEGREE KERNEL'S REGION over the thread state: entered from every unscoped buffer at `W1`, left at `W2`. Its
    arrays are split out of the unscoped buffers and put back at the exit contents; the generator register and the
    scoped buffers no window stages go into the kernel's invariant before the first point and come back out of the one
    after the last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (deg_body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from deg_inv_in (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ (Pipeline.ΦA spec0 c : sProp 𝕄) from deg_inv_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MESSAGE-PASSING KERNEL'S REGION over the thread state: entered from every unscoped buffer at `W5`, left at
    `W6` (what the final memory is read against). The same four steps as the degree kernel's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (gcn_body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from gcn_inv_in (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from gcn_inv_out (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's six items in order: a host item per stretch from its boundary's contents, a region per kernel. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- The program IS the run of its items. -/
theorem main_run (c : Dev nD) : main (F := F) c = Pipeline.Seg.run (runSegs m ρ) := by
  rewrite [main_chain c, Pipeline.Seg.run_eq_chain,
    show (runSegs m ρ).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()) ] from rfl]
  rfl

set_option backward.isDefEq.respectTransparency.types false in
/-- THE RUN. At the compiled mesh, for any float family, from any memory with zero counters: every weakly fair execution
    of @main on the TensorCores terminates, nothing faulting, and the final memory holds every unscoped buffer of every
    core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand
end
-- ==== Proof.KI.Args.lean ====
/-
  The arguments end as launched: no host stretch writes an argument, the first kernel stages none, and the second kernel
  stages only the weight, as an input; so the last boundary's contents at an argument walk back to the launch memory.
-/
import proofs.«181802_j26431228739923_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first kernel leaves the adjacency matrix as it found it (an input window's array). -/
theorem W2_adj (c : Dev nD) : W2 m ρ c (Proc.devRef .tc main_v35) = W1 m ρ c (Proc.devRef .tc main_v35) :=
  (W2_arr m ρ c 0).trans (((degDat (V1 m ρ) c).arrAt_in 0 rfl _).trans (degDat_A (V1 m ρ) c 0))

/-- An argument reaches the degree kernel's exit as launched. -/
theorem W2_arg (c : Dev nD) (r : Ref sig .tc) (h1 : r ∉ hostOps0_W) (h2 : ∀ w, Pipeline.arrRef spec0 w ≠ r) :
    W2 m ρ c (Proc.devRef .tc r) = m ((c : Thread nD τ).loc r) :=
  (W2_of_ne m ρ c r h2).trans ((W1_of m ρ c r h1).trans rfl)

/-- A buffer the three host stretches between the kernels do not write is left as the first kernel's exit has it. -/
theorem W5_keep (c : Dev nD) (r : Ref sig .tc) (h1 : r ∉ hostOps1_W) (h2 : r ∉ hostOps1_1_W) (h3 : r ∉ hostOps1_2_W) :
    W5 m ρ c (Proc.devRef .tc r) = W2 m ρ c (Proc.devRef .tc r) :=
  (W5_of m ρ c r h3).trans ((W4_of m ρ c r h2).trans (W3_of m ρ c r h1))

theorem W6_arg0 (c : Dev nD) : W6 m ρ c (Proc.devRef .tc main_arg0) = m ((c : Thread nD τ).loc main_arg0) :=
  (W6_of_ne m ρ c main_arg0 (by decide)).trans ((W5_keep m ρ c main_arg0 (by decide) (by decide) (by decide)).trans (W2_arg m ρ c main_arg0 (by decide) (by decide)))
/-- The weight is the second kernel's fourth input window's array: left as found. -/
theorem W6_arg1 (c : Dev nD) : W6 m ρ c (Proc.devRef .tc main_arg1) = m ((c : Thread nD τ).loc main_arg1) :=
  (W6_arr m ρ c 3).trans (((gcnDat (V5 m ρ) c).arrAt_in 3 rfl _).trans ((gcnDat_A (V5 m ρ) c 3).trans
    ((W5_keep m ρ c main_arg1 (by decide) (by decide) (by decide)).trans (W2_arg m ρ c main_arg1 (by decide) (by decide)))))
theorem W6_arg2 (c : Dev nD) : W6 m ρ c (Proc.devRef .tc main_arg2) = m ((c : Thread nD τ).loc main_arg2) :=
  (W6_of_ne m ρ c main_arg2 (by decide)).trans ((W5_keep m ρ c main_arg2 (by decide) (by decide) (by decide)).trans (W2_arg m ρ c main_arg2 (by decide) (by decide)))
theorem W6_arg3 (c : Dev nD) : W6 m ρ c (Proc.devRef .tc main_arg3) = m ((c : Thread nD τ).loc main_arg3) :=
  (W6_of_ne m ρ c main_arg3 (by decide)).trans ((W5_keep m ρ c main_arg3 (by decide) (by decide) (by decide)).trans (W2_arg m ρ c main_arg3 (by decide) (by decide)))
theorem W6_arg4 (c : Dev nD) : W6 m ρ c (Proc.devRef .tc main_arg4) = m ((c : Thread nD τ).loc main_arg4) :=
  (W6_of_ne m ρ c main_arg4 (by decide)).trans ((W5_keep m ρ c main_arg4 (by decide) (by decide) (by decide)).trans (W2_arg m ρ c main_arg4 (by decide) (by decide)))

end Cert.KernelIdeal.Hand
end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Spec.lean ====
/-
  What the two programs compute, as functions of the argument arrays over the extended reals, and the law that joins them.

  With `a` the dense adjacency matrix (8192×8192), `deg a i = ∑ⱼ a i j` its row sums and `dinv a i` the inverse square
  root of a row sum (zero where the row sum is not positive), the reference forms the normalised matrix
  `dinv i · a i j · dinv j`, multiplies it into the features `x` and applies the linear layer:
      refOut i o = (∑_c (∑ⱼ ((dinv i · a i j) · dinv j) · x j c) · W o c + b o) + bias o.
  The kernel scales the features' rows first, multiplies by the bare adjacency matrix, and scales the rows of the product:
      kerOut i o = (∑_c ((∑ⱼ a i j · (dinv j · x j c)) · dinv i) · W o c + b o) + bias o.
  The two agree when every entry of `a` and of `x` is a real number: the factor `dinv i` moves through the finite sum
  over `j` (which fails on the extended reals once an infinity is among the terms), the rest is commutativity and
  associativity of the product.
-/
import Idealize.ShloMosaic.PureOps.Ideal
import Idealize.ShloMosaic.PureOps.Ideal.Laws
import Idealize.ShloMosaic.Lib.ValueIdx
import proofs.«181802_j26431228739923_1_alg».proof.Proof.LibRealSums

noncomputable section

open scoped BigOperators

namespace Cert.Spec

open Idealize.ShloMosaic Idealize.ShloMosaic.RealSums Idealize.ShloMosaic.ValueIdx

/-- The adjacency matrix's shape, the features' (and the result's), the weight's, a bias vector's, a column vector's
    (the row sums as the kernel keeps them) and a row vector's (a bias as the kernel takes it). -/
abbrev SA : Shape := ⟨2, ![8192, 8192]⟩
abbrev SX : Shape := ⟨2, ![8192, 256]⟩
abbrev SW : Shape := ⟨2, ![256, 256]⟩
abbrev SB : Shape := ⟨1, ![256]⟩
abbrev SC : Shape := ⟨2, ![8192, 1]⟩
abbrev SR : Shape := ⟨2, ![1, 256]⟩
abbrev SD : Shape := ⟨1, ![8192]⟩

/-- The inverse square root of a row sum `s`, zero where `s` is not positive — as both programs compute it, one element
    at a time: `where(s > 0, 1 / sqrt s, 0)`, the literals kept as their words. -/
def dis (s : EReal) : EReal :=
  Scalar.select (Ideal.cmp .ogt s (Ideal.ofBits .f32 0x00000000#32))
    (Ideal.div (Ideal.ofBits .f32 0x3F800000#32) (Ideal.sqrt s)) (Ideal.ofBits .f32 0x00000000#32)

/-- Row `i`'s sum. -/
def deg (a : SA.Idx → EReal) (i : Fin 8192) : EReal := ∑ j : Fin 8192, a (ix2 i j)

/-- Row `i`'s inverse square root of its sum. -/
def dinv (a : SA.Idx → EReal) (i : Fin 8192) : EReal := dis (deg a i)

/-- The sum of the first `n` terms of a family over `Fin 8192`: what a running sum over column blocks holds after the
    blocks left of column `n`. -/
def psum (n : ℕ) (f : Fin 8192 → EReal) : EReal := ∑ j ∈ Finset.univ.filter (fun j : Fin 8192 => j.val < n), f j

/-- What the second kernel leaves, from the arrays it is handed: the adjacency matrix `a`, the row-scaled features
    `xs`, the column of row factors `d`, the weight `W` and the two bias rows. -/
def kerOutV (a : SA.Idx → EReal) (xs : SX.Idx → EReal) (d : SC.Idx → EReal) (W : SW.Idx → EReal) (b2 bias2 : SR.Idx → EReal) :
    SX.Idx → EReal := fun p =>
  ((∑ c : Fin 256, ((∑ j : Fin 8192, a (ix2 (p 0) j) * xs (ix2 j c)) * d (ix2 (p 0) (0 : Fin 1))) * W (ix2 (p 1) c))
    + b2 (ix2 (0 : Fin 1) (p 1))) + bias2 (ix2 (0 : Fin 1) (p 1))

/-- The kernel program's result from the argument arrays and the adjacency matrix. -/
def kerOut (a : SA.Idx → EReal) (x : SX.Idx → EReal) (W : SW.Idx → EReal) (b bias : SB.Idx → EReal) : SX.Idx → EReal := fun p =>
  ((∑ c : Fin 256, ((∑ j : Fin 8192, a (ix2 (p 0) j) * (dinv a j * x (ix2 j c))) * dinv a (p 0)) * W (ix2 (p 1) c))
    + b (ix1 (p 1))) + bias (ix1 (p 1))

/-- The reference's result from the argument arrays and the adjacency matrix. -/
def refOut (a : SA.Idx → EReal) (x : SX.Idx → EReal) (W : SW.Idx → EReal) (b bias : SB.Idx → EReal) : SX.Idx → EReal := fun p =>
  ((∑ c : Fin 256, (∑ j : Fin 8192, ((dinv a (p 0) * a (ix2 (p 0) j)) * dinv a j) * x (ix2 j c)) * W (ix2 (p 1) c))
    + b (ix1 (p 1))) + bias (ix1 (p 1))

/-! ## Running sums over column blocks -/

theorem psum_zero (f : Fin 8192 → EReal) : psum 0 f = 0 := by
  simp [psum]

/-- One more column block of width 1024. -/
theorem psum_block (k : ℕ) (hk : k < 8) (f : Fin 8192 → EReal) :
    psum (1024 * (k + 1)) f = psum (1024 * k) f + ∑ l : Fin 1024, f ⟨1024 * k + l.val, by have := l.isLt; omega⟩ := by
  classical
  unfold psum
  -- the block's columns, as an injection of `Fin 1024` into the columns
  let e : Fin 1024 ↪ Fin 8192 :=
    ⟨fun l => ⟨1024 * k + l.val, by have := l.isLt; omega⟩, fun l l' h => by
      have h' : 1024 * k + l.val = 1024 * k + l'.val := congrArg Fin.val h
      exact Fin.ext (by omega)⟩
  -- the columns left of `1024 (k+1)` are those left of `1024 k` together with the block
  have hU : Finset.univ.filter (fun j : Fin 8192 => j.val < 1024 * (k + 1)) =
      Finset.univ.filter (fun j : Fin 8192 => j.val < 1024 * k) ∪ Finset.univ.map e := by
    ext j
    simp only [Finset.mem_filter, Finset.mem_univ, true_and, Finset.mem_union, Finset.mem_map]
    constructor
    · intro h
      by_cases h' : j.val < 1024 * k
      · exact Or.inl h'
      · refine Or.inr ⟨⟨j.val - 1024 * k, by omega⟩, ?_⟩
        apply Fin.ext
        show 1024 * k + (j.val - 1024 * k) = j.val
        omega
    · rintro (h | ⟨l, rfl⟩)
      · omega
      · show 1024 * k + l.val < 1024 * (k + 1)
        have := l.isLt
        omega
  -- and the two parts share no column
  have hD : Disjoint (Finset.univ.filter (fun j : Fin 8192 => j.val < 1024 * k)) (Finset.univ.map e) := by
    rw [Finset.disjoint_left]
    intro j hj hj'
    simp only [Finset.mem_filter, Finset.mem_univ, true_and] at hj
    simp only [Finset.mem_map, Finset.mem_univ, true_and] at hj'
    obtain ⟨l, rfl⟩ := hj'
    have : 1024 * k + l.val < 1024 * k := hj
    omega
  rw [hU, Finset.sum_union hD, Finset.sum_map]
  rfl

theorem psum_full (f : Fin 8192 → EReal) : psum 8192 f = ∑ j : Fin 8192, f j := by
  unfold psum
  rw [Finset.filter_true_of_mem fun j _ => j.isLt]

/-! ## The row factors are real numbers, whatever the row sum -/

/-- The word `0x3F800000` is the number one: sign 0, exponent field 127 (the bias), significand field 0. -/
theorem one_word_eq_one : Ideal.ofBits .f32 0x3F800000#32 = 1 := by
  simp [Ideal.ofBits, Ideal.ieee, -EReal.coe_mul]
  norm_num

/-- The square root of a positive extended real is not zero: it is `⊤` at `⊤` and the positive root at a positive real. -/
theorem sqrt_ne_zero_of_zero_lt {s : EReal} (h : 0 < s) : Ideal.sqrt s ≠ 0 := by
  induction s using EReal.rec with
  | bot => exact absurd h (not_lt_bot)
  | top => rw [Ideal.sqrt_top]; exact EReal.top_ne_zero
  | coe r =>
    have hr : 0 < r := by exact_mod_cast h
    rw [Ideal.sqrt_coe, if_neg (not_lt.mpr hr.le)]
    have : Real.sqrt r ≠ 0 := (Real.sqrt_pos.mpr hr).ne'
    exact_mod_cast this

theorem isReal_dis (s : EReal) : IsReal (dis s) := by
  unfold dis
  rw [Ideal.ofBits_zero_f32, one_word_eq_one]
  unfold Scalar.select Ideal.cmp
  by_cases h : (0 : EReal) < s
  · rw [if_pos (by simp [h])]
    exact IsReal.div ⟨1, rfl⟩ (sqrt_ne_zero_of_zero_lt h)
  · rw [if_neg (by simp [h])]
    exact IsReal.zero

theorem isReal_dinv (a : SA.Idx → EReal) (i : Fin 8192) : IsReal (dinv a i) := isReal_dis _

/-! ## The law -/

/-- Scaling the features' rows, multiplying by the adjacency matrix and scaling the product's rows is multiplying by the
    normalised matrix, when the adjacency matrix and the features hold real numbers. -/
theorem kerOut_eq_refOut (a : SA.Idx → EReal) (x : SX.Idx → EReal) (W : SW.Idx → EReal) (b bias : SB.Idx → EReal)
    (ha : ∀ p, IsReal (a p)) (hx : ∀ p, IsReal (x p)) : kerOut a x W b bias = refOut a x W b bias := by
  -- the row factor of row `i` moves through the sum over the columns, all terms being real numbers
  have key : ∀ (i : Fin 8192) (c : Fin 256),
      (∑ j : Fin 8192, a (ix2 i j) * (dinv a j * x (ix2 j c))) * dinv a i
        = ∑ j : Fin 8192, ((dinv a i * a (ix2 i j)) * dinv a j) * x (ix2 j c) := by
    intro i c
    have hd := isReal_dinv a
    choose a' ha' using ha
    choose x' hx' using hx
    choose d' hd' using hd
    simp only [ha', hx', hd', ← EReal.coe_mul, ← coe_sum]
    rw [EReal.coe_eq_coe_iff, Finset.sum_mul]
    refine Finset.sum_congr rfl fun j _ => ?_
    ring
  -- the linear layer and the two biases enter both sides alike
  funext p
  unfold kerOut refOut
  congr 1; congr 1
  refine Finset.sum_congr rfl fun c _ => ?_
  congr 1
  exact key (p 0) c

end Cert.Spec

end
-- ==== Proof.KI.DegValue.lean ====
/-
  What the degree kernel leaves in its output array: every row's sum.

  The output array is written back one 1024-row block at a time, at the last column block of each row block; the block
  written is the running column vector, which after column block k holds each row's sum over the columns left of
  1024·(k+1) (`Spec.psum`); at k = 7 that is the whole row.
-/
import proofs.«181802_j26431228739923_1_alg».proof.Proof.KI.DegFrame
import proofs.«181802_j26431228739923_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand
namespace DegLeg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The cleared column vector is zero everywhere. -/
theorem pay1_apply (y : S1024x1.Idx) : (k0_pay1 (F := Ideal) : S1024x1.Idx → EReal) y = 0 := by
  unfold k0_pay1
  simp only [shapeCast_self]
  exact Ideal.ofBits_zero_f32

/-- One step of the running sum at row r: what was there plus the block's row sum. -/
theorem pay2_apply (x : S1024x1024.Idx → EReal) (s : S1024x1.Idx → EReal) (r : Fin 1024) :
    (k0_pay2 (F := Ideal) x s : S1024x1.Idx → EReal) (ix2 r (0 : Fin 1)) = s (ix2 r (0 : Fin 1)) + ∑ l : Fin 1024, x (ix2 r l) := by
  unfold k0_pay2
  simp only [shapeCast_self]
  rw [addf_apply]
  congr 1
  rw [shapeCast_apply _ _ (ix2 r (0 : Fin 1)) (ix1 r) (by rw [Shape.rowMajor_val_one, Shape.rowMajor_val_two]; simp)]
  refine (Ideal.multiReduction_add_single (s := S1024x1024) (t := S1024) (a := 1) x _ reduces_S1024x1024_S1024 _ _ (ix1 r)).trans ?_
  exact Finset.sum_congr rfl fun l _ => congrArg x (by funext a; match a with | ⟨0,_⟩ => rfl | ⟨1,_⟩ => rfl)

/-! ## The blocks and the running vector, at their literal types -/

/-- The adjacency matrix as the region finds it. -/
abbrev adj (V : (c : Dev nD) → (b : Ref sig .tc) → Buf (Elt Ideal) ((c : Thread nD τ).loc b)) (c : Dev nD) : S8192x8192.Idx → EReal := V c main_v35

/-- The adjacency block of point t. -/
abbrev adjBlk (V : (c : Dev nD) → (b : Ref sig .tc) → Buf (Elt Ideal) ((c : Thread nD τ).loc b)) (c : Dev nD) (t : Fin cfg0.N) : S1024x1024.Idx → EReal := degBlk (F := Ideal) V c 0 t

/-- The running column vector after position n. -/
abbrev accL (V : (c : Dev nD) → (b : Ref sig .tc) → Buf (Elt Ideal) ((c : Thread nD τ).loc b)) (c : Dev nD) (n : ℕ) (hn : n < cfg0.N) : S1024x1.Idx → EReal := degAccAt (F := Ideal) V c n hn

/-- Entry (r, l) of the block of point t = 8·ib + k is the matrix at (1024·ib + r, 1024·k + l). -/
theorem adjBlk_apply (V : (c : Dev nD) → (b : Ref sig .tc) → Buf (Elt Ideal) ((c : Thread nD τ).loc b)) (c : Dev nD) (t : Fin cfg0.N) (r l : Fin 1024) (i j : Fin 8192)
    (hi : i.val = 1024 * (t.val / 8) + r.val) (hj : j.val = 1024 * (t.val % 8) + l.val) :
    adjBlk V c t (ix2 r l) = adj V c (ix2 i j) := by
  have hx : ∀ t : Fin grid0.N, win0_0.index t 0 = t.val / 8 ∧ win0_0.index t 1 = t.val % 8 := by decide +kernel
  unfold adjBlk degBlk
  rw [View.read_apply]
  show V c main_v35 _ = V c main_v35 _
  congr 1
  funext a
  apply Fin.ext
  match a with
  | ⟨0, _⟩ => show win0_0.index t 0 * 1024 + 1 * r.val = i.val; rw [(hx t).1, hi]; omega
  | ⟨1, _⟩ => show win0_0.index t 1 * 1024 + 1 * l.val = j.val; rw [(hx t).2, hj]; omega

/-! ## The running vector holds the rows' partial sums -/

/-- One point: from what the point before left (asked only where the point is not at column block 0) to what this
    point leaves. At point t = 8·ib + k, row r of the running vector is the sum of row 1024·ib + r of the matrix over
    the columns left of 1024·(k+1). -/
theorem acc_step (V : (c : Dev nD) → (b : Ref sig .tc) → Buf (Elt Ideal) ((c : Thread nD τ).loc b)) (c : Dev nD) (t : Fin cfg0.N)
    (ih : ∀ (h : t.val - 1 < cfg0.N) (r : Fin 1024) (i : Fin 8192), ¬t.val % 8 = 0 → i.val = 1024 * ((t.val - 1) / 8) + r.val →
      accL V c (t.val - 1) h (ix2 r (0 : Fin 1)) = Cert.Spec.psum (1024 * ((t.val - 1) % 8 + 1)) (fun j => adj V c (ix2 i j)))
    (r : Fin 1024) (i : Fin 8192) (hi : i.val = 1024 * (t.val / 8) + r.val) :
    accL V c t.val t.isLt (ix2 r (0 : Fin 1)) = Cert.Spec.psum (1024 * (t.val % 8 + 1)) (fun j => adj V c (ix2 i j)) := by
  have hk : t.val % 8 < 8 := Nat.mod_lt _ (by decide)
  rw [Cert.Spec.psum_block (t.val % 8) hk]
  by_cases h0 : t.val % 8 = 0
  · show (degAccAt (F := Ideal) V c t.val t.isLt : S1024x1.Idx → EReal) (ix2 r (0 : Fin 1)) = _
    rw [degAccAt_first V c t h0]
    show (k0_pay2 (F := Ideal) (adjBlk V c t) (k0_pay1 (F := Ideal)) : S1024x1.Idx → EReal) (ix2 r (0 : Fin 1)) = _
    rw [pay2_apply, pay1_apply]
    congr 1
    · rw [h0]; exact (Cert.Spec.psum_zero _).symm
    · exact Finset.sum_congr rfl fun l _ => adjBlk_apply V c t r l i _ hi rfl
  · show (degAccAt (F := Ideal) V c t.val t.isLt : S1024x1.Idx → EReal) (ix2 r (0 : Fin 1)) = _
    rw [degAccAt_next V c t h0]
    show (k0_pay2 (F := Ideal) (adjBlk V c t) (accL V c (t.val - 1) _) : S1024x1.Idx → EReal) (ix2 r (0 : Fin 1)) = _
    rw [pay2_apply]
    congr 1
    · rw [ih _ r i h0 (by omega)]
      congr 1
      omega
    · exact Finset.sum_congr rfl fun l _ => adjBlk_apply V c t r l i _ hi rfl

/-- So after every position, by induction on the position. -/
theorem acc_apply (V : (c : Dev nD) → (b : Ref sig .tc) → Buf (Elt Ideal) ((c : Thread nD τ).loc b)) (c : Dev nD) : ∀ (n : ℕ) (hn : n < cfg0.N) (r : Fin 1024) (i : Fin 8192),
    i.val = 1024 * (n / 8) + r.val →
    accL V c n hn (ix2 r (0 : Fin 1)) = Cert.Spec.psum (1024 * (n % 8 + 1)) (fun j => adj V c (ix2 i j))
  | 0, hn, r, i, hi => acc_step V c ⟨0, hn⟩ (fun _ _ _ h0 _ => absurd rfl h0) r i hi
  | n + 1, hn, r, i, hi => acc_step V c ⟨n + 1, hn⟩ (fun h r' i' _ hi' => acc_apply V c n h r' i' hi') r i hi

/-! ## From the blocks written back to the output array -/

/-- What the output array ends holding: every row's sum. -/
abbrev degG (V : (c : Dev nD) → (b : Ref sig .tc) → Buf (Elt Ideal) ((c : Thread nD τ).loc b)) (c : Dev nD) : S8192x1.Idx → EReal := fun p => Cert.Spec.deg (adj V c) (p 0)

/-- At the last column block the running vector holds whole rows' sums. -/
theorem acc_last (V : (c : Dev nD) → (b : Ref sig .tc) → Buf (Elt Ideal) ((c : Thread nD τ).loc b)) (c : Dev nD) (t : Fin cfg0.N) (h7 : t.val % 8 = 7) (y : S1024x1.Idx) (p : S8192x1.Idx)
    (hp : (p 0).val = 1024 * (t.val / 8) + (y 0).val) : accL V c t.val t.isLt y = degG V c p := by
  obtain ⟨r, z, rfl⟩ : ∃ (r : Fin 1024) (z : Fin 1), y = ix2 r z := ⟨y 0, y 1, eq_ix2 y⟩
  obtain rfl : z = 0 := Subsingleton.elim _ _
  rw [acc_apply V c t.val t.isLt r (p 0) hp, h7]
  exact Cert.Spec.psum_full _

/-- The output window's block index at point t = 8·ib + k is (ib, 0). -/
theorem outIdx : ∀ t : Fin cfg0.N, win0_1.index t 0 = t.val / 8 ∧ win0_1.index t 1 = 0 :=
  (by decide +kernel : ∀ t : Fin grid0.N, win0_1.index t 0 = t.val / 8 ∧ win0_1.index t 1 = 0)

/-- What a point of the last column block writes back is its block of the rows' sums. -/
theorem deg_flushed_eq (V : (c : Dev nD) → (b : Ref sig .tc) → Buf (Elt Ideal) ((c : Thread nD τ).loc b)) (c : Dev nD) (t : Fin cfg0.N) (hf : (cfg0.win 1).flush t = true) :
    (degDat (F := Ideal) V c).flushed 1 t = ((cfg0.win 1).blk t).view.read (Elt Ideal) (degG V c) := by
  have h7 : t.val % 8 = 7 := (flush0_1 t).mp hf
  show (cfg0.win 1).cut (grid0.coords t) ((degDat (F := Ideal) V c).after 1 t) = _
  rw [degDat_after_out]
  funext y
  rw [View.read_apply]
  refine acc_last V c t h7 _ _ ?_
  show win0_1.index t 0 * 1024 + 1 * _ = 1024 * (t.val / 8) + _
  rw [(outIdx t).1]
  have e : ∀ a b : ℕ, a = b → t.val / 8 * 1024 + 1 * a = 1024 * (t.val / 8) + b := fun a b h => by omega
  exact e _ _ rfl

/-- Every row is in the block of the last point of its row block. -/
theorem deg_cover (i : S8192x1.Idx) : ∃ t : Fin cfg0.N, (cfg0.win 1).flush t = true ∧ i ∈ ((cfg0.win 1).blk t).view.set := by
  have h0 : (i 0).val < 8192 := (i 0).isLt
  have h1 : (i 1).val < 1 := (i 1).isLt
  have hN : cfg0.N = 64 := N_0
  have hlt : 8 * ((i 0).val / 1024) + 7 < cfg0.N := by rw [hN]; omega
  refine ⟨⟨8 * ((i 0).val / 1024) + 7, hlt⟩, (flush0_1 _).mpr (by show (8 * ((i 0).val / 1024) + 7) % 8 = 7; omega), ?_⟩
  show i ∈ ((View.whole main_v36).slice (win0_1.rect ⟨8 * ((i 0).val / 1024) + 7, hlt⟩)).set
  rw [View.set_slice_whole, Rect.mem_set_unit]
  intro a
  match a with
  | ⟨0, _⟩ =>
    show win0_1.index ⟨8 * ((i 0).val / 1024) + 7, hlt⟩ 0 * 1024 ≤ (i 0).val ∧ (i 0).val < win0_1.index ⟨8 * ((i 0).val / 1024) + 7, hlt⟩ 0 * 1024 + 1024
    rw [(outIdx _).1]
    show (8 * ((i 0).val / 1024) + 7) / 8 * 1024 ≤ (i 0).val ∧ (i 0).val < (8 * ((i 0).val / 1024) + 7) / 8 * 1024 + 1024
    omega
  | ⟨1, _⟩ =>
    show win0_1.index ⟨8 * ((i 0).val / 1024) + 7, hlt⟩ 1 * 1 ≤ (i 1).val ∧ (i 1).val < win0_1.index ⟨8 * ((i 0).val / 1024) + 7, hlt⟩ 1 * 1 + 1
    rw [(outIdx _).2]
    omega

/-- After the region, row `i` of the degree kernel's output array holds the sum of row `i` of the adjacency matrix the
    region was entered with. -/
theorem deg_final (V : (c : Dev nD) → (b : Ref sig .tc) → Buf (Elt Ideal) ((c : Thread nD τ).loc b)) (c : Dev nD) (i : Fin 8192) :
    ((degDat (F := Ideal) V c).arrAt 1 cfg0.N : S8192x1.Idx → EReal) (ix2 i (0 : Fin 1)) = Cert.Spec.deg (V c main_v35) i := by
  rw [(degDat (F := Ideal) V c).arrAt_eq_of_cover 1 (degG V c) (deg_flushed_eq V c) deg_cover]

end DegLeg
end Cert.KernelIdeal.Hand
end
-- ==== Proof.KI.GcnValuePay.lean ====
/-
  The message-passing kernel's three pure values, read one entry at a time over the extended reals.

  Clearing stores zero. An accumulation step adds to the entry at (r, q) the sum over the 1024 columns l of the adjacency
  block's (r, l) times the features block's (l, q). The epilogue at (r, o) is the sum over the 256 features k of the
  accumulator's (r, k) times row r's factor times the weight's (o, k) — the weight enters transposed —, plus the two bias
  rows' entries at column o. The changes of float format between f32 and bf16 are the identity on extended reals.
-/
import proofs.«181802_j26431228739923_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand
namespace GcnLeg

open Cert.KernelIdeal Cert.KernelIdeal.Gen
open Idealize.ShloMosaic Idealize.ShloMosaic.TcCoe
open Idealize.ShloMosaic.ValueIdx

/-! ## The two contractions, axis by axis -/

theorem adj_lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem adj_lhs_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem adj_rhs_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem adj_rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The block product at row `r`, feature `q`: the adjacency block's row `r` against the features block's column `q`. -/
theorem adj_matmul_apply (a : FVec Ideal S1024x1024 .bf16) (x : FVec Ideal S1024x256 .bf16) (r : Fin 1024) (q : Fin 256) :
    FloatOps.matmul dot_S1024x1024_S1024x256_S1024x256_1_0_0_1_n_n none a x (constant (F := Ideal) S1024x256 .f32 0x00000000#32) (ix2 r q)
      = ∑ l : Fin 1024, a (ix2 r l) * x (ix2 l q) := by
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r q) ((contrEquiv1 dot_S1024x1024_S1024x256_S1024x256_1_0_0_1_n_n 1024 rfl rfl).symm k) = ix2 r k := funext fun a => Fin.ext (by
    match a with
    | ⟨0, _⟩ => exact adj_lhs_0 _ _
    | ⟨1, _⟩ => exact (adj_lhs_1 _ _).trans hk)
  have er : dot_S1024x1024_S1024x256_S1024x256_1_0_0_1_n_n.rhsIdx (ix2 r q) ((contrEquiv1 dot_S1024x1024_S1024x256_S1024x256_1_0_0_1_n_n 1024 rfl rfl).symm k) = ix2 k q := funext fun a => Fin.ext (by
    match a with
    | ⟨0, _⟩ => exact (adj_rhs_0 _ _).trans hk
    | ⟨1, _⟩ => exact adj_rhs_1 _ _)
  rw [el, er]

theorem lin_lhs_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lin_lhs_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem lin_rhs_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem lin_rhs_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The linear layer at row `r`, output feature `o`: the row against row `o` of the weight (the weight enters transposed). -/
theorem lin_matmul_apply (h : FVec Ideal S1024x256 .bf16) (w : FVec Ideal S256x256 .bf16) (r : Fin 1024) (o : Fin 256) :
    FloatOps.matmul dot_S1024x256_S256x256_S1024x256_1_1_0_0_n_n none h w (constant (F := Ideal) S1024x256 .f32 0x00000000#32) (ix2 r o)
      = ∑ k : Fin 256, h (ix2 r k) * w (ix2 o k) := by
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 r o) ((contrEquiv1 dot_S1024x256_S256x256_S1024x256_1_1_0_0_n_n 256 rfl rfl).symm k) = ix2 r k := funext fun a => Fin.ext (by
    match a with
    | ⟨0, _⟩ => exact lin_lhs_0 _ _
    | ⟨1, _⟩ => exact (lin_lhs_1 _ _).trans hk)
  have er : dot_S1024x256_S256x256_S1024x256_1_1_0_0_n_n.rhsIdx (ix2 r o) ((contrEquiv1 dot_S1024x256_S256x256_S1024x256_1_1_0_0_n_n 256 rfl rfl).symm k) = ix2 o k := funext fun a => Fin.ext (by
    match a with
    | ⟨0, _⟩ => exact lin_rhs_0 _ _
    | ⟨1, _⟩ => exact (lin_rhs_1 _ _).trans hk)
  rw [el, er]

/-! ## The three payloads at an index -/

/-- The cleared accumulator holds zero everywhere. -/
theorem pay1_apply (j : S1024x256.Idx) : k1_pay1 (F := Ideal) j = 0 := by
  unfold k1_pay1
  simp only [shapeCast_self]
  exact Ideal.ofBits_zero_f32

/-- One accumulation step: the previous contents plus the block product. -/
theorem pay2_apply (v3 : Vec Ideal S1024x1024 .f32) (v6 v9 : Vec Ideal S1024x256 .f32) (r : Fin 1024) (q : Fin 256) :
    k1_pay2 (F := Ideal) v3 v6 v9 (ix2 r q) = v9 (ix2 r q) + ∑ l : Fin 1024, v3 (ix2 r l) * v6 (ix2 l q) := by
  unfold k1_pay2
  simp only [shapeCast_self]
  refine (addf_apply _ _ _).trans ?_
  congr 1
  exact adj_matmul_apply _ _ r q

/-- A row vector spread over the rows reads its entry of the same column. -/
theorem row_broadcast_apply (v : Vec Ideal S1x256 .f32) (r : Fin 1024) (o : Fin 256) :
    broadcastTo S1024x256 v broadcasts_S1x256_S1024x256 (ix2 r o) = v (ix2 (0 : Fin 1) o) := by
  refine broadcastTo_apply v broadcasts_S1x256_S1024x256 (ix2 r o) (ix2 (0 : Fin 1) o) fun a => ?_
  match a with
  | ⟨0, _⟩ => rfl
  | ⟨1, _⟩ => rfl

/-- A column vector spread over the columns reads its entry of the same row. -/
theorem col_broadcast_apply (v : Vec Ideal S1024x1 .f32) (r : Fin 1024) (k : Fin 256) :
    broadcastTo S1024x256 v broadcasts_S1024x1_S1024x256 (ix2 r k) = v (ix2 r (0 : Fin 1)) := by
  refine broadcastTo_apply v broadcasts_S1024x1_S1024x256 (ix2 r k) (ix2 r (0 : Fin 1)) fun a => ?_
  match a with
  | ⟨0, _⟩ => rfl
  | ⟨1, _⟩ => rfl

/-- The epilogue: the accumulator's rows scaled by the row factors, against the transposed weight, plus the two bias rows. -/
theorem pay3_apply (v18 : Vec Ideal S1024x256 .f32) (v19 : Vec Ideal S1024x1 .f32) (v24 : Vec Ideal S256x256 .f32)
    (v27 v31 : Vec Ideal S1x256 .f32) (r : Fin 1024) (o : Fin 256) :
    k1_pay3 (F := Ideal) v18 v19 v24 v27 v31 (ix2 r o)
      = ((∑ k : Fin 256, (v18 (ix2 r k) * v19 (ix2 r (0 : Fin 1))) * v24 (ix2 o k)) + v27 (ix2 (0 : Fin 1) o)) + v31 (ix2 (0 : Fin 1) o) := by
  unfold k1_pay3
  simp only [shapeCast_self]
  refine (addf_apply _ _ _).trans ?_
  congr 1
  · refine (addf_apply _ _ _).trans ?_
    congr 1
    · refine (lin_matmul_apply _ _ r o).trans ?_
      refine Finset.sum_congr rfl fun k _ => ?_
      congr 1
      refine (mulf_apply _ _ _).trans ?_
      congr 1
      exact col_broadcast_apply v19 r k
    · exact row_broadcast_apply v27 r o
  · exact row_broadcast_apply v31 r o

end GcnLeg
end Cert.KernelIdeal.Hand
end
-- ==== Proof.KI.GcnValue.lean ====
/-
  What the message-passing kernel leaves in its output array, from the arrays it is entered with.

  The output array is written back one 1024-row block at a time, at the last column block of each row block. The
  accumulator after column block k holds, at row r and feature c, the sum over the columns j left of 1024·(k+1) of
  (adjacency at (r, j)) · (scaled features at (j, c)) (`Spec.psum`); at k = 7 that is the whole product, whose rows are
  then scaled, multiplied into the transposed weight and shifted by the two bias rows (`Spec.kerOutV`).

  Each block of a window sits in its array, on each axis, at (block index) × (block size) + (coordinate inside the block);
  point t = 8·ib + k sees the adjacency block (ib, k), the features block (k, 0), the factors' and the output's block
  (ib, 0), and the weight and the bias rows whole. Row i of the output is written by point 8·(i / 1024) + 7.
-/
import proofs.«181802_j26431228739923_1_alg».proof.Proof.KI.GcnFrame
import proofs.«181802_j26431228739923_1_alg».proof.Proof.KI.GcnValuePay
import proofs.«181802_j26431228739923_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand
namespace GcnLeg

open Cert.KernelIdeal Cert.KernelIdeal.Gen
open Idealize.ShloMosaic Idealize.ShloMosaic.TcCoe
open Idealize.ShloMosaic.ValueIdx
open Idealize.ShloMosaic.Pipeline (Dat Cfg Window)

/-! ## The region's arrays and the point's blocks, by their literal types -/

section
variable (V : (c : Dev nD) → (b : Ref sig .tc) → Buf (Elt Ideal) ((c : Thread nD τ).loc b))

/-- The adjacency matrix, the row-scaled features, the column of row factors, the weight and the two bias rows, as the
    region finds them. -/
abbrev adjArr (c : Dev nD) : S8192x8192.Idx → EReal := V c main_v35
abbrev featArr (c : Dev nD) : S8192x256.Idx → EReal := V c main_v44
abbrev facArr (c : Dev nD) : S8192x1.Idx → EReal := V c main_v42
abbrev wArr (c : Dev nD) : S256x256.Idx → EReal := V c main_arg1
abbrev b1Arr (c : Dev nD) : S1x256.Idx → EReal := V c main_v45
abbrev b2Arr (c : Dev nD) : S1x256.Idx → EReal := V c main_v46

/-- Their blocks at point `t`. -/
abbrev adjBlk (c : Dev nD) (t : Fin cfg1.N) : Vec Ideal S1024x1024 .f32 := gcnBlk V c 0 t
abbrev featBlk (c : Dev nD) (t : Fin cfg1.N) : Vec Ideal S1024x256 .f32 := gcnBlk V c 1 t
abbrev facBlk (c : Dev nD) (t : Fin cfg1.N) : Vec Ideal S1024x1 .f32 := gcnBlk V c 2 t
abbrev wBlk (c : Dev nD) (t : Fin cfg1.N) : Vec Ideal S256x256 .f32 := gcnBlk V c 3 t
abbrev b1Blk (c : Dev nD) (t : Fin cfg1.N) : Vec Ideal S1x256 .f32 := gcnBlk V c 4 t
abbrev b2Blk (c : Dev nD) (t : Fin cfg1.N) : Vec Ideal S1x256 .f32 := gcnBlk V c 5 t

/-- Which block of each array the point `t` = 8·(row block) + (column block) sees: the adjacency block (row block, column
    block), the features block (column block, 0), the factors' and the output's block (row block, 0), the weight and the
    bias rows whole. -/
theorem gcn_idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

theorem adjBlk_apply (c : Dev nD) (t : Fin cfg1.N) (y : S1024x1024.Idx) (k : S8192x8192.Idx)
    (h0 : (k 0).val = 1024 * (t.val / 8) + (y 0).val) (h1 : (k 1).val = 1024 * (t.val % 8) + (y 1).val) :
    adjBlk V c t y = adjArr V c k := by
  obtain ⟨e0, e1, -⟩ := gcn_idx_facts t
  show V c main_v35 (((cfg1.win 0).blk t).view.emb y) = V c main_v35 k
  congr 1
  funext a
  apply Fin.ext
  match a with
  | ⟨0, _⟩ => show win1_0.index t (0 : Fin 2) * 1024 + 1 * (y 0).val = (k 0).val; rw [e0, h0]; omega
  | ⟨1, _⟩ => show win1_0.index t (1 : Fin 2) * 1024 + 1 * (y 1).val = (k 1).val; rw [e1, h1]; omega

theorem featBlk_apply (c : Dev nD) (t : Fin cfg1.N) (y : S1024x256.Idx) (k : S8192x256.Idx)
    (h0 : (k 0).val = 1024 * (t.val % 8) + (y 0).val) (h1 : (k 1).val = (y 1).val) :
    featBlk V c t y = featArr V c k := by
  obtain ⟨-, -, e0, e1, -⟩ := gcn_idx_facts t
  show V c main_v44 (((cfg1.win 1).blk t).view.emb y) = V c main_v44 k
  congr 1
  funext a
  apply Fin.ext
  match a with
  | ⟨0, _⟩ => show win1_1.index t (0 : Fin 2) * 1024 + 1 * (y 0).val = (k 0).val; rw [e0, h0]; omega
  | ⟨1, _⟩ => show win1_1.index t (1 : Fin 2) * 256 + 1 * (y 1).val = (k 1).val; rw [e1, h1]; omega

theorem facBlk_apply (c : Dev nD) (t : Fin cfg1.N) (y : S1024x1.Idx) (k : S8192x1.Idx)
    (h0 : (k 0).val = 1024 * (t.val / 8) + (y 0).val) (h1 : (k 1).val = (y 1).val) :
    facBlk V c t y = facArr V c k := by
  obtain ⟨-, -, -, -, e0, e1, -⟩ := gcn_idx_facts t
  show V c main_v42 (((cfg1.win 2).blk t).view.emb y) = V c main_v42 k
  congr 1
  funext a
  apply Fin.ext
  match a with
  | ⟨0, _⟩ => show win1_2.index t (0 : Fin 2) * 1024 + 1 * (y 0).val = (k 0).val; rw [e0, h0]; omega
  | ⟨1, _⟩ => show win1_2.index t (1 : Fin 2) * 1 + 1 * (y 1).val = (k 1).val; rw [e1, h1]; omega

theorem wBlk_apply (c : Dev nD) (t : Fin cfg1.N) (y : S256x256.Idx) : wBlk V c t y = wArr V c y := by
  obtain ⟨-, -, -, -, -, -, e0, e1, -⟩ := gcn_idx_facts t
  show V c main_arg1 (((cfg1.win 3).blk t).view.emb y) = V c main_arg1 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

theorem b1Blk_apply (c : Dev nD) (t : Fin cfg1.N) (y : S1x256.Idx) : b1Blk V c t y = b1Arr V c y := by
  obtain ⟨-, -, -, -, -, -, -, -, e0, e1, -⟩ := gcn_idx_facts t
  show V c main_v45 (((cfg1.win 4).blk t).view.emb y) = V c main_v45 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

theorem b2Blk_apply (c : Dev nD) (t : Fin cfg1.N) (y : S1x256.Idx) : b2Blk V c t y = b2Arr V c y := by
  obtain ⟨-, -, -, -, -, -, -, -, -, -, e0, e1, -⟩ := gcn_idx_facts t
  show V c main_v46 (((cfg1.win 5).blk t).view.emb y) = V c main_v46 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-! ## The accumulator is the running sum over the column blocks seen so far -/

/-- One more column block on a running sum. -/
theorem psum_step (f : Fin 8192 → EReal) (k : ℕ) (hk : k < 8) (acc : EReal) (g : Fin 1024 → EReal)
    (hacc : acc = Cert.Spec.psum (1024 * k) f)
    (hg : ∀ l : Fin 1024, g l = f ⟨1024 * k + l.val, by have := l.isLt; omega⟩) :
    acc + ∑ l : Fin 1024, g l = Cert.Spec.psum (1024 * (k + 1)) f := by
  rw [Cert.Spec.psum_block k hk f, hacc]
  congr 1
  exact Finset.sum_congr rfl fun l _ => hg l

/-- One accumulation step at point `t`, on contents `prev` that are row `i`'s running sum over the column blocks left of
    `t`'s: the running sum with `t`'s column block. -/
theorem acc_step (c : Dev nD) (t : Fin cfg1.N) (prev : Vec Ideal S1024x256 .f32) (r : Fin 1024) (q : Fin 256) (i : Fin 8192)
    (hi : i.val = 1024 * (t.val / 8) + r.val)
    (hprev : prev (ix2 r q) = Cert.Spec.psum (1024 * (t.val % 8)) (fun j => adjArr V c (ix2 i j) * featArr V c (ix2 j q))) :
    k1_pay2 (F := Ideal) (adjBlk V c t) (featBlk V c t) prev (ix2 r q)
      = Cert.Spec.psum (1024 * (t.val % 8 + 1)) (fun j => adjArr V c (ix2 i j) * featArr V c (ix2 j q)) := by
  refine (pay2_apply (adjBlk V c t) (featBlk V c t) prev r q).trans ?_
  refine psum_step _ (t.val % 8) (by omega) _ _ hprev fun l => ?_
  show adjBlk V c t (ix2 r l) * featBlk V c t (ix2 l q)
    = adjArr V c (ix2 i ⟨1024 * (t.val % 8) + l.val, _⟩) * featArr V c (ix2 ⟨1024 * (t.val % 8) + l.val, _⟩ q)
  congr 1
  · exact adjBlk_apply V c t (ix2 r l) _ hi rfl
  · exact featBlk_apply V c t (ix2 l q) _ rfl rfl

/-- After the point at position `n` = 8·(row block) + (column block), the accumulator's entry at row `r`, feature `q` is
    the sum over the columns `j` left of 1024·(column block + 1) of (adjacency at (row, j)) · (scaled features at (j, q)),
    the row being 1024·(row block) + r. -/
theorem acc_apply (c : Dev nD) : ∀ (n : ℕ) (hn : n < cfg1.N) (r : Fin 1024) (q : Fin 256) (i : Fin 8192),
    i.val = 1024 * (n / 8) + r.val →
    gcnAccAt (F := Ideal) V c n hn (ix2 r q)
      = Cert.Spec.psum (1024 * (n % 8 + 1)) (fun j => adjArr V c (ix2 i j) * featArr V c (ix2 j q))
  | 0, hn, r, q, i, hi => by
    show k1_pay2 (F := Ideal) (adjBlk V c ⟨0, hn⟩) (featBlk V c ⟨0, hn⟩) (k1_pay1 (F := Ideal)) (ix2 r q) = _
    exact acc_step V c ⟨0, hn⟩ (k1_pay1 (F := Ideal)) r q i hi (by rw [pay1_apply]; exact (Cert.Spec.psum_zero _).symm)
  | n + 1, hn, r, q, i, hi => by
    by_cases h : (n + 1) % 8 = 0
    · have e := gcnAccAt_first V c ⟨n + 1, hn⟩ h
      refine (congrFun e (ix2 r q)).trans ?_
      refine acc_step V c ⟨n + 1, hn⟩ (k1_pay1 (F := Ideal)) r q i hi ?_
      rw [pay1_apply]
      show (0 : EReal) = Cert.Spec.psum (1024 * ((n + 1) % 8)) _
      rw [h]
      exact (Cert.Spec.psum_zero _).symm
    · have e := gcnAccAt_next V c ⟨n + 1, hn⟩ h
      have ih := acc_apply c n (Nat.lt_of_succ_lt hn) r q i (by omega)
      have e8 : n % 8 + 1 = (n + 1) % 8 := by omega
      rw [e8] at ih
      refine (congrFun e (ix2 r q)).trans ?_
      exact acc_step V c ⟨n + 1, hn⟩ (gcnAccAt V c n (Nat.lt_of_succ_lt hn)) r q i hi ih

/-! ## What a row block's last point stores, and the array after the region -/

/-- At column block 7 the stored block's entry at row `r`, output feature `o` is `Spec.kerOutV` at the array's row
    1024·(row block) + r. -/
theorem out_apply (c : Dev nD) (t : Fin cfg1.N) (h7 : t.val % 8 = 7) (r : Fin 1024) (o : Fin 256) (i : Fin 8192)
    (hi : i.val = 1024 * (t.val / 8) + r.val) :
    gcnOutAt (F := Ideal) V c t (ix2 r o)
      = Cert.Spec.kerOutV (adjArr V c) (featArr V c) (facArr V c) (wArr V c) (b1Arr V c) (b2Arr V c) (ix2 i o) := by
  show k1_pay3 (F := Ideal) (gcnAccAt V c t.val t.isLt) (facBlk V c t) (wBlk V c t) (b1Blk V c t) (b2Blk V c t) (ix2 r o) = _
  refine (pay3_apply (gcnAccAt V c t.val t.isLt) (facBlk V c t) (wBlk V c t) (b1Blk V c t) (b2Blk V c t) r o).trans ?_
  show ((∑ k : Fin 256, (gcnAccAt V c t.val t.isLt (ix2 r k) * facBlk V c t (ix2 r (0 : Fin 1))) * wBlk V c t (ix2 o k))
      + b1Blk V c t (ix2 (0 : Fin 1) o)) + b2Blk V c t (ix2 (0 : Fin 1) o)
    = ((∑ k : Fin 256, ((∑ j : Fin 8192, adjArr V c (ix2 i j) * featArr V c (ix2 j k)) * facArr V c (ix2 i (0 : Fin 1))) * wArr V c (ix2 o k))
      + b1Arr V c (ix2 (0 : Fin 1) o)) + b2Arr V c (ix2 (0 : Fin 1) o)
  congr 1
  · congr 1
    · refine Finset.sum_congr rfl fun k _ => ?_
      congr 1
      · congr 1
        · rw [acc_apply V c t.val t.isLt r k i hi, h7]
          exact Cert.Spec.psum_full _
        · exact facBlk_apply V c t (ix2 r (0 : Fin 1)) (ix2 i (0 : Fin 1)) hi rfl
      · exact wBlk_apply V c t (ix2 o k)
    · exact b1Blk_apply V c t (ix2 (0 : Fin 1) o)
  · exact b2Blk_apply V c t (ix2 (0 : Fin 1) o)

/-- What a flushing point writes back is its block of `Spec.kerOutV` of the arrays. -/
theorem gcn_flushed_eq (c : Dev nD) (t : Fin cfg1.N) (hf : (cfg1.win 6).flush t = true) :
    (gcnDat (F := Ideal) V c).flushed 6 t = ((cfg1.win 6).blk t).view.read (Elt Ideal)
      (Cert.Spec.kerOutV (adjArr V c) (featArr V c) (facArr V c) (wArr V c) (b1Arr V c) (b2Arr V c)) := by
  have h7 : t.val % 8 = 7 := (flush1_6 t).mp hf
  have hN : cfg1.N = 64 := N_1
  have ht := t.isLt
  obtain ⟨-, -, -, -, -, -, -, -, -, -, -, -, e0, e1⟩ := gcn_idx_facts t
  show (cfg1.win 6).cut (grid1.coords t) ((gcnDat (F := Ideal) V c).after 6 t) = _
  rw [gcnDat_after_out]
  funext y
  obtain ⟨r, o, rfl⟩ : ∃ (r : Fin 1024) (o : Fin 256), y = ix2 r o := ⟨y 0, y 1, eq_ix2 y⟩
  have hr := r.isLt
  show gcnOutAt (F := Ideal) V c t (ix2 r o)
    = Cert.Spec.kerOutV (adjArr V c) (featArr V c) (facArr V c) (wArr V c) (b1Arr V c) (b2Arr V c) (((cfg1.win 6).blk t).view.emb (ix2 r o))
  rw [out_apply V c t h7 r o ⟨1024 * (t.val / 8) + r.val, by omega⟩ rfl]
  congr 1
  funext a
  apply Fin.ext
  match a with
  | ⟨0, _⟩ => show 1024 * (t.val / 8) + r.val = win1_6.index t (0 : Fin 2) * 1024 + 1 * r.val; rw [e0]; omega
  | ⟨1, _⟩ => show o.val = win1_6.index t (1 : Fin 2) * 256 + 1 * o.val; rw [e1]; omega

/-- An entry of the output array is in point `t`'s block when each coordinate is in the block's range on its axis. -/
theorem mem_outBlk (t : Fin cfg1.N) (i : S8192x256.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v47).slice (win1_6.rect t)).set ↔ _
  rw [View.set_slice_whole, Rect.mem_set_unit]
  exact Iff.rfl

/-- Row `i` of the output array is written back by the last point of its row block, 8·(i / 1024) + 7. -/
theorem gcn_cover (i : S8192x256.Idx) : ∃ t : Fin cfg1.N, (cfg1.win 6).flush t = true ∧ i ∈ ((cfg1.win 6).blk t).view.set := by
  have h0 : (i 0).val < 8192 := (i 0).isLt
  have h1 : (i 1).val < 256 := (i 1).isLt
  have hN : cfg1.N = 64 := N_1
  obtain ⟨t, ht⟩ : ∃ t : Fin cfg1.N, t.val = 8 * ((i 0).val / 1024) + 7 := ⟨⟨8 * ((i 0).val / 1024) + 7, by rw [hN]; omega⟩, rfl⟩
  obtain ⟨-, -, -, -, -, -, -, -, -, -, -, -, e0, e1⟩ := gcn_idx_facts t
  refine ⟨t, (flush1_6 t).mpr (by omega), ?_⟩
  rw [mem_outBlk]
  intro a
  match a with
  | ⟨0, _⟩ => show win1_6.index t (0 : Fin 2) * 1024 ≤ (i 0).val ∧ (i 0).val < win1_6.index t (0 : Fin 2) * 1024 + 1024; rw [e0]; omega
  | ⟨1, _⟩ => show win1_6.index t (1 : Fin 2) * 256 ≤ (i 1).val ∧ (i 1).val < win1_6.index t (1 : Fin 2) * 256 + 256; rw [e1]; omega

/-- After the region, the second kernel's output array is `Spec.kerOutV` of the arrays the region was entered with. -/
theorem gcn_final (c : Dev nD) :
    ((gcnDat (F := Ideal) V c).arrAt 6 cfg1.N : S8192x256.Idx → EReal)
      = Cert.Spec.kerOutV (V c main_v35) (V c main_v44) (V c main_v42) (V c main_arg1) (V c main_v45) (V c main_v46) :=
  (gcnDat (F := Ideal) V c).arrAt_eq_of_cover 6
    (Cert.Spec.kerOutV (adjArr V c) (featArr V c) (facArr V c) (wArr V c) (b1Arr V c) (b2Arr V c))
    (fun t hf => gcn_flushed_eq V c t hf) gcn_cover

end

end GcnLeg
end Cert.KernelIdeal.Hand
end
-- ==== Proof.KI.HostRead.lean ====
/-
  The host stretches of the kernel program between the two kernels, read at an index: each row sum becomes its row
  factor, the features' rows are scaled by the row factors, and the two bias vectors are laid out as rows.
-/
import proofs.«181802_j26431228739923_1_alg».proof.Proof.Gen.KernelIdeal.Launch
import proofs.«181802_j26431228739923_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- What the three host stretches between the kernels leave, from any contents `X` they start at. -/
abbrev between (X : Valuation τ sig (Elt Ideal)) : Valuation τ sig (Elt Ideal) :=
  StableHlo.after hostOps1_2 (StableHlo.after hostOps1_1 (StableHlo.after hostOps1 X))

/-- The buffers the stretches read, and the ones they write that the second kernel takes, each at its literal type. -/
abbrev inDeg (X : Valuation τ sig (Elt Ideal)) : S8192x1.Idx → EReal := X (Proc.devRef .tc main_v36)
abbrev inFeat (X : Valuation τ sig (Elt Ideal)) : S8192x256.Idx → EReal := X (Proc.devRef .tc main_arg0)
abbrev inB (X : Valuation τ sig (Elt Ideal)) : S256.Idx → EReal := X (Proc.devRef .tc main_arg2)
abbrev inBias (X : Valuation τ sig (Elt Ideal)) : S256.Idx → EReal := X (Proc.devRef .tc main_arg3)
abbrev outFac (X : Valuation τ sig (Elt Ideal)) : S8192x1.Idx → EReal := between X (Proc.devRef .tc main_v42)
abbrev outFeat (X : Valuation τ sig (Elt Ideal)) : S8192x256.Idx → EReal := between X (Proc.devRef .tc main_v44)
abbrev outB (X : Valuation τ sig (Elt Ideal)) : S1x256.Idx → EReal := between X (Proc.devRef .tc main_v45)
abbrev outBias (X : Valuation τ sig (Elt Ideal)) : S1x256.Idx → EReal := between X (Proc.devRef .tc main_v46)

/-- Each row factor is the inverse square root of the row sum found in the first kernel's output array. -/
theorem between_rowfac (X : Valuation τ sig (Elt Ideal)) : outFac X = fun i => Cert.Spec.dis (inDeg X i) := by
  show StableHlo.after hostOps1_2 (StableHlo.after hostOps1_1 (StableHlo.after hostOps1 X)) (Proc.devRef .tc main_v42) = _
  after_results
  simp only [StableHlo.TRef.ofBuf, StableHlo.TRef.toBuf, cast_eq]
  funext i
  unfold Cert.Spec.dis
  rfl

/-- The scaled features: each row of the features times its row factor. -/
theorem between_feat (X : Valuation τ sig (Elt Ideal)) :
    outFeat X = fun i => outFac X (ix2 (i 0) (0 : Fin 1)) * inFeat X i := by
  rw [between_rowfac]
  show StableHlo.after hostOps1_2 (StableHlo.after hostOps1_1 (StableHlo.after hostOps1 X)) (Proc.devRef .tc main_v44) = _
  after_results
  simp only [StableHlo.TRef.ofBuf, StableHlo.TRef.toBuf, cast_eq]
  funext i
  rw [mulf_apply, broadcastInDim_apply _ bcast_S8192x1_S8192x256_0_1 _ i (ix2 (i 0) (0 : Fin 1)) (fun a => match a with | ⟨0, _⟩ => rfl | ⟨1, _⟩ => rfl)]
  unfold Cert.Spec.dis
  rfl

/-- The linear layer's bias as a row. -/
theorem between_b (X : Valuation τ sig (Elt Ideal)) (o : Fin 256) : outB X (ix2 (0 : Fin 1) o) = inB X (ix1 o) := by
  have e : outB X = shapeCast S1x256 (inB X) shapeCasts_S256_S1x256 := by
    show StableHlo.after hostOps1_2 (StableHlo.after hostOps1_1 (StableHlo.after hostOps1 X)) (Proc.devRef .tc main_v45) = _
    after_results
    rfl
  rw [e]
  exact shapeCast_a_1a_apply (inB X) shapeCasts_S256_S1x256 0 o

/-- The extra bias as a row. -/
theorem between_bias (X : Valuation τ sig (Elt Ideal)) (o : Fin 256) : outBias X (ix2 (0 : Fin 1) o) = inBias X (ix1 o) := by
  have e : outBias X = shapeCast S1x256 (inBias X) shapeCasts_S256_S1x256 := by
    show StableHlo.after hostOps1_2 (StableHlo.after hostOps1_1 (StableHlo.after hostOps1 X)) (Proc.devRef .tc main_v46) = _
    after_results
    rfl
  rw [e]
  exact shapeCast_a_1a_apply (inBias X) shapeCasts_S256_S1x256 0 o

end Cert.KernelIdeal.Hand
end
-- ==== Proof.KI.Value.lean ====
/-
  The kernel program's result as a function of its arguments.

  The adjacency matrix the first kernel is entered with is `a`; its output column holds the row sums of `a`; the host
  stretches between the kernels turn them into the row factors `dinv a`, scale the features' rows by them and lay the two
  bias vectors out as rows; the second kernel's output is `Spec.kerOutV` of these, which is `Spec.kerOut a x W b bias`.
-/
import proofs.«181802_j26431228739923_1_alg».proof.Proof.KI.Launch
import proofs.«181802_j26431228739923_1_alg».proof.Proof.KI.Args
import proofs.«181802_j26431228739923_1_alg».proof.Proof.KI.DegValue
import proofs.«181802_j26431228739923_1_alg».proof.Proof.KI.GcnValue
import proofs.«181802_j26431228739923_1_alg».proof.Proof.KI.HostRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The adjacency matrix as the first kernel finds it, and the arguments, each at its literal type. -/
abbrev adjK (c : Dev nD) : S8192x8192.Idx → EReal := W1 m ρ c (Proc.devRef .tc main_v35)
abbrev argX (c : Dev nD) : S8192x256.Idx → EReal := m ((c.tc : Thread nD τ).loc main_arg0)
abbrev argW (c : Dev nD) : S256x256.Idx → EReal := m ((c.tc : Thread nD τ).loc main_arg1)
abbrev argB (c : Dev nD) : S256.Idx → EReal := m ((c.tc : Thread nD τ).loc main_arg2)
abbrev argBias (c : Dev nD) : S256.Idx → EReal := m ((c.tc : Thread nD τ).loc main_arg3)

theorem V5_adj (c : Dev nD) : (V5 m ρ c main_v35 : S8192x8192.Idx → EReal) = adjK m ρ c :=
  (W5_keep m ρ c main_v35 (by decide) (by decide) (by decide)).trans (W2_adj m ρ c)

theorem V5_W (c : Dev nD) : (V5 m ρ c main_arg1 : S256x256.Idx → EReal) = argW m c :=
  (W5_keep m ρ c main_arg1 (by decide) (by decide) (by decide)).trans (W2_arg m ρ c main_arg1 (by decide) (by decide))

theorem inFeat_eq (c : Dev nD) : inFeat (W2 m ρ c) = argX m c := W2_arg m ρ c main_arg0 (by decide) (by decide)
theorem inB_eq (c : Dev nD) : inB (W2 m ρ c) = argB m c := W2_arg m ρ c main_arg2 (by decide) (by decide)
theorem inBias_eq (c : Dev nD) : inBias (W2 m ρ c) = argBias m c := W2_arg m ρ c main_arg3 (by decide) (by decide)

/-- The first kernel's output column holds the adjacency matrix's row sums. -/
theorem inDeg_eq (c : Dev nD) (i : Fin 8192) : inDeg (W2 m ρ c) (ix2 i (0 : Fin 1)) = Cert.Spec.deg (adjK m ρ c) i := by
  have e : inDeg (W2 m ρ c) = ((degDat (F := Ideal) (V1 m ρ) c).arrAt 1 cfg0.N : S8192x1.Idx → EReal) := W2_arr m ρ c 1
  rw [e]
  exact DegLeg.deg_final (V1 m ρ) c i

/-- The row factors as the second kernel finds them. -/
theorem outFac_eq (c : Dev nD) (i : Fin 8192) : outFac (W2 m ρ c) (ix2 i (0 : Fin 1)) = Cert.Spec.dinv (adjK m ρ c) i := by
  rw [between_rowfac]
  show Cert.Spec.dis (inDeg (W2 m ρ c) (ix2 i (0 : Fin 1))) = _
  rw [inDeg_eq]
  rfl

/-- THE KERNEL PROGRAM'S RESULT: the second kernel's output array at the end is `Spec.kerOut` of the adjacency matrix
    and the arguments. -/
theorem result_eq (c : Dev nD) :
    (W6 m ρ c (Proc.devRef .tc main_v47) : S8192x256.Idx → EReal)
      = Cert.Spec.kerOut (adjK m ρ c) (argX m c) (argW m c) (argB m c) (argBias m c) := by
  have e : (W6 m ρ c (Proc.devRef .tc main_v47) : S8192x256.Idx → EReal)
      = ((gcnDat (F := Ideal) (V5 m ρ) c).arrAt 6 cfg1.N : S8192x256.Idx → EReal) := W6_arr m ρ c 6
  rw [e, GcnLeg.gcn_final (V5 m ρ) c, V5_adj, V5_W]
  funext p
  unfold Cert.Spec.kerOutV Cert.Spec.kerOut
  have hfeat : ∀ (j : Fin 8192) (q : Fin 256), (V5 m ρ c main_v44 : S8192x256.Idx → EReal) (ix2 j q)
      = Cert.Spec.dinv (adjK m ρ c) j * argX m c (ix2 j q) := fun j q => by
    have := congrFun (between_feat (W2 m ρ c)) (ix2 j q)
    rw [inFeat_eq] at this
    exact this.trans (by rw [outFac_eq])
  have hfac : (V5 m ρ c main_v42 : S8192x1.Idx → EReal) (ix2 (p 0) (0 : Fin 1)) = Cert.Spec.dinv (adjK m ρ c) (p 0) :=
    outFac_eq m ρ c (p 0)
  have hb : (V5 m ρ c main_v45 : S1x256.Idx → EReal) (ix2 (0 : Fin 1) (p 1)) = argB m c (ix1 (p 1)) :=
    (between_b (W2 m ρ c) (p 1)).trans (congrFun (inB_eq m ρ c) _)
  have hbias : (V5 m ρ c main_v46 : S1x256.Idx → EReal) (ix2 (0 : Fin 1) (p 1)) = argBias m c (ix1 (p 1)) :=
    (between_bias (W2 m ρ c) (p 1)).trans (congrFun (inBias_eq m ρ c) _)
  simp only [hfeat, hfac, hb, hbias]

end Cert.KernelIdeal.Hand
end
-- ==== Proof.KI.AdjRead.lean ====
/-
  The adjacency matrix the first kernel is entered with is the one the reference builds: the same host operations on the
  same edge list.
-/
import proofs.«181802_j26431228739923_1_alg».proof.Proof.Gen.KernelIdeal.Launch
import proofs.«181802_j26431228739923_1_alg».proof.Proof.RefReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option maxRecDepth 65536 in
theorem adj_read (X : Valuation τ sig (Elt Ideal)) :
    (StableHlo.after hostOps0 X (Proc.devRef .tc main_v35) : S8192x8192.Idx → EReal)
      = Cert.ReferenceIdeal.ReadP.val_main_v35 (F := Ideal) (X (Proc.devRef .tc main_arg4)) := by
  after_results_simp <;> rfl

end Cert.KernelIdeal.Hand
end
-- ==== Proof.LibScatterReal.lean ====
import Idealize.ShloMosaic.PureOps.ShapeOps
import Idealize.ShloMosaic.PureOps.Ideal
import proofs.«181802_j26431228739923_1_alg».proof.Proof.LibRealSums

/-! # Scatters keep what their operands' elements have

A scatter whose body returns the update (an overwrite) is a left fold over the updates that at each step either leaves the
array as it is or replaces one element by an update: every element of the result is an element of the operand or one of the
updates, so a property of all of those is a property of every element of the result (`scatter_set_forall`, by the fold
invariant `foldl_keeps`). An accumulating scatter over the extended reals leaves at each index the operand's element plus a
finite sum of updates: real numbers scattered into real numbers give real numbers (`hostScatterAdd_isReal`). -/

open scoped BigOperators

namespace Idealize.ShloMosaic.ScatterReal

open Idealize.ShloMosaic Idealize.ShloMosaic.RealSums

/-- A left fold keeps a property that each of its steps keeps. -/
theorem foldl_keeps {β γ : Type*} (Q : β → Prop) (f : β → γ → β) (hf : ∀ b c, Q b → Q (f b c)) (l : List γ) (b : β)
    (hb : Q b) : Q (l.foldl f b) := by
  induction l generalizing b with
  | nil => exact hb
  | cons c l ih => rw [List.foldl_cons]; exact ih _ (hf b c hb)

/-- An overwriting scatter (its body returns the update) leaves at each index either an element of the operand or one of
    the updates: a property that all of those have, every element of the result has. -/
theorem scatter_set_forall {s si u : Shape} {α : Type} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  refine foldl_keeps (fun r : s.Idx → α => ∀ i, P (r i)) _ ?_ _ x hx i
  intro r n hr i'
  generalize d.resultIdx? (u.rowMajor.symm n) idx = t
  cases t with
  | none => exact hr i'
  | some i₀ =>
    show P (if i' = i₀ then upd (u.rowMajor.symm n) else r i')
    split_ifs
    · exact hu _
    · exact hr i'

/-- An accumulating scatter of real numbers into real numbers holds real numbers: each element is the operand's plus a
    finite sum of updates. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

end Idealize.ShloMosaic.ScatterReal
-- ==== Proof.RefSide.lean ====
/-
  The reference, read as one function of the argument arrays and the dense adjacency matrix, and the two facts about real
  numbers the comparison with the kernel needs: the adjacency matrix built from the edge list holds real numbers (zeros,
  overwritten by ones at the listed edges, plus one on the diagonal).
-/
import proofs.«181802_j26431228739923_1_alg».proof.Proof.RefReadP
import proofs.«181802_j26431228739923_1_alg».proof.Proof.Spec
import proofs.«181802_j26431228739923_1_alg».proof.Proof.LibScatterReal

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.ShloMosaic.RealSums
open Idealize.ShloMosaic.ScatterReal

/-! ## The stages of the reference at an index given by its coordinates -/

/-- A row sum of the adjacency matrix: the reduction starts from the word of zero. -/
theorem v36_at (e : (⟨S2x131072, .i32⟩ : BufTy).Contents (Elt Ideal)) (i : Fin 8192) :
    val_main_v36 (F := Ideal) e (ix1 i) = Cert.Spec.deg (val_main_v35 (F := Ideal) e) i := by
  rw [val_main_v36_apply, val_main_cst_9_apply, Ideal.ofBits_def, Ideal.ofBits_zero_f32, zero_add]
  unfold Cert.Spec.deg
  refine Finset.sum_congr rfl fun k _ => ?_
  exact congrArg _ (funext fun a => Fin.ext (by match a with | ⟨0, _⟩ => rfl | ⟨1, _⟩ => rfl))

/-- The row factor: the select of the quotient where the row sum is positive, of zero elsewhere. -/
theorem v42_at (e : (⟨S2x131072, .i32⟩ : BufTy).Contents (Elt Ideal)) (i : Fin 8192) :
    val_main_v42 (F := Ideal) e (ix1 i) = Cert.Spec.dinv (val_main_v35 (F := Ideal) e) i := by
  rw [val_main_v42_apply, val_main_v38_apply, val_main_v41_apply, val_main_v39_apply, val_main_v40_apply, val_main_v37_apply,
    val_main_call0_v1_apply, val_main_call0_v0_apply, val_main_cst_10_apply, val_main_cst_11_apply, val_main_cst_12_apply, v36_at]
  unfold Cert.Spec.dinv Cert.Spec.dis
  simp only [Ideal.cmpf_def, Ideal.hostDivf_def, Ideal.hostUnary_sqrt_def, Ideal.ofBits_def]

/-- An entry of the normalised matrix. -/
theorem v48_at (e : (⟨S2x131072, .i32⟩ : BufTy).Contents (Elt Ideal)) (i j : Fin 8192) :
    val_main_v48 (F := Ideal) e (ix2 i j)
      = (Cert.Spec.dinv (val_main_v35 (F := Ideal) e) i * val_main_v35 (F := Ideal) e (ix2 i j))
          * Cert.Spec.dinv (val_main_v35 (F := Ideal) e) j := by
  have h1 : idx_main_v43 (idx_main_v44 (ix2 i j)) = ix1 i := funext fun a => Fin.ext (by match a with | ⟨0, _⟩ => rfl)
  have h2 : idx_main_v46 (idx_main_v47 (ix2 i j)) = ix1 j := funext fun a => Fin.ext (by match a with | ⟨0, _⟩ => rfl)
  rw [val_main_v48_apply, val_main_v45_apply, val_main_v44_apply, val_main_v43_apply, val_main_v47_apply, val_main_v46_apply,
    h1, h2, v42_at, v42_at]
  rfl

/-- The normalised matrix times the features. -/
theorem v49_at (x : (⟨S8192x256, .f32⟩ : BufTy).Contents (Elt Ideal)) (e : (⟨S2x131072, .i32⟩ : BufTy).Contents (Elt Ideal))
    (i : Fin 8192) (c : Fin 256) :
    val_main_v49 (F := Ideal) x e (ix2 i c)
      = ∑ j : Fin 8192, ((Cert.Spec.dinv (val_main_v35 (F := Ideal) e) i * val_main_v35 (F := Ideal) e (ix2 i j))
          * Cert.Spec.dinv (val_main_v35 (F := Ideal) e) j) * x (ix2 j c) := by
  rw [val_main_v49_apply]
  refine Finset.sum_congr rfl fun k _ => ?_
  have h1 : lidx_main_v49 (ix2 i c) k = ix2 i k := funext fun a => Fin.ext (by match a with | ⟨0, _⟩ => rfl | ⟨1, _⟩ => rfl)
  have h2 : ridx_main_v49 (ix2 i c) k = ix2 k c := funext fun a => Fin.ext (by match a with | ⟨0, _⟩ => rfl | ⟨1, _⟩ => rfl)
  rw [h1, h2, v48_at]

/-- The reference's result is `Spec.refOut` of the adjacency matrix it builds (its stage `val_main_v35`) and the arguments. -/
theorem ref_value (x : (⟨S8192x256, .f32⟩ : BufTy).Contents (Elt Ideal)) (W : (⟨S256x256, .f32⟩ : BufTy).Contents (Elt Ideal))
    (b bias : (⟨S256, .f32⟩ : BufTy).Contents (Elt Ideal)) (e : (⟨S2x131072, .i32⟩ : BufTy).Contents (Elt Ideal)) :
    val_main_v57 (F := Ideal) x W b bias e = Cert.Spec.refOut (val_main_v35 (F := Ideal) e) x W b bias := by
  funext p
  obtain ⟨i, o, rfl⟩ : ∃ i o, p = ix2 i o := ⟨p 0, p 1, eq_ix2 p⟩
  have hb : idx_main_v52 (idx_main_v53 (ix2 i o)) = ix1 o := funext fun a => Fin.ext (by match a with | ⟨0, _⟩ => rfl)
  have hb' : idx_main_v55 (idx_main_v56 (ix2 i o)) = ix1 o := funext fun a => Fin.ext (by match a with | ⟨0, _⟩ => rfl)
  rw [val_main_v57_apply, val_main_v54_apply, val_main_v51_apply, val_main_v56_apply, val_main_v55_apply, val_main_v53_apply,
    val_main_v52_apply, hb, hb', Ideal.addf_def, Ideal.addf_def]
  unfold Cert.Spec.refOut
  refine congrArg (· + bias (ix1 o)) (congrArg (· + b (ix1 o)) (Finset.sum_congr rfl fun k _ => ?_))
  have h1 : lidx_main_v51 (ix2 i o) k = ix2 i k := funext fun a => Fin.ext (by match a with | ⟨0, _⟩ => rfl | ⟨1, _⟩ => rfl)
  have h2 : idx_main_v50 (ridx_main_v51 (ix2 i o) k) = ix2 o k := funext fun a => Fin.ext (by match a with | ⟨0, _⟩ => rfl | ⟨1, _⟩ => rfl)
  rw [h1, val_main_v50_apply, h2, v49_at]

/-- Every entry of the adjacency matrix built from the edge list is a real number. -/
theorem adj_isReal (e : (⟨S2x131072, .i32⟩ : BufTy).Contents (Elt Ideal)) (p : S8192x8192.Idx) :
    IsReal (val_main_v35 (F := Ideal) e p) := by
  have one_real : IsReal (FloatOps.ofBits (F := Ideal) .f32 0x3F800000#32) :=
    ⟨1, by rw [EReal.coe_one]; exact Cert.Spec.one_word_eq_one⟩
  unfold val_main_v35
  refine hostScatterAdd_isReal _ _ _ _ ?_ ?_ p
  · intro i
    unfold val_main_v19
    refine scatter_set_forall _ IsReal _ _ _ ?_ ?_ i
    · intro i'
      rw [val_main_v0_apply, val_main_cst_apply, Ideal.ofBits_def, Ideal.ofBits_zero_f32]
      exact IsReal.zero
    · intro j
      rw [val_main_v18_apply, val_main_cst_3_apply]
      exact one_real
  · intro j
    rw [val_main_v34_apply, val_main_cst_8_apply]
    exact one_real

end Cert.ReferenceIdeal.RefValue

end
-- ==== Proof.PreReal.lean ====
/-
  Under the precondition — every float input finite — every entry of the features is a real number: the precondition's
  first conjunct says |x| < +∞ at every index, and an extended real whose absolute value is below +∞ is a real.
-/
import proofs.«181802_j26431228739923_1_alg».proof.Pre_finite_inputs
import proofs.«181802_j26431228739923_1_alg».proof.Proof.LibRealSums
import Idealize.ShloMosaic.PureOps.Ideal.Laws
import Idealize.ShloMosaic.Lib.ReduceAll
import Idealize.ShloMosaic.Lib.ValueIdx

noncomputable section

namespace Cert.Pre_finite_inputs.Real

open Cert.Pre_finite_inputs
open Idealize.ShloMosaic Idealize.ShloMosaic.ValueIdx Idealize.ShloMosaic.RealSums

theorem x_isReal_of_pre [Cert.Pre_finite_inputs.Facts] (x : FVec Ideal S8192x256 .f32) (W : FVec Ideal S256x256 .f32)
    (b bias : FVec Ideal S256 .f32) (e : IVec S2x131072 32)
    (h : Cert.Pre_finite_inputs.fn (F := Ideal) x W b bias e = fun _ => 1#1) (p : S8192x256.Idx) : IsReal (x p) := by
  -- the rank-0 result has a single index
  haveI : Subsingleton S_.Idx := ⟨fun a b => funext fun d => d.elim0⟩
  -- the value of the precondition at its one index is 1
  have h0 := congrFun h ValueIdx.ix0
  dsimp only [Cert.Pre_finite_inputs.fn, Cert.Pre_finite_inputs.fn_part1, andi] at h0
  -- a conjunction that is 1 has every conjunct 1: peel down to the first, the one about the features
  have h1 := (IntOp.andi_eq_one.1 h0).1
  have h2 := (IntOp.andi_eq_one.1 h1).1
  have h3 := (IntOp.andi_eq_one.1 h2).1
  -- an "all" that is 1 is 1 at every index: |x p| < +∞ as a comparison word
  have hp := Host.reduce_andi_all _ _ _ _ _ h3 p
  -- +∞ is the pattern 0x7F800000
  have htop : Ideal.ofBits .f32 0x7F800000#32 = (⊤ : EReal) := by simp [Ideal.ofBits, Ideal.ieee]
  have hlt : max (x p : EReal) (-(x p : EReal)) < ⊤ := by
    have hc : Ideal.cmp .olt (max (x p : EReal) (-(x p : EReal))) (Ideal.ofBits .f32 0x7F800000#32) = 1#1 := hp
    rw [htop] at hc
    by_contra hn
    simp [Ideal.cmp, hn] at hc
  -- an extended real with |v| < +∞ is neither infinity, hence a real
  obtain ⟨hlt1, hlt2⟩ := max_lt_iff.1 hlt
  induction hx : (x p : EReal) using EReal.rec with
  | bot => rw [hx] at hlt2; simp at hlt2
  | top => rw [hx] at hlt1; simp at hlt1
  | coe r => exact ⟨r, rfl⟩

end Cert.Pre_finite_inputs.Real

end
-- ==== Proof.lean ====
/-
  The certificate of a dense-adjacency graph convolution: a Pallas program of two kernels against its jnp reference.

  Both programs build the dense adjacency matrix `a` (8192×8192) from the edge list by the same host operations: zeros,
  ones scattered at the listed edges, one added on the diagonal. The reference takes the row sums `deg`, their inverse
  square roots `dinv` (zero where a row sum is not positive), forms `dinv i · a i j · dinv j`, multiplies by the
  features `x`, applies the linear layer `W` and adds the two biases. The kernel program computes the row sums in a
  first kernel (a running column vector over eight column blocks), scales the features' rows by `dinv` on the host, and in
  a second kernel accumulates `a · (dinv ⊙ x)` over eight column blocks, scales the rows of the product by `dinv`,
  applies `W` and adds the biases.

  * The three frames: each program runs to the end without a fault and leaves its arguments unchanged — for the kernel
    program at both instances from one run of the whole program (the host stretches and the two kernel regions in order),
    for the reference from its run.
  * The idealization rewrote nothing, so the preservation claim is trivial.
  * At the ideal instance the two results agree: the kernel program's is `Spec.kerOut a x W b bias`, the reference's
    `Spec.refOut a x W b bias`, and the two are equal because every entry of `a` is a real number (0, 1 or 2) and, under
    the precondition, so is every entry of `x`: the row factor then moves through the finite sum over the columns.
-/
import proofs.«181802_j26431228739923_1_alg».proof.Defs
import proofs.«181802_j26431228739923_1_alg».proof.Proof.Gen.Kernel
import proofs.«181802_j26431228739923_1_alg».proof.Proof.Gen.KernelIdeal
import proofs.«181802_j26431228739923_1_alg».proof.Proof.Gen.ReferenceIdeal
import proofs.«181802_j26431228739923_1_alg».proof.Proof.Gen.Pre_finite_inputs
import proofs.«181802_j26431228739923_1_alg».proof.Proof.KB.Launch
import proofs.«181802_j26431228739923_1_alg».proof.Proof.KB.Args
import proofs.«181802_j26431228739923_1_alg».proof.Proof.KI.Launch
import proofs.«181802_j26431228739923_1_alg».proof.Proof.KI.Args
import proofs.«181802_j26431228739923_1_alg».proof.Proof.KI.Value
import proofs.«181802_j26431228739923_1_alg».proof.Proof.KI.AdjRead
import proofs.«181802_j26431228739923_1_alg».proof.Proof.RefRunP
import proofs.«181802_j26431228739923_1_alg».proof.Proof.RefReadP
import proofs.«181802_j26431228739923_1_alg».proof.Proof.RefSide
import proofs.«181802_j26431228739923_1_alg».proof.Proof.PreReal
import proofs.«181802_j26431228739923_1_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.RealSums

/-- The word-level kernel program runs and leaves its arguments as launched. -/
theorem frame_kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W6_arg0 m ρ c),
     (h c _ (Cert.Kernel.Hand.mem_uc Cert.Kernel.main_arg1 (by decide))).trans (Cert.Kernel.Hand.W6_arg1 m ρ c),
     (h c _ (Cert.Kernel.Hand.mem_uc Cert.Kernel.main_arg2 (by decide))).trans (Cert.Kernel.Hand.W6_arg2 m ρ c),
     (h c _ (Cert.Kernel.Hand.mem_uc Cert.Kernel.main_arg3 (by decide))).trans (Cert.Kernel.Hand.W6_arg3 m ρ c),
     (h c _ (Cert.Kernel.Hand.mem_uc Cert.Kernel.main_arg4 (by decide))).trans (Cert.Kernel.Hand.W6_arg4 m ρ c)⟩)
    (Cert.Kernel.Hand.run_all (F := Bits) m ρ)

/-- The idealized kernel program runs and leaves its arguments as launched. -/
theorem frame_kernelIdeal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W6_arg0 m ρ c),
     (h c _ (Cert.KernelIdeal.Hand.mem_uc Cert.KernelIdeal.main_arg1 (by decide))).trans (Cert.KernelIdeal.Hand.W6_arg1 m ρ c),
     (h c _ (Cert.KernelIdeal.Hand.mem_uc Cert.KernelIdeal.main_arg2 (by decide))).trans (Cert.KernelIdeal.Hand.W6_arg2 m ρ c),
     (h c _ (Cert.KernelIdeal.Hand.mem_uc Cert.KernelIdeal.main_arg3 (by decide))).trans (Cert.KernelIdeal.Hand.W6_arg3 m ρ c),
     (h c _ (Cert.KernelIdeal.Hand.mem_uc Cert.KernelIdeal.main_arg4 (by decide))).trans (Cert.KernelIdeal.Hand.W6_arg4 m ρ c)⟩)
    (Cert.KernelIdeal.Hand.run_all (F := Ideal) m ρ)

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The reference's result from memory `m'`, as `Spec.refOut` of the adjacency matrix it builds. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v57 m' c
      = Cert.Spec.refOut (Cert.ReferenceIdeal.ReadP.val_main_v35 (F := Ideal) (m' ((c.tc : Thread Cert.ReferenceIdeal.nD Cert.ReferenceIdeal.τ).loc Cert.ReferenceIdeal.main_arg4)))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) :=
  (Cert.ReferenceIdeal.ReadP.val_main_v57_eq m' c).trans (Cert.ReferenceIdeal.RefValue.ref_value _ _ _ _ _)

/-- At the ideal instance, from memories agreeing on the arguments, both programs end with the same result. -/
theorem algebraic : Cert.algebraic_KernelIdeal_ReferenceIdeal := by
  intro m ρ m' ρ' hpre hagree
  refine ⟨fun c => Cert.KernelIdeal.Hand.W6 m ρ c (Proc.devRef .tc Cert.KernelIdeal.main_v47), ?_, ?_⟩
  · exact (θ_run Cert.KernelIdeal.defs _ _).mono (fun r h c =>
      ⟨h c _ (Cert.KernelIdeal.Hand.mem_uc Cert.KernelIdeal.main_v47 (by decide)),
       (h c _ (Cert.KernelIdeal.Hand.mem_uc Cert.KernelIdeal.main_arg0 (by decide))).trans (Cert.KernelIdeal.Hand.W6_arg0 m ρ c),
       (h c _ (Cert.KernelIdeal.Hand.mem_uc Cert.KernelIdeal.main_arg1 (by decide))).trans (Cert.KernelIdeal.Hand.W6_arg1 m ρ c),
       (h c _ (Cert.KernelIdeal.Hand.mem_uc Cert.KernelIdeal.main_arg2 (by decide))).trans (Cert.KernelIdeal.Hand.W6_arg2 m ρ c),
       (h c _ (Cert.KernelIdeal.Hand.mem_uc Cert.KernelIdeal.main_arg3 (by decide))).trans (Cert.KernelIdeal.Hand.W6_arg3 m ρ c),
       (h c _ (Cert.KernelIdeal.Hand.mem_uc Cert.KernelIdeal.main_arg4 (by decide))).trans (Cert.KernelIdeal.Hand.W6_arg4 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.ValueP.run (F := Ideal) m' ρ')
    rw [ref_result m' c, (hagree c).1, (hagree c).2.1, (hagree c).2.2.1, (hagree c).2.2.2.1, (hagree c).2.2.2.2]
    -- the kernel program's side
    have hk := Cert.KernelIdeal.Hand.result_eq m ρ c
    have hadj : Cert.KernelIdeal.Hand.adjK m ρ c
        = Cert.ReferenceIdeal.ReadP.val_main_v35 (F := Ideal) (m ((c.tc : Thread Cert.KernelIdeal.nD Cert.KernelIdeal.τ).loc Cert.KernelIdeal.main_arg4)) :=
      Cert.KernelIdeal.Hand.adj_read (Cert.KernelIdeal.Hand.W0 m ρ c)
    refine Eq.trans ?_ hk.symm
    rw [hadj]
    exact (Cert.Spec.kerOut_eq_refOut _ _ _ _ _
      (fun p => Cert.ReferenceIdeal.RefValue.adj_isReal _ p)
      (fun p => Cert.Pre_finite_inputs.Real.x_isReal_of_pre _ _ _ _ _ (hpre c) p)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
